-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S400000x147 : Shape := ⟨2, ![400000, 147]⟩
abbrev S133x256 : Shape := ⟨2, ![133, 256]⟩
abbrev S147x256 : Shape := ⟨2, ![147, 256]⟩
abbrev S3x256x256 : Shape := ⟨3, ![3, 256, 256]⟩
abbrev S512x256 : Shape := ⟨2, ![512, 256]⟩
abbrev S256 : Shape := ⟨1, ![256]⟩
abbrev S768x256 : Shape := ⟨2, ![768, 256]⟩
abbrev S400000 : Shape := ⟨1, ![400000]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S400000x147 : S_.BroadcastsInDim S400000x147 (![] : Fin 0 → Fin S400000x147.rank)
  reducesTo_S400000x147_S_d0_1 : S400000x147.ReducesTo [0, 1] S_
  bcast_S_S133x256 : S_.BroadcastsInDim S133x256 (![] : Fin 0 → Fin S133x256.rank)
  reducesTo_S133x256_S_d0_1 : S133x256.ReducesTo [0, 1] S_
  bcast_S_S147x256 : S_.BroadcastsInDim S147x256 (![] : Fin 0 → Fin S147x256.rank)
  reducesTo_S147x256_S_d0_1 : S147x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S400000 : S_.BroadcastsInDim S400000 (![] : Fin 0 → Fin S400000.rank)
  reducesTo_S400000_S_d0 : S400000.ReducesTo [0] S_

variable [Facts]

def fn_part2 {F : FTy → Type} [FloatOps F] (main_arg7 : FVec F S768x256 .f32) (main_arg8 : IVec S400000 32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_c_14 : IVec S_ 32 := constantI S_ 32 0#32
  let main_v39 : IVec S400000 32 := broadcastInDim S400000 ![] bcast_S_S400000 main_c_14
  let main_v40 : IVec S400000 1 := cmpi .sge main_arg8 main_v39
  let main_c_15 : IVec S_ 32 := constantI S_ 32 100000#32
  let main_v41 : IVec S400000 32 := broadcastInDim S400000 ![] bcast_S_S400000 main_c_15
  let main_v42 : IVec S400000 1 := cmpi .slt main_arg8 main_v41
  let main_v43 : IVec S400000 1 := andi main_v40 main_v42
  let main_c_16 : IVec S_ 1 := constantI S_ 1 1#1
  let main_v44 : IVec S_ 1 := (fun x v => Host.reduce IntOp.andi x v reducesTo_S400000_S_d0 h_S_) main_v43 main_c_16
  let main_v45 : IVec S_ 1 := andi main_v38 main_v44
  main_v45

def fn_part1 {F : FTy → Type} [FloatOps F] (main_arg4 : FVec F S3x256x256 .f32) (main_arg5 : FVec F S512x256 .f32) (main_arg6 : FVec F S256 .f32) (main_arg7 : FVec F S768x256 .f32) (main_arg8 : IVec S400000 32) (main_v13 : IVec S_ 1) (main_v16 : IVec S147x256 1) : IVec S_ 1 :=
  let main_c_5 : IVec S_ 1 := constantI S_ 1 1#1
  let main_v17 : IVec S_ 1 := (fun x v => Host.reduce IntOp.andi x v reducesTo_S147x256_S_d0_1 h_S_) main_v16 main_c_5
  let main_v18 : IVec S_ 1 := andi main_v13 main_v17
  let main_v19 : FVec F S3x256x256 .f32 := Host.absf main_arg4
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S100000x133 .f32) (main_arg1 : FVec F S400000x147 .f32) (main_arg2 : FVec F S133x256 .f32) (main_arg3 : FVec F S147x256 .f32) (main_arg4 : FVec F S3x256x256 .f32) (main_arg5 : FVec F S512x256 .f32) (main_arg6 : FVec F S256 .f32) (main_arg7 : FVec F S768x256 .f32) (main_arg8 : IVec S400000 32) (main_arg9 : IVec S400000 32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S400000x147 .f32 := Host.absf main_arg1
  let main_cst_0 : FVec F S_ .f32 := constant S_ .f32 0x7F800000#32
  let main_v5 : FVec F S400000x147 .f32 := broadcastInDim S400000x147 ![] bcast_S_S400000x147 main_cst_0
  let main_v6 : IVec S400000x147 1 := cmpf .olt main_v4 main_v5
  let main_c_1 : IVec S_ 1 := constantI S_ 1 1#1
  let main_v7 : IVec S_ 1 := (fun x v => Host.reduce IntOp.andi x v reducesTo_S400000x147_S_d0_1 h_S_) main_v6 main_c_1
  let main_v8 : IVec S_ 1 := andi main_v3 main_v7
  let main_v9 : FVec F S133x256 .f32 := Host.absf main_arg2
  let main_cst_2 : FVec F S_ .f32 := constant S_ .f32 0x7F800000#32
  let main_v10 : FVec F S133x256 .f32 := broadcastInDim S133x256 ![] bcast_S_S133x256 main_cst_2
  let main_v11 : IVec S133x256 1 := cmpf .olt main_v9 main_v10
  let main_c_3 : IVec S_ 1 := constantI S_ 1 1#1
  let main_v12 : IVec S_ 1 := (fun x v => Host.reduce IntOp.andi x v reducesTo_S133x256_S_d0_1 h_S_) main_v11 main_c_3
  let main_v13 : IVec S_ 1 := andi main_v8 main_v12
  let main_v14 : FVec F S147x256 .f32 := Host.absf main_arg3
  let main_cst_4 : FVec F S_ .f32 := constant S_ .f32 0x7F800000#32
  let main_v15 : FVec F S147x256 .f32 := broadcastInDim S147x256 ![] bcast_S_S147x256 main_cst_4
  let main_v16 : IVec S147x256 1 := cmpf .olt main_v14 main_v15
  fn_part1 (F := F) main_arg4 main_arg5 main_arg6 main_arg7 main_arg8 main_v13 main_v16
-- ==== Kernel.lean ====
abbrev S100000x133 : Shape := ⟨2, ![100000, 133]⟩
abbrev S400000x147 : Shape := ⟨2, ![400000, 147]⟩
abbrev S133x256 : Shape := ⟨2, ![133, 256]⟩
abbrev S147x256 : Shape := ⟨2, ![147, 256]⟩
abbrev S3x256x256 : Shape := ⟨3, ![3, 256, 256]⟩
abbrev S512x256 : Shape := ⟨2, ![512, 256]⟩
abbrev S256 : Shape := ⟨1, ![256]⟩
abbrev S768x256 : Shape := ⟨2, ![768, 256]⟩
abbrev S400000 : Shape := ⟨1, ![400000]⟩
abbrev S100000x256 : Shape := ⟨2, ![100000, 256]⟩
abbrev S2000x133 : Shape := ⟨2, ![2000, 133]⟩
abbrev S2000x256 : Shape := ⟨2, ![2000, 256]⟩
abbrev S400000x256 : Shape := ⟨2, ![400000, 256]⟩
abbrev S2000x147 : Shape := ⟨2, ![2000, 147]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 116
  | .vmem => 51
  | .smem => 0
  | _ => 0

abbrev bufTy : (tb : Table) → Fin (tcTables nBuf tb) → BufTy
  | .hbm, ⟨0, _⟩ => ⟨S100000x133, .f32⟩
  | .hbm, ⟨1, _⟩ => ⟨S400000x147, .f32⟩
  | .hbm, ⟨2, _⟩ => ⟨S133x256, .f32⟩
  | .hbm, ⟨3, _⟩ => ⟨S147x256, .f32⟩
  | .hbm, ⟨4, _⟩ => ⟨S3x256x256, .f32⟩
  | .hbm, ⟨5, _⟩ => ⟨S512x256, .f32⟩
  | .hbm, ⟨6, _⟩ => ⟨S256, .f32⟩
  | .hbm, ⟨7, _⟩ => ⟨S768x256, .f32⟩
  | .hbm, ⟨8, _⟩ => ⟨S400000, .i32⟩
  | .hbm, ⟨9, _⟩ => ⟨S400000, .i32⟩
  | .hbm, ⟨10, _⟩ => ⟨S100000x256, .f32⟩
  | .hbm, ⟨11, _⟩ => ⟨S400000x256, .f32⟩
  | .hbm, ⟨12, _⟩ => ⟨S_, .f32⟩
  | .hbm, ⟨13, _⟩ => ⟨S100000x256, .f32⟩
  | .hbm, ⟨14, _⟩ => ⟨S400000x1, .i32⟩
  | .hbm, ⟨15, _⟩ => ⟨S100000x256, .f32⟩
  | .hbm, ⟨16, _⟩ => ⟨S100000x256, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S1, .i32⟩
  | .hbm, ⟨26, _⟩ => ⟨S_, .i32⟩
  | .hbm, ⟨27, _⟩ => ⟨S400000x1, .i32⟩
  | .hbm, ⟨28, _⟩ => ⟨S400000x1, .i1⟩
  | .hbm, ⟨29, _⟩ => ⟨S1x1, .i32⟩
  | .hbm, ⟨30, _⟩ => ⟨S400000x1, .i32⟩
  | .hbm, ⟨31, _⟩ => ⟨S400000x1, .i1⟩
  | .hbm, ⟨32, _⟩ => ⟨S400000x1, .i1⟩
  | .hbm, ⟨33, _⟩ => ⟨S_, .i1⟩
  | .hbm, ⟨34, _⟩ => ⟨S400000, .i1⟩
  | .hbm, ⟨35, _⟩ => ⟨S400000x256, .f32⟩
  | .hbm, ⟨36, _⟩ => ⟨S400000x256, .i1⟩
  | .hbm, ⟨37, _⟩ => ⟨S_, .f32⟩
  | .hbm, ⟨38, _⟩ => ⟨S400000x256, .f32⟩
  | .hbm, ⟨39, _⟩ => ⟨S400000x256, .f32⟩
  | .hbm, ⟨40, _⟩ => ⟨S1x256x256, .f32⟩
  | .hbm, ⟨41, _⟩ => ⟨S256x256, .f32⟩
  | .hbm, ⟨42, _⟩ => ⟨S400000x256, .f32⟩
  | .hbm, ⟨43, _⟩ => ⟨S_, .f32⟩
  | .hbm, ⟨44, _⟩ => ⟨S100000x256, .f32⟩
  | .hbm, ⟨45, _⟩ => ⟨S400000x1, .i32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S1, .i32⟩
  | .hbm, ⟨57, _⟩ => ⟨S_, .i32⟩
  | .hbm, ⟨58, _⟩ => ⟨S400000x1, .i32⟩
  | .hbm, ⟨59, _⟩ => ⟨S400000x1, .i1⟩
  | .hbm, ⟨60, _⟩ => ⟨S1x1, .i32⟩
  | .hbm, ⟨61, _⟩ => ⟨S400000x1, .i32⟩
  | .hbm, ⟨62, _⟩ => ⟨S400000x1, .i1⟩
  | .hbm, ⟨63, _⟩ => ⟨S400000x1, .i1⟩
  | .hbm, ⟨64, _⟩ => ⟨S_, .i1⟩
  | .hbm, ⟨65, _⟩ => ⟨S400000, .i1⟩
  | .hbm, ⟨66, _⟩ => ⟨S400000x256, .f32⟩
  | .hbm, ⟨67, _⟩ => ⟨S400000x256, .i1⟩
  | .hbm, ⟨68, _⟩ => ⟨S_, .f32⟩
  | .hbm, ⟨69, _⟩ => ⟨S400000x256, .f32⟩
  | .hbm, ⟨70, _⟩ => ⟨S400000x256, .f32⟩
  | .hbm, ⟨71, _⟩ => ⟨S1x256x256, .f32⟩
  | .hbm, ⟨72, _⟩ => ⟨S256x256, .f32⟩
  | .hbm, ⟨73, _⟩ => ⟨S400000x256, .f32⟩
  | .hbm, ⟨74, _⟩ => ⟨S_, .f32⟩
  | .hbm, ⟨75, _⟩ => ⟨S100000x256, .f32⟩
  | .hbm, ⟨76, _⟩ => ⟨S400000x1, .i32⟩
  | .hbm, ⟨77, _⟩ => ⟨S100000x256, .f32⟩
  | .hbm, ⟨78, _⟩ => ⟨S100000x256, .f32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S1, .i32⟩
  | .hbm, ⟨88, _⟩ => ⟨S_, .i32⟩
  | .hbm, ⟨89, _⟩ => ⟨S400000x1, .i32⟩
  | .hbm, ⟨90, _⟩ => ⟨S400000x1, .i1⟩
  | .hbm, ⟨91, _⟩ => ⟨S1x1, .i32⟩
  | .hbm, ⟨92, _⟩ => ⟨S400000x1, .i32⟩
  | .hbm, ⟨93, _⟩ => ⟨S400000x1, .i1⟩
  | .hbm, ⟨94, _⟩ => ⟨S400000x1, .i1⟩
  | .hbm, ⟨95, _⟩ => ⟨S_, .i1⟩
  | .hbm, ⟨96, _⟩ => ⟨S400000, .i1⟩
  | .hbm, ⟨97, _⟩ => ⟨S400000x256, .f32⟩
  | .hbm, ⟨98, _⟩ => ⟨S400000x256, .i1⟩
  | .hbm, ⟨99, _⟩ => ⟨S_, .f32⟩
  | .hbm, ⟨100, _⟩ => ⟨S400000x256, .f32⟩
  | .hbm, ⟨101, _⟩ => ⟨S400000x256, .f32⟩
  | .hbm, ⟨102, _⟩ => ⟨S1x256x256, .f32⟩
  | .hbm, ⟨103, _⟩ => ⟨S256x256, .f32⟩
  | .hbm, ⟨104, _⟩ => ⟨S400000x256, .f32⟩
  | .hbm, ⟨105, _⟩ => ⟨S_, .f32⟩
  | .hbm, ⟨106, _⟩ => ⟨S100000x256, .f32⟩
  | .hbm, ⟨107, _⟩ => ⟨S400000x1, .i32⟩
  | .hbm, ⟨108, _⟩ => ⟨S100000x256, .f32⟩
  | .hbm, ⟨109, _⟩ => ⟨S256x256, .f32⟩
  | .hbm, ⟨110, _⟩ => ⟨S256x256, .f32⟩
  | .hbm, ⟨111, _⟩ => ⟨S256x256, .f32⟩
  | .hbm, ⟨112, _⟩ => ⟨S256x256, .f32⟩
  | .hbm, ⟨113, _⟩ => ⟨S256x256, .f32⟩
  | .hbm, ⟨114, _⟩ => ⟨S1x256, .f32⟩
  | .hbm, ⟨115, _⟩ => ⟨S100000x256, .f32⟩
  | .local _ .vmem, ⟨0, _⟩ => ⟨S2000x133, .f32⟩
  | .local _ .vmem, ⟨1, _⟩ => ⟨S2000x133, .f32⟩
  | .local _ .vmem, ⟨2, _⟩ => ⟨S133x256, .f32⟩
  | .local _ .vmem, ⟨3, _⟩ => ⟨S2000x256, .f32⟩
  | .local _ .vmem, ⟨4, _⟩ => ⟨S2000x256, .f32⟩
  | .local _ .vmem, ⟨5, _⟩ => ⟨S2000x147, .f32⟩
  | .local _ .vmem, ⟨6, _⟩ => ⟨S2000x147, .f32⟩
  | .local _ .vmem, ⟨7, _⟩ => ⟨S147x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S256x256, .f32⟩
  | .local _ .vmem, ⟨44, _⟩ => ⟨S256x256, .f32⟩
  | .local _ .vmem, ⟨45, _⟩ => ⟨S256x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_cst_1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_cst_2 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc5_stg8_0 : Ref sig .tc := ⟨.vmem, 48, rfl⟩
abbrev cc5_stg9_0 : Ref sig .tc := ⟨.vmem, 49, rfl⟩
abbrev cc5_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem8_0 : DmaSem sig := 48
abbrev cc5_sem9_0 : DmaSem sig := 49
abbrev cc5_sem9_1 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x147 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S147x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  inb_S2000x133_S2000x133_0_0 : ∀ a, (![0, 0] : Fin 2 → Nat) a + S2000x133.size a ≤ S2000x133.size a
  h_S2000x133 : 0 < S2000x133.numel
  bitsLt_bf16_f32 : FTy.bits .bf16 < FTy.bits .f32
  inb_S133x256_S133x256_0_0 : ∀ a, (![0, 0] : Fin 2 → Nat) a + S133x256.size a ≤ S133x256.size a
  h_S133x256 : 0 < S133x256.numel
  inb_S2000x256_S2000x256_0_0 : ∀ a, (![0, 0] : Fin 2 → Nat) a + S2000x256.size a ≤ S2000x256.size a
  h_S2000x256 : 0 < S2000x256.numel
  inb_S2000x147_S2000x147_0_0 : ∀ a, (![0, 0] : Fin 2 → Nat) a + S2000x147.size a ≤ S2000x147.size a
  h_S2000x147 : 0 < S2000x147.numel
  inb_S147x256_S147x256_0_0 : ∀ a, (![0, 0] : Fin 2 → Nat) a + S147x256.size a ≤ S147x256.size a
  h_S147x256 : 0 < S147x256.numel
  bcast_S_S100000x256 : S_.BroadcastsInDim S100000x256 (![] : Fin 0 → Fin S100000x256.rank)
  bcast_S400000_S400000x1_0 : S400000.BroadcastsInDim S400000x1 (![0] : Fin 1 → Fin S400000x1.rank)
  bcast_S_S400000 : S_.BroadcastsInDim S400000 (![] : Fin 0 → Fin S400000.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x256_0 : S400000.BroadcastsInDim S400000x256 (![0] : Fin 1 → Fin S400000x256.rank)
  bcast_S_S400000x256 : S_.BroadcastsInDim S400000x256 (![] : Fin 0 → Fin S400000x256.rank)
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  rotates_S2000x256_d0 : S2000x256.Rotates 0 none
  iota_S2000x256_d0_w32 : S2000x256.Iotas .tc 32 [0]
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S768x256_S256x256_0_0 : S768x256.Slices ![0, 0] S256x256
  slices_S768x256_S256x256_256_0 : S768x256.Slices ![256, 0] S256x256
  slices_S768x256_S256x256_512_0 : S768x256.Slices ![512, 0] S256x256
  slices_S512x256_S256x256_0_0 : S512x256.Slices ![0, 0] S256x256
  slices_S512x256_S256x256_256_0 : S512x256.Slices ![256, 0] S256x256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x133_S133x256_S2000x256_1_0_0_1_n_n_wf : DotDims.WF S2000x133 S133x256 S2000x256 [1] [0] [0] [1] [] []
  dot_S2000x147_S147x256_S2000x256_1_0_0_1_n_n_wf : DotDims.WF S2000x147 S147x256 S2000x256 [1] [0] [0] [1] [] []
  scatter_S100000x256_S400000x1_S400000x256_1_0_0_1_wf : ScatterDims.WF S100000x256 S400000x1 S400000x256 [1] [0] [0] 1
  gather_S100000x256_S400000x1_S400000x256_1_0_n_n_0_1_1256_wf : GatherDims.WF S100000x256 S400000x1 S400000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x133.size a ≤ S100000x133.size a
  hwx0_0 : ∀ i : grid0.Coords, EltTy.bits .f32 = 32 ∨ (Rect.block (s := S100000x133) S2000x133.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S133x256.size a ≤ S133x256.size a
  hwx0_1 : ∀ i : grid0.Coords, EltTy.bits .f32 = 32 ∨ (Rect.block (s := S133x256) S133x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x147.size a ≤ S400000x147.size a
  hwx1_0 : ∀ i : grid1.Coords, EltTy.bits .f32 = 32 ∨ (Rect.block (s := S400000x147) S2000x147.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S147x256.size a ≤ S147x256.size a
  hwx1_1 : ∀ i : grid1.Coords, EltTy.bits .f32 = 32 ∨ (Rect.block (s := S147x256) S147x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S400000x256.size a
  hwx1_2 : ∀ i : grid1.Coords, EltTy.bits .f32 = 32 ∨ (Rect.block (s := S400000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S400000x256.size a
  hwx2_0 : ∀ i : grid2.Coords, EltTy.bits .f32 = 32 ∨ (Rect.block (s := S400000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S400000x256.size a
  hwx2_1 : ∀ i : grid2.Coords, EltTy.bits .f32 = 32 ∨ (Rect.block (s := S400000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S400000x256.size a
  hwx2_3 : ∀ i : grid2.Coords, EltTy.bits .f32 = 32 ∨ (Rect.block (s := S400000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S400000x256.size a
  hwx2_4 : ∀ i : grid2.Coords, EltTy.bits .f32 = 32 ∨ (Rect.block (s := S400000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S400000x256.size a
  hwx3_0 : ∀ i : grid3.Coords, EltTy.bits .f32 = 32 ∨ (Rect.block (s := S400000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S400000x256.size a
  hwx3_1 : ∀ i : grid3.Coords, EltTy.bits .f32 = 32 ∨ (Rect.block (s := S400000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S400000x256.size a
  hwx3_3 : ∀ i : grid3.Coords, EltTy.bits .f32 = 32 ∨ (Rect.block (s := S400000x256) S2000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S400000x256.size a
  hwx3_4 : ∀ i : grid3.Coords, EltTy.bits .f32 = 32 ∨ (Rect.block (s := S400000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S400000x256.size a
  hwx4_0 : ∀ i : grid4.Coords, EltTy.bits .f32 = 32 ∨ (Rect.block (s := S400000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S400000x256.size a
  hwx4_1 : ∀ i : grid4.Coords, EltTy.bits .f32 = 32 ∨ (Rect.block (s := S400000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S400000x256.size a
  hwx4_3 : ∀ i : grid4.Coords, EltTy.bits .f32 = 32 ∨ (Rect.block (s := S400000x256) S2000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S400000x256.size a
  hwx4_4 : ∀ i : grid4.Coords, EltTy.bits .f32 = 32 ∨ (Rect.block (s := S400000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S100000x256.size a
  hwx5_2 : ∀ i : grid5.Coords, EltTy.bits .f32 = 32 ∨ (Rect.block (s := S100000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .f32 = 32 ∨ (Rect.block (s := S256x256) S256x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x256.size a ≤ S256x256.size a
  hwx5_7 : ∀ i : grid5.Coords, EltTy.bits .f32 = 32 ∨ (Rect.block (s := S256x256) S256x256.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x256.size a ≤ S1x256.size a
  hwx5_8 : ∀ i : grid5.Coords, EltTy.bits .f32 = 32 ∨ (Rect.block (s := S1x256) S1x256.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x256.size a ≤ S100000x256.size a
  hwx5_9 : ∀ i : grid5.Coords, EltTy.bits .f32 = 32 ∨ (Rect.block (s := S100000x256) S2000x256.size (cc5_transform_9 i) (hinb5_9 i)).WholeWords (EltTy.packing .f32)

variable [Facts₀]

def dot_S2000x133_S133x256_S2000x256_1_0_0_1_n_n : DotDims S2000x133 S133x256 S2000x256 where
  lhsContracting := [1]
  rhsContracting := [0]
  lhsNonContracting := [0]
  rhsNonContracting := [1]
  lhsBatch := []
  rhsBatch := []
  wf := dot_S2000x133_S133x256_S2000x256_1_0_0_1_n_n_wf
def dot_S2000x147_S147x256_S2000x256_1_0_0_1_n_n : DotDims S2000x147 S147x256 S2000x256 where
  lhsContracting := [1]
  rhsContracting := [0]
  lhsNonContracting := [0]
  rhsNonContracting := [1]
  lhsBatch := []
  rhsBatch := []
  wf := dot_S2000x147_S147x256_S2000x256_1_0_0_1_n_n_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S133x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x147.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S147x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S2000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v1) S2000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v25) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v28) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v0) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v29) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v31) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v32) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v33) S256x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v34) S1x256.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v35) S2000x256.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x133 : Shape := ⟨2, ![100000, 133]⟩
abbrev S400000x147 : Shape := ⟨2, ![400000, 147]⟩
abbrev S133x256 : Shape := ⟨2, ![133, 256]⟩
abbrev S147x256 : Shape := ⟨2, ![147, 256]⟩
abbrev S3x256x256 : Shape := ⟨3, ![3, 256, 256]⟩
abbrev S512x256 : Shape := ⟨2, ![512, 256]⟩
abbrev S256 : Shape := ⟨1, ![256]⟩
abbrev S768x256 : Shape := ⟨2, ![768, 256]⟩
abbrev S400000 : Shape := ⟨1, ![400000]⟩
abbrev S100000x256 : Shape := ⟨2, ![100000, 256]⟩
abbrev S_ : Shape := ⟨0, ![]⟩
abbrev S400000x256 : Shape := ⟨2, ![400000, 256]⟩
abbrev S400000x1 : Shape := ⟨2, ![400000, 1]⟩
abbrev S1x256x256 : Shape := ⟨3, ![1, 256, 256]⟩
abbrev S256x256 : Shape := ⟨2, ![256, 256]⟩
abbrev S100000x768 : Shape := ⟨2, ![100000, 768]⟩
abbrev S100000x512 : Shape := ⟨2, ![100000, 512]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S100000x133, .f32⟩
  | 1 => ⟨S400000x147, .f32⟩
  | 2 => ⟨S133x256, .f32⟩
  | 3 => ⟨S147x256, .f32⟩
  | 4 => ⟨S3x256x256, .f32⟩
  | 5 => ⟨S512x256, .f32⟩
  | 6 => ⟨S256, .f32⟩
  | 7 => ⟨S768x256, .f32⟩
  | 8 => ⟨S400000, .i32⟩
  | 9 => ⟨S400000, .i32⟩
  | 10 => ⟨S100000x256, .f32⟩
  | 11 => ⟨S_, .f32⟩
  | 12 => ⟨S100000x256, .f32⟩
  | 13 => ⟨S100000x256, .f32⟩
  | 14 => ⟨S400000x256, .f32⟩
  | 15 => ⟨S_, .f32⟩
  | 16 => ⟨S400000x256, .f32⟩
  | 17 => ⟨S400000x256, .f32⟩
  | 18 => ⟨S400000, .i32⟩
  | 19 => ⟨S_, .i32⟩
  | 20 => ⟨S400000, .i32⟩
  | 21 => ⟨S400000, .i32⟩
  | 22 => ⟨S_, .f32⟩
  | 23 => ⟨S100000x256, .f32⟩
  | 24 => ⟨S400000x1, .i32⟩
  | 25 => ⟨S100000x256, .f32⟩
  | 26 => ⟨S100000x256, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x256, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x256, .f32⟩
  | 45 => ⟨S400000x256, .f32⟩
  | 46 => ⟨S1x256x256, .f32⟩
  | 47 => ⟨S256x256, .f32⟩
  | 48 => ⟨S400000x256, .f32⟩
  | 49 => ⟨S400000x256, .f32⟩
  | 50 => ⟨S_, .f32⟩
  | 51 => ⟨S400000x256, .f32⟩
  | 52 => ⟨S400000x256, .f32⟩
  | 53 => ⟨S_, .f32⟩
  | 54 => ⟨S100000x256, .f32⟩
  | 55 => ⟨S400000x1, .i32⟩
  | 56 => ⟨S100000x256, .f32⟩
  | 57 => ⟨S100000x256, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x256, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S400000x256, .f32⟩
  | 77 => ⟨S1x256x256, .f32⟩
  | 78 => ⟨S256x256, .f32⟩
  | 79 => ⟨S400000x256, .f32⟩
  | 80 => ⟨S400000x256, .f32⟩
  | 81 => ⟨S_, .f32⟩
  | 82 => ⟨S400000x256, .f32⟩
  | 83 => ⟨S400000x256, .f32⟩
  | 84 => ⟨S_, .f32⟩
  | 85 => ⟨S100000x256, .f32⟩
  | 86 => ⟨S400000x1, .i32⟩
  | 87 => ⟨S100000x256, .f32⟩
  | 88 => ⟨S100000x256, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x256, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x256, .f32⟩
  | 107 => ⟨S400000x256, .f32⟩
  | 108 => ⟨S1x256x256, .f32⟩
  | 109 => ⟨S256x256, .f32⟩
  | 110 => ⟨S400000x256, .f32⟩
  | 111 => ⟨S400000x256, .f32⟩
  | 112 => ⟨S_, .f32⟩
  | 113 => ⟨S400000x256, .f32⟩
  | 114 => ⟨S400000x256, .f32⟩
  | 115 => ⟨S_, .f32⟩
  | 116 => ⟨S100000x256, .f32⟩
  | 117 => ⟨S400000x1, .i32⟩
  | 118 => ⟨S100000x256, .f32⟩
  | 119 => ⟨S100000x768, .f32⟩
  | 120 => ⟨S100000x256, .f32⟩
  | 121 => ⟨S100000x512, .f32⟩
  | 122 => ⟨S100000x256, .f32⟩
  | 123 => ⟨S1x256, .f32⟩
  | 124 => ⟨S100000x256, .f32⟩
  | 125 => ⟨S100000x256, .f32⟩
  | 126 => ⟨S_, .f32⟩
  | 127 => ⟨S100000x256, .f32⟩
  | _ => ⟨S100000x133, .f32⟩

abbrev hbmTy0_1 (i : Nat) : BufTy := match i % 128 with
  | 0 => ⟨S100000x256, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_cst : Ref sig .tc := ⟨.hbm, 50, rfl⟩
abbrev main_call2_v0 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call3_cst : Ref sig .tc := ⟨.hbm, 81, rfl⟩
abbrev main_call3_v0 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call4_cst : Ref sig .tc := ⟨.hbm, 112, rfl⟩
abbrev main_call4_v0 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call5_cst : Ref sig .tc := ⟨.hbm, 126, rfl⟩
abbrev main_call5_v0 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S400000x256 : S_.BroadcastsInDim S400000x256 (![] : Fin 0 → Fin S400000x256.rank)
  bcast_S_S400000 : S_.BroadcastsInDim S400000 (![] : Fin 0 → Fin S400000.rank)
  bcast_S400000_S400000x1_0 : S400000.BroadcastsInDim S400000x1 (![0] : Fin 1 → Fin S400000x1.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  concatenates_S100000x256_S100000x256_S100000x256_S100000x768_d1 : Shape.Concatenates [S100000x256, S100000x256, S100000x256] S100000x768 1
  concatenates_S100000x256_S100000x256_S100000x512_d1 : Shape.Concatenates [S100000x256, S100000x256] S100000x512 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x133_S133x256_S100000x256_1_0_0_1_n_n_wf : DotDims.WF S100000x133 S133x256 S100000x256 [1] [0] [0] [1] [] []
  dot_S400000x147_S147x256_S400000x256_1_0_0_1_n_n_wf : DotDims.WF S400000x147 S147x256 S400000x256 [1] [0] [0] [1] [] []
  scatter_S100000x256_S400000x1_S400000x256_1_0_0_1_wf : ScatterDims.WF S100000x256 S400000x1 S400000x256 [1] [0] [0] 1
  gather_S100000x256_S400000x1_S400000x256_1_0_n_n_0_1_1256_wf : GatherDims.WF S100000x256 S400000x1 S400000x256 [1] [0] [] [0] [] 1 ![1, 256]
  gather_S400000x256_S400000x1_S400000x256_1_0_n_n_0_1_1256_wf : GatherDims.WF S400000x256 S400000x1 S400000x256 [1] [0] [] [0] [] 1 ![1, 256]
  dot_S400000x256_S256x256_S400000x256_1_0_0_1_n_n_wf : DotDims.WF S400000x256 S256x256 S400000x256 [1] [0] [0] [1] [] []
  dot_S100000x768_S768x256_S100000x256_1_0_0_1_n_n_wf : DotDims.WF S100000x768 S768x256 S100000x256 [1] [0] [0] [1] [] []
  dot_S100000x512_S512x256_S100000x256_1_0_0_1_n_n_wf : DotDims.WF S100000x512 S512x256 S100000x256 [1] [0] [0] [1] [] []

variable [Facts₀]

def dot_S100000x133_S133x256_S100000x256_1_0_0_1_n_n : DotDims S100000x133 S133x256 S100000x256 where
  lhsContracting := [1]
  rhsContracting := [0]
  lhsNonContracting := [0]
  rhsNonContracting := [1]
  lhsBatch := []
  rhsBatch := []
  wf := dot_S100000x133_S133x256_S100000x256_1_0_0_1_n_n_wf
def dot_S400000x147_S147x256_S400000x256_1_0_0_1_n_n : DotDims S400000x147 S147x256 S400000x256 where
  lhsContracting := [1]
  rhsContracting := [0]
  lhsNonContracting := [0]
  rhsNonContracting := [1]
  lhsBatch := []
  rhsBatch := []
  wf := dot_S400000x147_S147x256_S400000x256_1_0_0_1_n_n_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def gather_S400000x256_S400000x1_S400000x256_1_0_n_n_0_1_1256 : GatherDims S400000x256 S400000x1 S400000x256 where
  offsetDims := [1]
  collapsedSliceDims := [0]
  operandBatchingDims := []
  startIndicesBatchingDims := []
  startIndexMap := [0]
  indexVectorDim := 1
  sliceSizes := ![1, 256]
  wf := gather_S400000x256_S400000x1_S400000x256_1_0_n_n_0_1_1256_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf

class Facts : Prop extends Facts₀ where

variable [Facts]
-- ==== Proof.RefR1.lean ====
/-
  Round 1 of the reference's message passing, operations 13 to 43 of `@main`, as stages. From any contents `W` of the
  buffers that already hold the projected node states (`main_v1`), the projected edge states (`main_v3`) and the
  reversed-pair index `arange xor 1` (`main_v6`), and the arguments `W_h`, `src`, `dst`, the round leaves

  * in `main_v10` the node states plus the segment sum of the edge states at the destination indices (a scatter-add into
    zeros), and
  * in `main_v30` the updated edge states: the node states gathered at the (wrapped) source indices, less the edge
    states gathered at the (wrapped) reversed-pair index, times slice 0 of `W_h`, plus the initial edge states, clamped
    below at zero.

  Each is the composition of the operations' functions in program order, which is what the stages `val_main_v10` and
  `val_main_v30` are by definition; nothing is computed.
-/
import proofs.«429236_j40699110097566_3_alg».proof.Proof.RefOps
import proofs.«429236_j40699110097566_3_alg».proof.Proof.RefRead
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- Round 1 of the reference, from any contents `W` that hold the two projections, the reversed-pair index and the
    arguments: the node states after the first aggregation (`main_v10`: the projected node states plus the segment sum of
    the projected edge states at the destination indices) and the edge states after the first update (`main_v30`). -/
theorem round1 (W : Valuation τ sig (Elt F))
    (x0 : (⟨S100000x133, .f32⟩ : BufTy).Contents (Elt F)) (x1 : (⟨S400000x147, .f32⟩ : BufTy).Contents (Elt F))
    (x2 : (⟨S133x256, .f32⟩ : BufTy).Contents (Elt F)) (x3 : (⟨S147x256, .f32⟩ : BufTy).Contents (Elt F))
    (x4 : (⟨S3x256x256, .f32⟩ : BufTy).Contents (Elt F)) (x8 x9 : (⟨S400000, .i32⟩ : BufTy).Contents (Elt F))
    (h1 : W (Proc.devRef .tc main_v1) = val_main_v1 (F := F) x0 x2)
    (h3 : W (Proc.devRef .tc main_v3) = val_main_v3 (F := F) x1 x3)
    (h6 : W (Proc.devRef .tc main_v6) = val_main_v6 (F := F))
    (a4 : W (Proc.devRef .tc main_arg4) = x4) (a8 : W (Proc.devRef .tc main_arg8) = x8) (a9 : W (Proc.devRef .tc main_arg9) = x9) :
    StableHlo.after opsR1 W (Proc.devRef .tc main_v10) = val_main_v10 (F := F) x0 x1 x2 x3 x9
      ∧ StableHlo.after opsR1 W (Proc.devRef .tc main_v30) = val_main_v30 (F := F) x0 x1 x2 x3 x4 x8 x9 := by
  constructor
  · dsimp only [opsR1]; after_results
    rw [h1, h3, a9]
    rfl
  · dsimp only [opsR1]; after_results_simp
    dsimp only [TRef.toBuf, TRef.ofBuf, cast_eq]
    rw [h1, h3, h6, a4, a8, a9]
    rfl

end Cert.ReferenceIdeal.ValueP

end
-- ==== Proof.RefR2.lean ====
/-
  The reference's second round of message passing, operations 44 to 74 of `@main`, from any buffer contents in which
  the buffers the round reads already hold their stages. The round adds to the node states the segment sum of the edge
  states at the destination indices (a scatter-add into zeros); gathers the new node states at the source indices, and
  the edge states at the reversed-pair indices (each index wrapped once by the table's height if negative); multiplies
  the difference of the two gathers by slab 1 of the stacked edge weights; adds the initial edge states; and takes the
  maximum with zero. Each buffer the round writes holds the composition of the operations before it, so the node
  states after the round are the stage `val_main_v34` and the edge states the stage `val_main_v54` of the arguments:
  the operations' results are read off one by one, the hypotheses put the arguments' stages in, and both sides are then
  the same composition.
-/
import proofs.«429236_j40699110097566_3_alg».proof.Proof.RefOps
import proofs.«429236_j40699110097566_3_alg».proof.Proof.RefRead
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The node states after round 2: the node states before it (`main_v10`) plus the segment sum, at the destination
    indices, of the edge states before it (`main_v30`). -/
theorem round2_v34 (W : Valuation τ sig (Elt F))
    (x0 : (⟨S100000x133, .f32⟩ : BufTy).Contents (Elt F)) (x1 : (⟨S400000x147, .f32⟩ : BufTy).Contents (Elt F))
    (x2 : (⟨S133x256, .f32⟩ : BufTy).Contents (Elt F)) (x3 : (⟨S147x256, .f32⟩ : BufTy).Contents (Elt F))
    (x4 : (⟨S3x256x256, .f32⟩ : BufTy).Contents (Elt F)) (x8 x9 : (⟨S400000, .i32⟩ : BufTy).Contents (Elt F))
    (h10 : W (Proc.devRef .tc main_v10) = val_main_v10 (F := F) x0 x1 x2 x3 x9)
    (h30 : W (Proc.devRef .tc main_v30) = val_main_v30 (F := F) x0 x1 x2 x3 x4 x8 x9)
    (a9 : W (Proc.devRef .tc main_arg9) = x9) :
    StableHlo.after opsR2 W (Proc.devRef .tc main_v34) = val_main_v34 (F := F) x0 x1 x2 x3 x4 x8 x9 := by
  dsimp only [opsR2]
  after_results
  rw [h10, h30, a9]
  rfl

set_option maxHeartbeats 4000000 in
/-- The edge states after round 2: the maximum with zero of the initial edge states (`main_v3`) plus, times slab 1 of
    the edge weights, the new node states at the source indices minus the old edge states at the reversed-pair
    indices (`main_v6`). -/
theorem round2_v54 (W : Valuation τ sig (Elt F))
    (x0 : (⟨S100000x133, .f32⟩ : BufTy).Contents (Elt F)) (x1 : (⟨S400000x147, .f32⟩ : BufTy).Contents (Elt F))
    (x2 : (⟨S133x256, .f32⟩ : BufTy).Contents (Elt F)) (x3 : (⟨S147x256, .f32⟩ : BufTy).Contents (Elt F))
    (x4 : (⟨S3x256x256, .f32⟩ : BufTy).Contents (Elt F)) (x8 x9 : (⟨S400000, .i32⟩ : BufTy).Contents (Elt F))
    (h3 : W (Proc.devRef .tc main_v3) = val_main_v3 (F := F) x1 x3)
    (h6 : W (Proc.devRef .tc main_v6) = val_main_v6 (F := F))
    (h10 : W (Proc.devRef .tc main_v10) = val_main_v10 (F := F) x0 x1 x2 x3 x9)
    (h30 : W (Proc.devRef .tc main_v30) = val_main_v30 (F := F) x0 x1 x2 x3 x4 x8 x9)
    (a4 : W (Proc.devRef .tc main_arg4) = x4) (a8 : W (Proc.devRef .tc main_arg8) = x8) (a9 : W (Proc.devRef .tc main_arg9) = x9) :
    StableHlo.after opsR2 W (Proc.devRef .tc main_v54) = val_main_v54 (F := F) x0 x1 x2 x3 x4 x8 x9 := by
  dsimp only [opsR2]
  after_results_simp
  dsimp only [StableHlo.TRef.toBuf, StableHlo.TRef.ofBuf, cast_eq]
  rw [h3, h6, h10, h30, a4, a8, a9]
  rfl

/-- Round 2, both results. -/
theorem round2 (W : Valuation τ sig (Elt F))
    (x0 : (⟨S100000x133, .f32⟩ : BufTy).Contents (Elt F)) (x1 : (⟨S400000x147, .f32⟩ : BufTy).Contents (Elt F))
    (x2 : (⟨S133x256, .f32⟩ : BufTy).Contents (Elt F)) (x3 : (⟨S147x256, .f32⟩ : BufTy).Contents (Elt F))
    (x4 : (⟨S3x256x256, .f32⟩ : BufTy).Contents (Elt F)) (x8 x9 : (⟨S400000, .i32⟩ : BufTy).Contents (Elt F))
    (h3 : W (Proc.devRef .tc main_v3) = val_main_v3 (F := F) x1 x3)
    (h6 : W (Proc.devRef .tc main_v6) = val_main_v6 (F := F))
    (h10 : W (Proc.devRef .tc main_v10) = val_main_v10 (F := F) x0 x1 x2 x3 x9)
    (h30 : W (Proc.devRef .tc main_v30) = val_main_v30 (F := F) x0 x1 x2 x3 x4 x8 x9)
    (a4 : W (Proc.devRef .tc main_arg4) = x4) (a8 : W (Proc.devRef .tc main_arg8) = x8) (a9 : W (Proc.devRef .tc main_arg9) = x9) :
    StableHlo.after opsR2 W (Proc.devRef .tc main_v34) = val_main_v34 (F := F) x0 x1 x2 x3 x4 x8 x9
      ∧ StableHlo.after opsR2 W (Proc.devRef .tc main_v54) = val_main_v54 (F := F) x0 x1 x2 x3 x4 x8 x9 :=
  ⟨round2_v34 W x0 x1 x2 x3 x4 x8 x9 h10 h30 a9, round2_v54 W x0 x1 x2 x3 x4 x8 x9 h3 h6 h10 h30 a4 a8 a9⟩

end Cert.ReferenceIdeal.ValueP

end
-- ==== Proof.RefR3.lean ====
/-
  Round 3 of the reference's message passing, read off its operations: from any buffer contents that hold what the
  round reads — the initial edge states, the reversed-pair index `i xor 1`, the node and edge states after round 2,
  the stacked edge weights and the two index arguments — the round's operations leave, in the node-state buffer,
  the node states plus the segment sum of the edge states at the destination indices, and, in the edge-state buffer,
  `relu(h0_edge + (h_node[src] − h_edge[i xor 1]) · W_h[2])`: each the composition of the round's stages, in the order
  the operations run.
-/
import proofs.«429236_j40699110097566_3_alg».proof.Proof.RefOps
import proofs.«429236_j40699110097566_3_alg».proof.Proof.RefRead
import Idealize.ShloMosaic.Lib.StableHlo.Run

set_option maxRecDepth 16384

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- Round 3 of the reference from any contents `W` that hold the initial edge states, the reversed-pair index, the node
    states and the edge states after round 2, and the three arguments the round reads: the round leaves the node states
    plus the segment sum of the edge states at the destination indices, and the new edge states — the gathered node
    states less the pair-reversed edge states, times slab 2 of `W_h`, plus the initial edge states, through relu. -/
theorem round3 (W : Valuation τ sig (Elt F))
    (x0 : (⟨S100000x133, .f32⟩ : BufTy).Contents (Elt F)) (x1 : (⟨S400000x147, .f32⟩ : BufTy).Contents (Elt F))
    (x2 : (⟨S133x256, .f32⟩ : BufTy).Contents (Elt F)) (x3 : (⟨S147x256, .f32⟩ : BufTy).Contents (Elt F))
    (x4 : (⟨S3x256x256, .f32⟩ : BufTy).Contents (Elt F)) (x8 x9 : (⟨S400000, .i32⟩ : BufTy).Contents (Elt F))
    (h3 : W (Proc.devRef .tc main_v3) = val_main_v3 (F := F) x1 x3)
    (h6 : W (Proc.devRef .tc main_v6) = val_main_v6 (F := F))
    (h34 : W (Proc.devRef .tc main_v34) = val_main_v34 (F := F) x0 x1 x2 x3 x4 x8 x9)
    (h54 : W (Proc.devRef .tc main_v54) = val_main_v54 (F := F) x0 x1 x2 x3 x4 x8 x9)
    (a4 : W (Proc.devRef .tc main_arg4) = x4) (a8 : W (Proc.devRef .tc main_arg8) = x8) (a9 : W (Proc.devRef .tc main_arg9) = x9) :
    StableHlo.after opsR3 W (Proc.devRef .tc main_v58) = val_main_v58 (F := F) x0 x1 x2 x3 x4 x8 x9
      ∧ StableHlo.after opsR3 W (Proc.devRef .tc main_v78) = val_main_v78 (F := F) x0 x1 x2 x3 x4 x8 x9 := by
  refine ⟨?_, ?_⟩
  · dsimp only [opsR3]
    after_results
    rw [h34, h54, a9]
    rfl
  · dsimp only [opsR3]
    after_results_simp
    dsimp only [TRef.toBuf, TRef.ofBuf, cast_eq]
    rw [h3, h6, h34, h54, a4, a8, a9]
    rfl

end Cert.ReferenceIdeal.ValueP

end
-- ==== Proof.RefRun.lean ====
/-
  The reference's run, stage by stage. `@main` is one line of 119 host operations, cut into five chunks: the head (the
  two input projections and the reversed-pair index), three rounds of message passing, and the tail (the last
  aggregation and the output head). From ANY buffer contents: what the head leaves in the three buffers the rounds read;
  what the tail leaves in the result buffer once the buffers it reads hold their stages (its three-operand concatenate
  is read at its own three references); that a chunk leaves every buffer it does not write as it was. With the three
  rounds' stage lemmas these compose, chunk after chunk, into the run: every weakly fair execution terminates with the
  result buffer at the reference's last stage of the arguments' launch contents, the arguments unchanged.
-/
import proofs.«429236_j40699110097566_3_alg».proof.Proof.RefOps
import proofs.«429236_j40699110097566_3_alg».proof.Proof.RefRead
import proofs.«429236_j40699110097566_3_alg».proof.Proof.RefR1
import proofs.«429236_j40699110097566_3_alg».proof.Proof.RefR2
import proofs.«429236_j40699110097566_3_alg».proof.Proof.RefR3
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## A concatenate of three named operands -/

section Nary3
variable {x a b y : Ref sig .tc}
/-- `nary` over a literal family of three references: the result with each operand's contents at its own reference. -/
theorem nary3_result
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl
theorem nary3_result'
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V
end Nary3

/-- Reads a line's results off one operation at a time, a three-operand concatenate at its own three references. -/
macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The head: the two projections and the reversed-pair index -/

theorem headA_v1 (W : Valuation τ sig (Elt F)) :
    (after opsA W (Proc.devRef .tc main_v1) : (⟨S100000x256, .f32⟩ : BufTy).Contents (Elt F))
      = ReadP.val_main_v1 (F := F) (W (Proc.devRef .tc main_arg0)) (W (Proc.devRef .tc main_arg2)) := by
  dsimp only [opsA]; after_results_simp
  dsimp only [TRef.toBuf, TRef.ofBuf, cast_eq]
  rfl
theorem headA_v3 (W : Valuation τ sig (Elt F)) :
    (after opsA W (Proc.devRef .tc main_v3) : (⟨S400000x256, .f32⟩ : BufTy).Contents (Elt F))
      = ReadP.val_main_v3 (F := F) (W (Proc.devRef .tc main_arg1)) (W (Proc.devRef .tc main_arg3)) := by
  dsimp only [opsA]; after_results_simp
  dsimp only [TRef.toBuf, TRef.ofBuf, cast_eq]
  rfl
theorem headA_v6 (W : Valuation τ sig (Elt F)) :
    (after opsA W (Proc.devRef .tc main_v6) : (⟨S400000, .i32⟩ : BufTy).Contents (Elt F)) = ReadP.val_main_v6 (F := F) := by
  dsimp only [opsA]; after_results_simp
  rfl

/-! ## The tail: the last aggregation and the output head -/

set_option maxHeartbeats 4000000 in
theorem head (W : Valuation τ sig (Elt F))
    (x0 : (⟨S100000x133, .f32⟩ : BufTy).Contents (Elt F)) (x1 : (⟨S400000x147, .f32⟩ : BufTy).Contents (Elt F)) (x2 : (⟨S133x256, .f32⟩ : BufTy).Contents (Elt F)) (x3 : (⟨S147x256, .f32⟩ : BufTy).Contents (Elt F)) (x4 : (⟨S3x256x256, .f32⟩ : BufTy).Contents (Elt F)) (x5 : (⟨S512x256, .f32⟩ : BufTy).Contents (Elt F)) (x6 : (⟨S256, .f32⟩ : BufTy).Contents (Elt F)) (x7 : (⟨S768x256, .f32⟩ : BufTy).Contents (Elt F)) (x8 : (⟨S400000, .i32⟩ : BufTy).Contents (Elt F)) (x9 : (⟨S400000, .i32⟩ : BufTy).Contents (Elt F))
    (h1 : (W (Proc.devRef .tc main_v1) : (⟨S100000x256, .f32⟩ : BufTy).Contents (Elt F)) = ReadP.val_main_v1 (F := F) x0 x2)
    (h58 : (W (Proc.devRef .tc main_v58) : (⟨S100000x256, .f32⟩ : BufTy).Contents (Elt F)) = ReadP.val_main_v58 (F := F) x0 x1 x2 x3 x4 x8 x9)
    (h78 : (W (Proc.devRef .tc main_v78) : (⟨S400000x256, .f32⟩ : BufTy).Contents (Elt F)) = ReadP.val_main_v78 (F := F) x0 x1 x2 x3 x4 x8 x9)
    (a5 : (W (Proc.devRef .tc main_arg5) : (⟨S512x256, .f32⟩ : BufTy).Contents (Elt F)) = x5) (a6 : (W (Proc.devRef .tc main_arg6) : (⟨S256, .f32⟩ : BufTy).Contents (Elt F)) = x6)
    (a7 : (W (Proc.devRef .tc main_arg7) : (⟨S768x256, .f32⟩ : BufTy).Contents (Elt F)) = x7) (a9 : (W (Proc.devRef .tc main_arg9) : (⟨S400000, .i32⟩ : BufTy).Contents (Elt F)) = x9) :
    (after opsT W (Proc.devRef .tc main_v89) : (⟨S100000x256, .f32⟩ : BufTy).Contents (Elt F))
      = ReadP.val_main_v89 (F := F) x0 x1 x2 x3 x4 x5 x6 x7 x8 x9 := by
  dsimp only [opsT]
  after_results3
  dsimp only [TRef.toBuf, TRef.ofBuf, cast_eq]
  rw [h1, h58, h78, a5, a6, a7, a9]
  rfl

/-! ## What each chunk leaves alone -/

/-- The references `opsA`'s operations write. -/
abbrev opsA_W : List (Ref sig .tc) := [main_v0, main_call0_cst, main_call0_v0, main_v1, main_v2, main_call1_cst, main_call1_v0, main_v3, main_v4, main_c, main_v5, main_v6]
set_option maxRecDepth 8192 in
theorem opsA_writes : (opsA : List (HloOp τ sig (Elt F))).Forall fun op => op.writes ⊆ (opsA_W.map (Proc.devRef (τ := τ) .tc)).toFinset := by
  simp only [List.Forall]
  refine ⟨?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- `opsA` leaves every buffer it does not write as it was. -/
theorem opsA_of (W : Valuation τ sig (Elt F)) (r : Ref sig .tc) (h : r ∉ opsA_W) :
    after opsA W (Proc.devRef .tc r) = W (Proc.devRef .tc r) :=
  after_of_writes_sub opsA W opsA_writes h

/-- The references `opsR1`'s operations write. -/
abbrev opsR1_W : List (Ref sig .tc) := [main_cst, main_v7, main_v8, main_v9, main_v10, main_c_0, main_v11, main_v12, main_c_1, main_v13, main_v14, main_v15, main_v16, main_v17, main_c_2, main_v18, main_v19, main_c_3, main_v20, main_v21, main_v22, main_v23, main_v24, main_v25, main_v26, main_v27, main_v28, main_v29, main_call2_cst, main_call2_v0, main_v30]
set_option maxRecDepth 8192 in
theorem opsR1_writes : (opsR1 : List (HloOp τ sig (Elt F))).Forall fun op => op.writes ⊆ (opsR1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- `opsR1` leaves every buffer it does not write as it was. -/
theorem opsR1_of (W : Valuation τ sig (Elt F)) (r : Ref sig .tc) (h : r ∉ opsR1_W) :
    after opsR1 W (Proc.devRef .tc r) = W (Proc.devRef .tc r) :=
  after_of_writes_sub opsR1 W opsR1_writes h

/-- The references `opsR2`'s operations write. -/
abbrev opsR2_W : List (Ref sig .tc) := [main_cst_4, main_v31, main_v32, main_v33, main_v34, main_c_5, main_v35, main_v36, main_c_6, main_v37, main_v38, main_v39, main_v40, main_v41, main_c_7, main_v42, main_v43, main_c_8, main_v44, main_v45, main_v46, main_v47, main_v48, main_v49, main_v50, main_v51, main_v52, main_v53, main_call3_cst, main_call3_v0, main_v54]
set_option maxRecDepth 8192 in
theorem opsR2_writes : (opsR2 : List (HloOp τ sig (Elt F))).Forall fun op => op.writes ⊆ (opsR2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- `opsR2` leaves every buffer it does not write as it was. -/
theorem opsR2_of (W : Valuation τ sig (Elt F)) (r : Ref sig .tc) (h : r ∉ opsR2_W) :
    after opsR2 W (Proc.devRef .tc r) = W (Proc.devRef .tc r) :=
  after_of_writes_sub opsR2 W opsR2_writes h

/-- The references `opsR3`'s operations write. -/
abbrev opsR3_W : List (Ref sig .tc) := [main_cst_9, main_v55, main_v56, main_v57, main_v58, main_c_10, main_v59, main_v60, main_c_11, main_v61, main_v62, main_v63, main_v64, main_v65, main_c_12, main_v66, main_v67, main_c_13, main_v68, main_v69, main_v70, main_v71, main_v72, main_v73, main_v74, main_v75, main_v76, main_v77, main_call4_cst, main_call4_v0, main_v78]
set_option maxRecDepth 8192 in
theorem opsR3_writes : (opsR3 : List (HloOp τ sig (Elt F))).Forall fun op => op.writes ⊆ (opsR3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- `opsR3` leaves every buffer it does not write as it was. -/
theorem opsR3_of (W : Valuation τ sig (Elt F)) (r : Ref sig .tc) (h : r ∉ opsR3_W) :
    after opsR3 W (Proc.devRef .tc r) = W (Proc.devRef .tc r) :=
  after_of_writes_sub opsR3 W opsR3_writes h

/-- The references `opsT`'s operations write. -/
abbrev opsT_W : List (Ref sig .tc) := [main_cst_14, main_v79, main_v80, main_v81, main_v82, main_v83, main_v84, main_v85, main_v86, main_v87, main_v88, main_call5_cst, main_call5_v0, main_v89]
set_option maxRecDepth 8192 in
theorem opsT_writes : (opsT : List (HloOp τ sig (Elt F))).Forall fun op => op.writes ⊆ (opsT_W.map (Proc.devRef (τ := τ) .tc)).toFinset := by
  simp only [List.Forall]
  refine ⟨?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- `opsT` leaves every buffer it does not write as it was. -/
theorem opsT_of (W : Valuation τ sig (Elt F)) (r : Ref sig .tc) (h : r ∉ opsT_W) :
    after opsT W (Proc.devRef .tc r) = W (Proc.devRef .tc r) :=
  after_of_writes_sub opsT W opsT_writes h

/-! ## The arguments across the chunks -/

/-- The ten argument buffers of `V` hold `x0 … x9`. -/
structure ArgsAt (V : Valuation τ sig (Elt F)) (x0 : (⟨S100000x133, .f32⟩ : BufTy).Contents (Elt F)) (x1 : (⟨S400000x147, .f32⟩ : BufTy).Contents (Elt F)) (x2 : (⟨S133x256, .f32⟩ : BufTy).Contents (Elt F)) (x3 : (⟨S147x256, .f32⟩ : BufTy).Contents (Elt F)) (x4 : (⟨S3x256x256, .f32⟩ : BufTy).Contents (Elt F)) (x5 : (⟨S512x256, .f32⟩ : BufTy).Contents (Elt F)) (x6 : (⟨S256, .f32⟩ : BufTy).Contents (Elt F)) (x7 : (⟨S768x256, .f32⟩ : BufTy).Contents (Elt F)) (x8 : (⟨S400000, .i32⟩ : BufTy).Contents (Elt F)) (x9 : (⟨S400000, .i32⟩ : BufTy).Contents (Elt F)) : Prop where
  a0 : (V (Proc.devRef .tc main_arg0) : (⟨S100000x133, .f32⟩ : BufTy).Contents (Elt F)) = x0
  a1 : (V (Proc.devRef .tc main_arg1) : (⟨S400000x147, .f32⟩ : BufTy).Contents (Elt F)) = x1
  a2 : (V (Proc.devRef .tc main_arg2) : (⟨S133x256, .f32⟩ : BufTy).Contents (Elt F)) = x2
  a3 : (V (Proc.devRef .tc main_arg3) : (⟨S147x256, .f32⟩ : BufTy).Contents (Elt F)) = x3
  a4 : (V (Proc.devRef .tc main_arg4) : (⟨S3x256x256, .f32⟩ : BufTy).Contents (Elt F)) = x4
  a5 : (V (Proc.devRef .tc main_arg5) : (⟨S512x256, .f32⟩ : BufTy).Contents (Elt F)) = x5
  a6 : (V (Proc.devRef .tc main_arg6) : (⟨S256, .f32⟩ : BufTy).Contents (Elt F)) = x6
  a7 : (V (Proc.devRef .tc main_arg7) : (⟨S768x256, .f32⟩ : BufTy).Contents (Elt F)) = x7
  a8 : (V (Proc.devRef .tc main_arg8) : (⟨S400000, .i32⟩ : BufTy).Contents (Elt F)) = x8
  a9 : (V (Proc.devRef .tc main_arg9) : (⟨S400000, .i32⟩ : BufTy).Contents (Elt F)) = x9

theorem ArgsAt.opsA {V : Valuation τ sig (Elt F)} {x0 x1 x2 x3 x4 x5 x6 x7 x8 x9} (h : ArgsAt V x0 x1 x2 x3 x4 x5 x6 x7 x8 x9) :
    ArgsAt (after opsA V) x0 x1 x2 x3 x4 x5 x6 x7 x8 x9 :=
  ⟨(opsA_of V main_arg0 (by decide)).trans h.a0,
   (opsA_of V main_arg1 (by decide)).trans h.a1,
   (opsA_of V main_arg2 (by decide)).trans h.a2,
   (opsA_of V main_arg3 (by decide)).trans h.a3,
   (opsA_of V main_arg4 (by decide)).trans h.a4,
   (opsA_of V main_arg5 (by decide)).trans h.a5,
   (opsA_of V main_arg6 (by decide)).trans h.a6,
   (opsA_of V main_arg7 (by decide)).trans h.a7,
   (opsA_of V main_arg8 (by decide)).trans h.a8,
   (opsA_of V main_arg9 (by decide)).trans h.a9⟩

theorem ArgsAt.opsR1 {V : Valuation τ sig (Elt F)} {x0 x1 x2 x3 x4 x5 x6 x7 x8 x9} (h : ArgsAt V x0 x1 x2 x3 x4 x5 x6 x7 x8 x9) :
    ArgsAt (after opsR1 V) x0 x1 x2 x3 x4 x5 x6 x7 x8 x9 :=
  ⟨(opsR1_of V main_arg0 (by decide)).trans h.a0,
   (opsR1_of V main_arg1 (by decide)).trans h.a1,
   (opsR1_of V main_arg2 (by decide)).trans h.a2,
   (opsR1_of V main_arg3 (by decide)).trans h.a3,
   (opsR1_of V main_arg4 (by decide)).trans h.a4,
   (opsR1_of V main_arg5 (by decide)).trans h.a5,
   (opsR1_of V main_arg6 (by decide)).trans h.a6,
   (opsR1_of V main_arg7 (by decide)).trans h.a7,
   (opsR1_of V main_arg8 (by decide)).trans h.a8,
   (opsR1_of V main_arg9 (by decide)).trans h.a9⟩

theorem ArgsAt.opsR2 {V : Valuation τ sig (Elt F)} {x0 x1 x2 x3 x4 x5 x6 x7 x8 x9} (h : ArgsAt V x0 x1 x2 x3 x4 x5 x6 x7 x8 x9) :
    ArgsAt (after opsR2 V) x0 x1 x2 x3 x4 x5 x6 x7 x8 x9 :=
  ⟨(opsR2_of V main_arg0 (by decide)).trans h.a0,
   (opsR2_of V main_arg1 (by decide)).trans h.a1,
   (opsR2_of V main_arg2 (by decide)).trans h.a2,
   (opsR2_of V main_arg3 (by decide)).trans h.a3,
   (opsR2_of V main_arg4 (by decide)).trans h.a4,
   (opsR2_of V main_arg5 (by decide)).trans h.a5,
   (opsR2_of V main_arg6 (by decide)).trans h.a6,
   (opsR2_of V main_arg7 (by decide)).trans h.a7,
   (opsR2_of V main_arg8 (by decide)).trans h.a8,
   (opsR2_of V main_arg9 (by decide)).trans h.a9⟩

theorem ArgsAt.opsR3 {V : Valuation τ sig (Elt F)} {x0 x1 x2 x3 x4 x5 x6 x7 x8 x9} (h : ArgsAt V x0 x1 x2 x3 x4 x5 x6 x7 x8 x9) :
    ArgsAt (after opsR3 V) x0 x1 x2 x3 x4 x5 x6 x7 x8 x9 :=
  ⟨(opsR3_of V main_arg0 (by decide)).trans h.a0,
   (opsR3_of V main_arg1 (by decide)).trans h.a1,
   (opsR3_of V main_arg2 (by decide)).trans h.a2,
   (opsR3_of V main_arg3 (by decide)).trans h.a3,
   (opsR3_of V main_arg4 (by decide)).trans h.a4,
   (opsR3_of V main_arg5 (by decide)).trans h.a5,
   (opsR3_of V main_arg6 (by decide)).trans h.a6,
   (opsR3_of V main_arg7 (by decide)).trans h.a7,
   (opsR3_of V main_arg8 (by decide)).trans h.a8,
   (opsR3_of V main_arg9 (by decide)).trans h.a9⟩

theorem ArgsAt.opsT {V : Valuation τ sig (Elt F)} {x0 x1 x2 x3 x4 x5 x6 x7 x8 x9} (h : ArgsAt V x0 x1 x2 x3 x4 x5 x6 x7 x8 x9) :
    ArgsAt (after opsT V) x0 x1 x2 x3 x4 x5 x6 x7 x8 x9 :=
  ⟨(opsT_of V main_arg0 (by decide)).trans h.a0,
   (opsT_of V main_arg1 (by decide)).trans h.a1,
   (opsT_of V main_arg2 (by decide)).trans h.a2,
   (opsT_of V main_arg3 (by decide)).trans h.a3,
   (opsT_of V main_arg4 (by decide)).trans h.a4,
   (opsT_of V main_arg5 (by decide)).trans h.a5,
   (opsT_of V main_arg6 (by decide)).trans h.a6,
   (opsT_of V main_arg7 (by decide)).trans h.a7,
   (opsT_of V main_arg8 (by decide)).trans h.a8,
   (opsT_of V main_arg9 (by decide)).trans h.a9⟩

/-! ## The chunks in a row -/

/-- The fold over `@main`'s operations is the fold over the five chunks in turn. -/
theorem after_ops (V : Valuation τ sig (Elt F)) :
    after ops V = after opsT (after opsR3 (after opsR2 (after opsR1 (after opsA V)))) := by
  rw [ops_cut, after_append, after_append, after_append, after_append]

/-- From contents whose argument buffers hold `x0 … x9`, the operations leave in `main_v89` the reference's last stage:
    the head gives the stages `main_v1`, `main_v3`, `main_v6`; each round takes the stages before it to the two after
    it; a chunk leaves alone what it does not write; the tail composes the result. -/
theorem after_ops_v89 (V : Valuation τ sig (Elt F)) (x0 : (⟨S100000x133, .f32⟩ : BufTy).Contents (Elt F)) (x1 : (⟨S400000x147, .f32⟩ : BufTy).Contents (Elt F)) (x2 : (⟨S133x256, .f32⟩ : BufTy).Contents (Elt F)) (x3 : (⟨S147x256, .f32⟩ : BufTy).Contents (Elt F)) (x4 : (⟨S3x256x256, .f32⟩ : BufTy).Contents (Elt F)) (x5 : (⟨S512x256, .f32⟩ : BufTy).Contents (Elt F)) (x6 : (⟨S256, .f32⟩ : BufTy).Contents (Elt F)) (x7 : (⟨S768x256, .f32⟩ : BufTy).Contents (Elt F)) (x8 : (⟨S400000, .i32⟩ : BufTy).Contents (Elt F)) (x9 : (⟨S400000, .i32⟩ : BufTy).Contents (Elt F)) (hx : ArgsAt V x0 x1 x2 x3 x4 x5 x6 x7 x8 x9) :
    (after ops V (Proc.devRef .tc main_v89) : (⟨S100000x256, .f32⟩ : BufTy).Contents (Elt F)) = ReadP.val_main_v89 (F := F) x0 x1 x2 x3 x4 x5 x6 x7 x8 x9 := by
  rw [after_ops]
  have b1 := hx.opsA
  have b2 := b1.opsR1
  have b3 := b2.opsR2
  have b4 := b3.opsR3
  have s1_v1 : (after opsA V (Proc.devRef .tc main_v1) : (⟨S100000x256, .f32⟩ : BufTy).Contents (Elt F)) = ReadP.val_main_v1 (F := F) x0 x2 := by
    rw [headA_v1, hx.a0, hx.a2]
  have s1_v3 : (after opsA V (Proc.devRef .tc main_v3) : (⟨S400000x256, .f32⟩ : BufTy).Contents (Elt F)) = ReadP.val_main_v3 (F := F) x1 x3 := by
    rw [headA_v3, hx.a1, hx.a3]
  have s1_v6 : (after opsA V (Proc.devRef .tc main_v6) : (⟨S400000, .i32⟩ : BufTy).Contents (Elt F)) = ReadP.val_main_v6 (F := F) := headA_v6 V
  obtain ⟨s2_v10, s2_v30⟩ := round1 (after opsA V) x0 x1 x2 x3 x4 x8 x9 s1_v1 s1_v3 s1_v6 b1.a4 b1.a8 b1.a9
  have s2_v1 := (opsR1_of (after opsA V) main_v1 (by decide)).trans s1_v1
  have s2_v3 := (opsR1_of (after opsA V) main_v3 (by decide)).trans s1_v3
  have s2_v6 := (opsR1_of (after opsA V) main_v6 (by decide)).trans s1_v6
  obtain ⟨s3_v34, s3_v54⟩ := round2 (after opsR1 (after opsA V)) x0 x1 x2 x3 x4 x8 x9 s2_v3 s2_v6 s2_v10 s2_v30 b2.a4 b2.a8 b2.a9
  have s3_v1 := (opsR2_of (after opsR1 (after opsA V)) main_v1 (by decide)).trans s2_v1
  have s3_v3 := (opsR2_of (after opsR1 (after opsA V)) main_v3 (by decide)).trans s2_v3
  have s3_v6 := (opsR2_of (after opsR1 (after opsA V)) main_v6 (by decide)).trans s2_v6
  obtain ⟨s4_v58, s4_v78⟩ := round3 (after opsR2 (after opsR1 (after opsA V))) x0 x1 x2 x3 x4 x8 x9 s3_v3 s3_v6 s3_v34 s3_v54 b3.a4 b3.a8 b3.a9
  have s4_v1 := (opsR3_of (after opsR2 (after opsR1 (after opsA V))) main_v1 (by decide)).trans s3_v1
  exact head (after opsR3 (after opsR2 (after opsR1 (after opsA V)))) x0 x1 x2 x3 x4 x5 x6 x7 x8 x9 s4_v1 s4_v58 s4_v78 b4.a5 b4.a6 b4.a7 b4.a9

/-- The operations leave the arguments as they were. -/
theorem after_ops_args (V : Valuation τ sig (Elt F)) (x0 : (⟨S100000x133, .f32⟩ : BufTy).Contents (Elt F)) (x1 : (⟨S400000x147, .f32⟩ : BufTy).Contents (Elt F)) (x2 : (⟨S133x256, .f32⟩ : BufTy).Contents (Elt F)) (x3 : (⟨S147x256, .f32⟩ : BufTy).Contents (Elt F)) (x4 : (⟨S3x256x256, .f32⟩ : BufTy).Contents (Elt F)) (x5 : (⟨S512x256, .f32⟩ : BufTy).Contents (Elt F)) (x6 : (⟨S256, .f32⟩ : BufTy).Contents (Elt F)) (x7 : (⟨S768x256, .f32⟩ : BufTy).Contents (Elt F)) (x8 : (⟨S400000, .i32⟩ : BufTy).Contents (Elt F)) (x9 : (⟨S400000, .i32⟩ : BufTy).Contents (Elt F)) (hx : ArgsAt V x0 x1 x2 x3 x4 x5 x6 x7 x8 x9) :
    ArgsAt (after ops V) x0 x1 x2 x3 x4 x5 x6 x7 x8 x9 := by
  rw [after_ops]; exact hx.opsA.opsR1.opsR2.opsR3.opsT

/-! ## No operation allocates -/

theorem opsA_fresh : (opsA : List (HloOp τ sig (Elt F))).Forall fun op => op.fresh = ∅ := by
  simp only [List.Forall]; repeat' constructor

theorem opsR1_fresh : (opsR1 : List (HloOp τ sig (Elt F))).Forall fun op => op.fresh = ∅ := by
  simp only [List.Forall]; repeat' constructor

theorem opsR2_fresh : (opsR2 : List (HloOp τ sig (Elt F))).Forall fun op => op.fresh = ∅ := by
  simp only [List.Forall]; repeat' constructor

theorem opsR3_fresh : (opsR3 : List (HloOp τ sig (Elt F))).Forall fun op => op.fresh = ∅ := by
  simp only [List.Forall]; repeat' constructor

theorem opsT_fresh : (opsT : List (HloOp τ sig (Elt F))).Forall fun op => op.fresh = ∅ := by
  simp only [List.Forall]; repeat' constructor

theorem ops_fresh : ∀ op ∈ (ops : List (HloOp τ sig (Elt F))), op.fresh = ∅ := by
  intro op h
  rw [ops_cut] at h
  simp only [List.mem_append] at h
  rcases h with h | h | h | h | h
  · exact (List.forall_iff_forall_mem.mp opsA_fresh) op h
  · exact (List.forall_iff_forall_mem.mp opsR1_fresh) op h
  · exact (List.forall_iff_forall_mem.mp opsR2_fresh) op h
  · exact (List.forall_iff_forall_mem.mp opsR3_fresh) op h
  · exact (List.forall_iff_forall_mem.mp opsT_fresh) op h

/-! ## The run -/

/-- On every device, for any float values, from any memory with zero counters: every weakly fair execution of `@main`
    terminates with the result buffer at the reference's last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
          = ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have hx : ArgsAt (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
        ⟨rfl, rfl, rfl, rfl, rfl, rfl, rfl, rfl, rfl, rfl⟩
      have hr := after_ops_args _ _ _ _ _ _ _ _ _ _ _ hx
      exact ⟨(h c main_v89).trans (after_ops_v89 _ _ _ _ _ _ _ _ _ _ _ hx),
        (h c main_arg0).trans hr.a0,
        (h c main_arg1).trans hr.a1,
        (h c main_arg2).trans hr.a2,
        (h c main_arg3).trans hr.a3,
        (h c main_arg4).trans hr.a4,
        (h c main_arg5).trans hr.a5,
        (h c main_arg6).trans hr.a6,
        (h c main_arg7).trans hr.a7,
        (h c main_arg8).trans hr.a8,
        (h c main_arg9).trans hr.a9⟩)
    (run_seq scopedRefs_eq scopedSems_eq defs main (fun _ => ops) main_eq (fun _ => ops_sub) m ρ (fun _ => ops_fresh))

end Cert.ReferenceIdeal.ValueP

end
-- ==== Proof.IR0.lean ====
/-
  Pallas call 0: the node projection `relu(x · w)`, one row block of 2000 nodes per grid point (50 points), the
  133×256 weight resident. At ANY contents `V` of the buffers when the call is entered: the block each window
  holds at a point, what the body leaves in the output's staging buffer (its one store over the payload), the
  body's triple, the pipeline's proof data and the body obligation at every point. Generic in the float instance.
-/
import proofs.«429236_j40699110097566_3_alg».proof.Proof.Gen.KernelIdeal.Launch
import proofs.«429236_j40699110097566_3_alg».proof.Proof.Gen.KernelIdeal.Skeleton
import proofs.«429236_j40699110097566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg0.W → PosShare TreeShare)

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the row block
    moves with the point; the weight's block index never moves), for any proof data over `V` whose body leaves
    the inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_x : Rect S2000x133 := Rect.unit (s := S2000x133) ![0, 0] S2000x133.size inb_S2000x133_S2000x133_0_0
abbrev r0_w : Rect S133x256 := Rect.unit (s := S133x256) ![0, 0] S133x256.size inb_S133x256_S133x256_0_0
abbrev r0_o : Rect S2000x256 := Rect.unit (s := S2000x256) ![0, 0] S2000x256.size inb_S2000x256_S2000x256_0_0

/-- The output's staging buffer after the body: its one store, of the payload of the two loaded blocks. -/
def out0_2 (x0 : Vec F S2000x133 .f32) (x1 : Vec F S133x256 .f32) : Vec F S2000x256 .f32 :=
  View.canon [⟨r0_o, k0_pay1 (View.ld x0 r0_x) (View.ld x1 r0_w)⟩]

/-- The store covers the buffer. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 4000000 in
/-- The body on whole staging memrefs, the inputs' at contents `x0`, `x1` and the output's at anything, runs to the
    continuation with the inputs' as they were and the output's at `out0_2 x0 x1`. -/
theorem sound_kernel0 (c : Dev nD) (E : Set ℕ) (i : grid0.Coords)
    (arg1 : Memref sig .tc .vmem S2000x133 .f32) (harg1 : arg1.IsWhole) (arg2 : Memref sig .tc .vmem S133x256 .f32) (harg2 : arg2.IsWhole)
    (arg3 : Memref sig .tc .vmem S2000x256 .f32) (harg3 : arg3.IsWhole)
    (x0 : Vec F S2000x133 .f32) (x1 : Vec F S133x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_relu_kernel i arg1 harg1 arg2 harg2 arg3 harg3) K := by
  simp only [cc0__proj_relu_kernel_eq_skeleton]; unfold cc0__proj_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the call finds them; after the body at point `t` each
    input's buffer at its block and the output's at `out0_2` of the two; the class invariant; nothing owed; the
    inputs' arrays held at the shares `q`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

theorem A_eq0 (c : Dev nD) (w : Fin cfg0.W) : (dat0 V q c).A w = V c (Pipeline.arrRef spec0 w) := by
  dsimp only [dat0]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = out0_2 (iblk0 V c 0 t) (iblk0 V c 1 t) := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body obligation, at a generic point -/

def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Hand

end
-- ==== Proof.IR1.lean ====
/-
  Pallas call 1: the edge projection `relu(x · w)`, one row block of 2000 edges per grid point (200 points), the
  147×256 weight resident. At ANY contents `V` of the buffers when the call is entered: the block each window
  holds at a point, what the body leaves in the output's staging buffer (its one store over the payload), the
  body's triple, the pipeline's proof data and the body obligation at every point. Generic in the float instance.
-/
import proofs.«429236_j40699110097566_3_alg».proof.Proof.Gen.KernelIdeal.Launch
import proofs.«429236_j40699110097566_3_alg».proof.Proof.Gen.KernelIdeal.Skeleton
import proofs.«429236_j40699110097566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg1.W → PosShare TreeShare)

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the row block
    moves with the point; the weight's block index never moves), for any proof data over `V` whose body leaves
    the inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_x : Rect S2000x147 := Rect.unit (s := S2000x147) ![0, 0] S2000x147.size inb_S2000x147_S2000x147_0_0
abbrev r1_w : Rect S147x256 := Rect.unit (s := S147x256) ![0, 0] S147x256.size inb_S147x256_S147x256_0_0
abbrev r1_o : Rect S2000x256 := Rect.unit (s := S2000x256) ![0, 0] S2000x256.size inb_S2000x256_S2000x256_0_0

/-- The output's staging buffer after the body: its one store, of the payload of the two loaded blocks. -/
def out1_2 (x0 : Vec F S2000x147 .f32) (x1 : Vec F S147x256 .f32) : Vec F S2000x256 .f32 :=
  View.canon [⟨r1_o, k1_pay1 (View.ld x0 r1_x) (View.ld x1 r1_w)⟩]

/-- The store covers the buffer. -/
theorem cover1_2 (p0 : Vec F S2000x256 .f32) (y : S2000x256.Idx) :
    ∃ pc ∈ ([⟨r1_o, p0⟩] : List (View.Piece (Elt F) S2000x256 .f32)), y ∈ pc.1.set :=
  View.cover_of_tiled [⟨r1_o, p0⟩] S2000x256.size (by rfl) y

/-! ## The body's triple -/

set_option maxHeartbeats 4000000 in
/-- The body on whole staging memrefs, the inputs' at contents `x0`, `x1` and the output's at anything, runs to the
    continuation with the inputs' as they were and the output's at `out1_2 x0 x1`. -/
theorem sound_kernel1 (c : Dev nD) (E : Set ℕ) (i : grid1.Coords)
    (arg1 : Memref sig .tc .vmem S2000x147 .f32) (harg1 : arg1.IsWhole) (arg2 : Memref sig .tc .vmem S147x256 .f32) (harg2 : arg2.IsWhole)
    (arg3 : Memref sig .tc .vmem S2000x256 .f32) (harg3 : arg3.IsWhole)
    (x0 : Vec F S2000x147 .f32) (x1 : Vec F S147x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_relu_kernel i arg1 harg1 arg2 harg2 arg3 harg3) K := by
  simp only [cc1__proj_relu_kernel_eq_skeleton]; unfold cc1__proj_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the call finds them; after the body at point `t` each
    input's buffer at its block and the output's at `out1_2` of the two; the class invariant; nothing owed; the
    inputs' arrays held at the shares `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

theorem A_eq1 (c : Dev nD) (w : Fin cfg1.W) : (dat1 V q c).A w = V c (Pipeline.arrRef spec1 w) := by
  dsimp only [dat1]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = out1_2 (iblk1 V c 0 t) (iblk1 V c 1 t) := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation, at a generic point -/

def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Hand

end
-- ==== Proof.IR3.lean ====
/-
  Pallas call 3: one round of the edge update `relu(h0 + (a − swap b) · w)` on a row block of 2000 edges per grid
  point (200 points): `a` the gathered source-node states, `b` the edge states (each row paired with its
  neighbour `i xor 1` inside the block), `w` the round's 256×256 weight (resident), `h0` the initial edge states.
  At ANY contents `V` of the buffers when the call is entered: the block each window holds at a point, what the
  body leaves in the output's staging buffer (its one store over the payload), the body's triple, the pipeline's
  proof data and the body obligation at every point. Generic in the float instance.
-/
import proofs.«429236_j40699110097566_3_alg».proof.Proof.Gen.KernelIdeal.Launch
import proofs.«429236_j40699110097566_3_alg».proof.Proof.Gen.KernelIdeal.Skeleton
import proofs.«429236_j40699110097566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg3.W → PosShare TreeShare)

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (a row block
    moves with the point; the weight's block index never moves), for any proof data over `V` whose body leaves
    the inputs in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole staging buffer -/

abbrev r3_e : Rect S2000x256 := Rect.unit (s := S2000x256) ![0, 0] S2000x256.size inb_S2000x256_S2000x256_0_0
abbrev r3_w : Rect S256x256 := Rect.unit (s := S256x256) ![0, 0] S256x256.size inb_S256x256_S256x256_0_0

/-- The output's staging buffer after the body: its one store, of the payload of the four loaded blocks (the
    payload takes the edge block first, then the gathered block, the weight, the initial block). -/
def out3_4 (x0 x1 : Vec F S2000x256 .f32) (x2 : Vec F S256x256 .f32) (x3 : Vec F S2000x256 .f32) : Vec F S2000x256 .f32 :=
  View.canon [⟨r3_e, k3_pay1 (View.ld x1 r3_e) (View.ld x0 r3_e) (View.ld x2 r3_w) (View.ld x3 r3_e)⟩]

/-- The store covers the buffer. -/
theorem cover3_4 (p0 : Vec F S2000x256 .f32) (y : S2000x256.Idx) :
    ∃ pc ∈ ([⟨r3_e, p0⟩] : List (View.Piece (Elt F) S2000x256 .f32)), y ∈ pc.1.set :=
  View.cover_of_tiled [⟨r3_e, p0⟩] S2000x256.size (by rfl) y

/-! ## The body's triple -/

set_option maxHeartbeats 4000000 in
/-- The body on whole staging memrefs, the inputs' at contents `x0 … x3` and the output's at anything, runs to the
    continuation with the inputs' as they were and the output's at `out3_4 x0 x1 x2 x3`. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S2000x256 .f32) (harg4 : arg4.IsWhole)
    (arg5 : Memref sig .tc .vmem S2000x256 .f32) (harg5 : arg5.IsWhole)
    (x0 x1 : Vec F S2000x256 .f32) (x2 : Vec F S256x256 .f32) (x3 : Vec F S2000x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__edge_update_kernel i arg1 harg1 arg2 harg2 arg3 harg3 arg4 harg4 arg5 harg5) K := by
  simp only [cc3__edge_update_kernel_eq_skeleton]; unfold cc3__edge_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the call finds them; after the body at point `t` each
    input's buffer at its block and the output's at `out3_4` of the four; the class invariant; nothing owed; the
    inputs' arrays held at the shares `q`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q := q
  owed _ := 0

theorem A_eq3 (c : Dev nD) (w : Fin cfg3.W) : (dat3 V q c).A w = V c (Pipeline.arrRef spec3 w) := by
  dsimp only [dat3]
theorem after3_0 (c : Dev nD) (t : Fin cfg3.N) : (dat3 V q c).after 0 t = iblk3 V c 0 t := by dsimp only [dat3]
theorem after3_1 (c : Dev nD) (t : Fin cfg3.N) : (dat3 V q c).after 1 t = iblk3 V c 1 t := by dsimp only [dat3]
theorem after3_2 (c : Dev nD) (t : Fin cfg3.N) : (dat3 V q c).after 2 t = iblk3 V c 2 t := by dsimp only [dat3]
theorem after3_3 (c : Dev nD) (t : Fin cfg3.N) : (dat3 V q c).after 3 t = iblk3 V c 3 t := by dsimp only [dat3]
theorem after3_4 (c : Dev nD) (t : Fin cfg3.N) :
    (dat3 V q c).after 4 t = out3_4 (iblk3 V c 0 t) (iblk3 V c 1 t) (iblk3 V c 2 t) (iblk3 V c 3 t) := by dsimp only [dat3]
theorem before3_0 (c : Dev nD) (t : Fin cfg3.N) (d) : (dat3 V q c).before 0 t d = iblk3 V c 0 t :=
  before3_0_of V (dat3 V q c) (A_eq3 V q c 0) (after3_0 V q c) t d
theorem before3_1 (c : Dev nD) (t : Fin cfg3.N) (d) : (dat3 V q c).before 1 t d = iblk3 V c 1 t :=
  before3_1_of V (dat3 V q c) (A_eq3 V q c 1) (after3_1 V q c) t d
theorem before3_2 (c : Dev nD) (t : Fin cfg3.N) (d) : (dat3 V q c).before 2 t d = iblk3 V c 2 t :=
  before3_2_of V (dat3 V q c) (A_eq3 V q c 2) (after3_2 V q c) t d
theorem before3_3 (c : Dev nD) (t : Fin cfg3.N) (d) : (dat3 V q c).before 3 t d = iblk3 V c 3 t :=
  before3_3_of V (dat3 V q c) (A_eq3 V q c 3) (after3_3 V q c) t d

/-! ## The body obligation, at a generic point -/

def bodyPre3 (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d)))

def bodyPost3 (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t))

theorem sound_body3 (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3]
  rw [show (dat3 V q c).Φ t.succ = (dat3 V q c).Φ t.castSucc from rfl,
    show (dat3 V q c).owesAt () t.succ = (dat3 V q c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V q c) (defs₀ (F := F)) Variants.none () Set.univ := fun t => by
  rw [bigSep_W3, bigSep_W3]
  exact sound_body3 V q c t

end Cert.KernelIdeal.Hand

end
-- ==== Proof.IR5.lean ====
/-
  Pallas call 5: the fused output head on a row block of 2000 nodes per grid point (50 points):
  `y = agg · wlr0 + hn · wlr1 + h0 · wlr2`, then `relu(y · wo0 + h0 · wo1 + bias)`, the five 256×256 weights and
  the 1×256 bias row resident. At ANY contents `V` of the buffers when the call is entered: the block each window
  holds at a point, what the body leaves in the output's staging buffer (its one store over the payloads), the
  body's triple, the pipeline's proof data and the body obligation at every point. Generic in the float instance.
-/
import proofs.«429236_j40699110097566_3_alg».proof.Proof.Gen.KernelIdeal.Launch
import proofs.«429236_j40699110097566_3_alg».proof.Proof.Gen.KernelIdeal.Skeleton
import proofs.«429236_j40699110097566_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg5.W → PosShare TreeShare)

/-! ## The windows' blocks -/

/-- Window `w`'s block at point `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not (a row block
    moves with the point; a weight's and the bias row's block index never moves), for any proof data over `V`
    whose body leaves the inputs in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each a whole staging buffer -/

abbrev r5_e : Rect S2000x256 := Rect.unit (s := S2000x256) ![0, 0] S2000x256.size inb_S2000x256_S2000x256_0_0
abbrev r5_w : Rect S256x256 := Rect.unit (s := S256x256) ![0, 0] S256x256.size inb_S256x256_S256x256_0_0
abbrev r5_b : Rect S1x256 := Rect.unit (s := S1x256) ![0, 0] S1x256.size inb_S1x256_S1x256_0_0

/-- The output's staging buffer after the body: its one store, of the payload over the two linear stages of the
    eight loaded blocks and over the bias row broadcast along the rows. -/
def out5_9 (x0 x1 x2 : Vec F S2000x256 .f32) (x3 x4 x5 x6 x7 : Vec F S256x256 .f32) (x8 : Vec F S1x256 .f32) : Vec F S2000x256 .f32 :=
  View.canon [⟨r5_e, k5_pay1 (k5_pay2 (View.ld x0 r5_e) (View.ld x1 r5_e) (View.ld x2 r5_e) (View.ld x3 r5_w) (View.ld x4 r5_w) (View.ld x5 r5_w)
    (View.ld x6 r5_w) (View.ld x7 r5_w)) (k5_pay3 (View.ld x8 r5_b))⟩]

/-- The store covers the buffer. -/
theorem cover5_9 (p0 : Vec F S2000x256 .f32) (y : S2000x256.Idx) :
    ∃ pc ∈ ([⟨r5_e, p0⟩] : List (View.Piece (Elt F) S2000x256 .f32)), y ∈ pc.1.set :=
  View.cover_of_tiled [⟨r5_e, p0⟩] S2000x256.size (by rfl) y

/-! ## The body's triple -/

set_option maxHeartbeats 8000000 in
/-- The body on whole staging memrefs, the inputs' at contents `x0 … x8` and the output's at anything, runs to the
    continuation with the inputs' as they were and the output's at `out5_9 x0 … x8`. -/
theorem sound_kernel5 (c : Dev nD) (E : Set ℕ) (i : grid5.Coords)
    (arg1 : Memref sig .tc .vmem S2000x256 .f32) (harg1 : arg1.IsWhole)
    (arg2 : Memref sig .tc .vmem S2000x256 .f32) (harg2 : arg2.IsWhole)
    (arg3 : Memref sig .tc .vmem S2000x256 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S256x256 .f32) (harg6 : arg6.IsWhole)
    (arg7 : Memref sig .tc .vmem S256x256 .f32) (harg7 : arg7.IsWhole)
    (arg8 : Memref sig .tc .vmem S256x256 .f32) (harg8 : arg8.IsWhole)
    (arg9 : Memref sig .tc .vmem S1x256 .f32) (harg9 : arg9.IsWhole)
    (arg10 : Memref sig .tc .vmem S2000x256 .f32) (harg10 : arg10.IsWhole)
    (x0 x1 x2 : Vec F S2000x256 .f32) (x3 x4 x5 x6 x7 : Vec F S256x256 .f32) (x8 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out5_9 x0 x1 x2 x3 x4 x5 x6 x7 x8)) -∗ K ⟨⟩))
      ⊢ wp frame (wpE (defs₀ (F := F)) Variants.none c none) E
          (cc5__lr_final_kernel i arg1 harg1 arg2 harg2 arg3 harg3 arg4 harg4 arg5 harg5 arg6 harg6 arg7 harg7 arg8 harg8 arg9 harg9 arg10 harg10) K := by
  simp only [cc5__lr_final_kernel_eq_skeleton]; unfold cc5__lr_final_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover5_9 _)

/-! ## The pipeline's proof data -/

/-- The proof data of pipeline 5 on core `c`: the arrays as the call finds them; after the body at point `t` each
    input's buffer at its block and the output's at `out5_9` of the nine; the class invariant; nothing owed; the
    inputs' arrays held at the shares `q`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q := q
  owed _ := 0

theorem A_eq5 (c : Dev nD) (w : Fin cfg5.W) : (dat5 V q c).A w = V c (Pipeline.arrRef spec5 w) := by
  dsimp only [dat5]
theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = iblk5 V c 2 t := by dsimp only [dat5]
theorem after5_3 (c : Dev nD) (t : Fin cfg5.N) : (dat5 V q c).after 3 t = iblk5 V c 3 t := by dsimp only [dat5]
theorem after5_4 (c : Dev nD) (t : Fin cfg5.N) : (dat5 V q c).after 4 t = iblk5 V c 4 t := by dsimp only [dat5]
theorem after5_5 (c : Dev nD) (t : Fin cfg5.N) : (dat5 V q c).after 5 t = iblk5 V c 5 t := by dsimp only [dat5]
theorem after5_6 (c : Dev nD) (t : Fin cfg5.N) : (dat5 V q c).after 6 t = iblk5 V c 6 t := by dsimp only [dat5]
theorem after5_7 (c : Dev nD) (t : Fin cfg5.N) : (dat5 V q c).after 7 t = iblk5 V c 7 t := by dsimp only [dat5]
theorem after5_8 (c : Dev nD) (t : Fin cfg5.N) : (dat5 V q c).after 8 t = iblk5 V c 8 t := by dsimp only [dat5]
theorem after5_9 (c : Dev nD) (t : Fin cfg5.N) :
    (dat5 V q c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]
theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d
theorem before5_2 (c : Dev nD) (t : Fin cfg5.N) (d) : (dat5 V q c).before 2 t d = iblk5 V c 2 t :=
  before5_2_of V (dat5 V q c) (A_eq5 V q c 2) (after5_2 V q c) t d
theorem before5_3 (c : Dev nD) (t : Fin cfg5.N) (d) : (dat5 V q c).before 3 t d = iblk5 V c 3 t :=
  before5_3_of V (dat5 V q c) (A_eq5 V q c 3) (after5_3 V q c) t d
theorem before5_4 (c : Dev nD) (t : Fin cfg5.N) (d) : (dat5 V q c).before 4 t d = iblk5 V c 4 t :=
  before5_4_of V (dat5 V q c) (A_eq5 V q c 4) (after5_4 V q c) t d
theorem before5_5 (c : Dev nD) (t : Fin cfg5.N) (d) : (dat5 V q c).before 5 t d = iblk5 V c 5 t :=
  before5_5_of V (dat5 V q c) (A_eq5 V q c 5) (after5_5 V q c) t d
theorem before5_6 (c : Dev nD) (t : Fin cfg5.N) (d) : (dat5 V q c).before 6 t d = iblk5 V c 6 t :=
  before5_6_of V (dat5 V q c) (A_eq5 V q c 6) (after5_6 V q c) t d
theorem before5_7 (c : Dev nD) (t : Fin cfg5.N) (d) : (dat5 V q c).before 7 t d = iblk5 V c 7 t :=
  before5_7_of V (dat5 V q c) (A_eq5 V q c 7) (after5_7 V q c) t d
theorem before5_8 (c : Dev nD) (t : Fin cfg5.N) (d) : (dat5 V q c).before 8 t d = iblk5 V c 8 t :=
  before5_8_of V (dat5 V q c) (A_eq5 V q c 8) (after5_8 V q c) t d

/-! ## The body obligation, at a generic point -/

def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d))
    ∗ (∃ d, owns (c : Thread nD τ) (st5_3 t) fullShare ((dat5 V q c).before 3 t d))
    ∗ (∃ d, owns (c : Thread nD τ) (st5_4 t) fullShare ((dat5 V q c).before 4 t d))
    ∗ (∃ d, owns (c : Thread nD τ) (st5_5 t) fullShare ((dat5 V q c).before 5 t d))
    ∗ (∃ d, owns (c : Thread nD τ) (st5_6 t) fullShare ((dat5 V q c).before 6 t d))
    ∗ (∃ d, owns (c : Thread nD τ) (st5_7 t) fullShare ((dat5 V q c).before 7 t d))
    ∗ (∃ d, owns (c : Thread nD τ) (st5_8 t) fullShare ((dat5 V q c).before 8 t d))
    ∗ (∃ d, owns (c : Thread nD τ) (st5_9 t) fullShare ((dat5 V q c).before 9 t d)))

def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t)
    ∗ owns (c : Thread nD τ) (st5_3 t) fullShare ((dat5 V q c).after 3 t)
    ∗ owns (c : Thread nD τ) (st5_4 t) fullShare ((dat5 V q c).after 4 t)
    ∗ owns (c : Thread nD τ) (st5_5 t) fullShare ((dat5 V q c).after 5 t)
    ∗ owns (c : Thread nD τ) (st5_6 t) fullShare ((dat5 V q c).after 6 t)
    ∗ owns (c : Thread nD τ) (st5_7 t) fullShare ((dat5 V q c).after 7 t)
    ∗ owns (c : Thread nD τ) (st5_8 t) fullShare ((dat5 V q c).after 8 t)
    ∗ owns (c : Thread nD τ) (st5_9 t) fullShare ((dat5 V q c).after 9 t))

theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1, before5_2, before5_3, before5_4, before5_5, before5_6, before5_7, before5_8]
  rw [show (dat5 V q c).Φ t.succ = (dat5 V q c).Φ t.castSucc from rfl,
    show (dat5 V q c).owesAt () t.succ = (dat5 V q c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V q c) (defs₀ (F := F)) Variants.none () Set.univ := fun t => by
  rw [bigSep_W5, bigSep_W5]
  exact sound_body5 V q c t

end Cert.KernelIdeal.Hand

end
-- ==== Proof.IRun.lean ====
/-
  THE RUN of @main as sixteen segments, at any float instance. The program is a message-passing network: two input
  projections (pallas calls 0 and 1), three rounds of {sum the edge messages into their nodes and add, on the host;
  gather the nodes' rows at the edges' sources, on the host; slice the round's weight; the edge update, a pallas
  call}, a last aggregation with the slices of the head's weights, and the output head (pallas call 5).

  The buffers' contents at the seventeen boundaries are a chain `W0 … W16` from the launch memory: a host stretch
  rewrites the buffers its operations write (`StableHlo.after`), a pallas call replaces its one output array by the
  fold of its write-backs over the grid (`Dat.arrAt … N` of the region's proof data at the contents it is entered
  with) and leaves every other buffer alone. Between two segments a core holds every unscoped buffer whole at the
  boundary's contents, its generator register at some state, and owes nothing.

  Each pallas call becomes a segment by one record built the same way for all six: its windows' arrays are split
  out of the unscoped buffers at the entry and put back at the exit, the generator register goes through the class
  invariant, nothing is owed at the staging cells. Five calls have pairwise distinct arrays held whole. Pallas call
  2 is handed ONE array under two input windows: there the shared buffer is held as two complementary halves of the
  full share, one per window, split at the entry and joined again at the exit (both halves hold the contents it was
  entered with: no write-back touches an input).

  `run_all` is the run: every weakly fair execution terminates and every final memory holds `W16` at every unscoped
  buffer. Read at the arguments — which no stretch and no call writes — it is the frame claim.
-/
import proofs.«429236_j40699110097566_3_alg».proof.Proof.IR0
import proofs.«429236_j40699110097566_3_alg».proof.Proof.IR1
import proofs.«429236_j40699110097566_3_alg».proof.Proof.IR2
import proofs.«429236_j40699110097566_3_alg».proof.Proof.IR3
import proofs.«429236_j40699110097566_3_alg».proof.Proof.IR4
import proofs.«429236_j40699110097566_3_alg».proof.Proof.IR5
import proofs.«429236_j40699110097566_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A boundary's contents read at the TensorCore's references. -/
abbrev atTc (W : Dev nD → Valuation τ sig (Elt F)) : (c : Dev nD) → (b : Ref sig .tc) → Buf (Elt F) ((c : Thread nD τ).loc b) :=
  fun c b => W c b

/-! ## What a region leaves in the buffers -/

section Exit

variable {cfg : Cfg sig Λ₀} {c : Dev nD} (dat : Dat τ (Elt F) Unit ℕ (UR sig nD τ) ℕ cfg c)

/-- The contents a region with the one output window `wo` leaves, entered at `Vb`: the output's array at its
    write-backs folded over the grid, every other buffer as entered. -/
def leftBy (wo : Fin cfg.W) (Vb : Valuation τ sig (Elt F)) : Valuation τ sig (Elt F) :=
  Function.update Vb (Proc.devRef .tc (Pipeline.arrRef cfg.spec wo)) (dat.arrAt wo cfg.N)

theorem leftBy_out (wo : Fin cfg.W) (Vb : Valuation τ sig (Elt F)) :
    leftBy dat wo Vb (Proc.devRef .tc (Pipeline.arrRef cfg.spec wo)) = dat.arrAt wo cfg.N := by
  unfold leftBy; rw [Function.update_self]

theorem leftBy_of_ne (wo : Fin cfg.W) (Vb : Valuation τ sig (Elt F)) (r : Ref sig .tc) (h : r ≠ Pipeline.arrRef cfg.spec wo) :
    leftBy dat wo Vb (Proc.devRef .tc r) = Vb (Proc.devRef .tc r) :=
  Function.update_of_ne (StableHlo.devRef_ne_of_ne h) _ _

/-- Every window's array at the end of the region is what the left contents hold there: the output by definition,
    an input because no write-back touches it and it was entered at `Vb`. -/
theorem leftBy_arr (wo : Fin cfg.W) (Vb : Valuation τ sig (Elt F))
    (hA : ∀ w, dat.A w = Vb (Proc.devRef .tc (Pipeline.arrRef cfg.spec w)))
    (hin : ∀ w, w ≠ wo → (cfg.win w).isOut = false)
    (hne : ∀ w, w ≠ wo → Pipeline.arrRef cfg.spec w ≠ Pipeline.arrRef cfg.spec wo) (w : Fin cfg.W) :
    dat.arrAt w cfg.N = leftBy dat wo Vb (Proc.devRef .tc (Pipeline.arrRef cfg.spec w)) := by
  by_cases h : w = wo
  · subst h; rw [leftBy_out]
  · rw [leftBy_of_ne dat wo Vb _ (hne w h), dat.arrAt_in w (hin w h), hA]

/-- A buffer that is no window's array is left as entered. -/
theorem leftBy_rest (wo : Fin cfg.W) (Vb : Valuation τ sig (Elt F)) (b : Ref sig .tc)
    (hb : b ∉ Finset.univ.image (Pipeline.arrRef cfg.spec)) :
    leftBy dat wo Vb (Proc.devRef .tc b) = Vb (Proc.devRef .tc b) :=
  leftBy_of_ne dat wo Vb b fun e => hb (Finset.mem_image.mpr ⟨wo, Finset.mem_univ _, e.symm⟩)

end Exit

/-- Region 2's windows name four buffers. -/
theorem img2 : Finset.univ.image (Pipeline.arrRef spec2) = {main_v6, main_v1, main_v8, main_v9} := by decide

/-! ## Region 2: one array under two input windows -/

/-- The shares region 2 holds its input arrays at: windows 1 and 3 read the same array, each through one half of
    it; every other input whole. -/
def q2 : Fin cfg2.W → PosShare TreeShare
  | ⟨1, _⟩ => fullShare.left
  | ⟨3, _⟩ => fullShare.right
  | _ => fullShare

section Shared

/-- Whole arrays, each held at its own share. -/
theorem arrays_whole {cfg : Cfg sig Λ₀} {c : Dev nD} (dat : Dat τ (Elt F) Unit ℕ (UR sig nD τ) ℕ cfg c)
    (harr : ∀ w, (cfg.spec w).arr.IsWhole) (G : (w : Fin cfg.W) → Buf (Elt F) ((cfg.win w).arr.view.loc (c.tc : Thread nD τ))) :
    (dat.arrays G : sProp 𝕄) = bigSep Finset.univ fun w => (((c.tc : Thread nD τ).loc (Pipeline.arrRef cfg.spec w)) ↦{dat.share w} G w : sProp 𝕄) := by
  unfold Dat.arrays
  exact bigSep_congr fun w _ => by rw [(harr w).set_eq_univ]

variable {c : Dev nD} (dat : Dat τ (Elt F) Unit ℕ (UR sig nD τ) ℕ cfg2 c)

set_option maxHeartbeats 2000000 in
/-- The five windows' arrays one by one: four buffers, the shared one under its two halves. -/
theorem arrays2_eq (hq : dat.q = q2)
    (G : (w : Fin cfg2.W) → Buf (Elt F) ((cfg2.win w).arr.view.loc (c.tc : Thread nD τ))) :
    (dat.arrays G : sProp 𝕄) = iprop((((c.tc : Thread nD τ).loc main_v6) ↦{fullShare} G 0)
      ∗ (((c.tc : Thread nD τ).loc main_v1) ↦{fullShare.left} G 1)
      ∗ (((c.tc : Thread nD τ).loc main_v8) ↦{fullShare} G 2)
      ∗ (((c.tc : Thread nD τ).loc main_v1) ↦{fullShare.right} G 3)
      ∗ (((c.tc : Thread nD τ).loc main_v9) ↦{fullShare} G 4)) := by
  have s0 : dat.share 0 = fullShare := by unfold Dat.share; rw [hq]; rfl
  have s1 : dat.share 1 = fullShare.left := by unfold Dat.share; rw [hq]; rfl
  have s2 : dat.share 2 = fullShare := by unfold Dat.share; rw [hq]; rfl
  have s3 : dat.share 3 = fullShare.right := by unfold Dat.share; rw [hq]; rfl
  have s4 : dat.share 4 = fullShare := by unfold Dat.share; rfl
  rw [arrays_whole dat arr_whole2, bigSep_W2, s0, s1, s2, s3, s4]

/-- The distinct buffers behind region 2's windows, one by one. -/
theorem arrBufs2_eq (V : (b : Ref sig .tc) → Buf (Elt F) ((c.tc : Thread nD τ).loc b)) :
    (Pipeline.arrBufs spec2 c V : sProp 𝕄) = iprop((((c.tc : Thread nD τ).loc main_v6) ↦{fullShare} V main_v6)
      ∗ (((c.tc : Thread nD τ).loc main_v1) ↦{fullShare} V main_v1)
      ∗ (((c.tc : Thread nD τ).loc main_v8) ↦{fullShare} V main_v8)
      ∗ (((c.tc : Thread nD τ).loc main_v9) ↦{fullShare} V main_v9)) := by
  unfold Pipeline.arrBufs
  rw [img2, BI.bigSep_insert (by decide), BI.bigSep_insert (by decide), BI.bigSep_insert (by decide), BI.bigSep_singleton]
  rfl

/-- A whole buffer is its two halves at the same contents, and back. -/
theorem halves (b : Ref sig .tc) (x : Buf (Elt F) ((c.tc : Thread nD τ).loc b)) :
    ((((c.tc : Thread nD τ).loc b) ↦{fullShare} x) : sProp 𝕄)
      ⊣⊢ iprop((((c.tc : Thread nD τ).loc b) ↦{fullShare.left} x) ∗ (((c.tc : Thread nD τ).loc b) ↦{fullShare.right} x)) :=
  pointsTo_share (PosShare.mem_left_op_right fullShare)

/-- ENTRY of region 2: the core's unscoped buffers at `V` are the five windows' arrays as the proof data enters
    them (read off `V`), the shared buffer split along its two halves, beside the buffers no window names. -/
theorem enter2 (hq : dat.q = q2) (V : (b : Ref sig .tc) → Buf (Elt F) ((c.tc : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  refine (Entails.of_eq (Pipeline.unscopedBufs_split₀ cfgs 2 winFacts₀2.arr_unscoped c V)).trans (sep_mono ?_ .rfl)
  show (Pipeline.arrBufs spec2 c V : sProp 𝕄) ⊢ _
  rw [arrays2_eq dat hq, arrBufs2_eq,
    show dat.arrAt 0 0 = V main_v6 from hA 0, show dat.arrAt 1 0 = V main_v1 from hA 1,
    show dat.arrAt 2 0 = V main_v8 from hA 2, show dat.arrAt 3 0 = V main_v1 from hA 3,
    show dat.arrAt 4 0 = V main_v9 from hA 4]
  iintro ⟨H6, H1, H8, H9⟩
  ihave H1' := (halves main_v1 (V main_v1)).1 $$ H1
  icases H1' with ⟨H1l, H1r⟩
  isplitl [H6]; · iexact H6
  isplitl [H1l]; · iexact H1l
  isplitl [H8]; · iexact H8
  isplitl [H1r]; · iexact H1r
  iexact H9

/-- EXIT of region 2: the five arrays at their final contents — read at a valuation `V'` that agrees with `V` off
    them — and the bypassing buffers at `V` are the core's unscoped buffers at `V'`; the two halves of the shared
    buffer, at the same contents, make it whole again. -/
theorem leave2 (hq : dat.q = q2) (V V' : (b : Ref sig .tc) → Buf (Elt F) ((c.tc : Thread nD τ).loc b))
    (hF : ∀ w, dat.arrAt w cfg2.N = V' (Pipeline.arrRef spec2 w))
    (hrest : ∀ b, b ∉ Finset.univ.image (Pipeline.arrRef spec2) → V' b = V b) :
    iprop(dat.arrays (dat.arrAt · cfg2.N) ∗ Pipeline.unscopedRest spec2 c V) ⊢ (unscopedBufs c V' : sProp 𝕄) := by
  refine Entails.trans (sep_mono ?_ (Entails.of_eq ?_)) (Entails.of_eq (Pipeline.unscopedBufs_split₀ cfgs 2 winFacts₀2.arr_unscoped c V').symm)
  · show _ ⊢ (Pipeline.arrBufs spec2 c V' : sProp 𝕄)
    rw [arrays2_eq dat hq, arrBufs2_eq,
      show dat.arrAt 0 cfg2.N = V' main_v6 from hF 0, show dat.arrAt 1 cfg2.N = V' main_v1 from hF 1,
      show dat.arrAt 2 cfg2.N = V' main_v8 from hF 2, show dat.arrAt 3 cfg2.N = V' main_v1 from hF 3,
      show dat.arrAt 4 cfg2.N = V' main_v9 from hF 4]
    iintro ⟨H6, H1l, H8, H1r, H9⟩
    ihave H1 := (halves main_v1 (V' main_v1)).2 $$ [H1l H1r]
    · isplitl [H1l]; · iexact H1l
      iexact H1r
    isplitl [H6]; · iexact H6
    isplitl [H1]; · iexact H1
    isplitl [H8]; · iexact H8
    iexact H9
  · show (Pipeline.unscopedRest spec2 c V : sProp 𝕄) = Pipeline.unscopedRest spec2 c V'
    unfold Pipeline.unscopedRest
    exact bigSep_congr fun b hb => by rw [hrest b (Finset.mem_sdiff.mp hb).2]

end Shared

/-! ## The thread state between segments, and the segments -/

/-- No core owes another anything: no level is assigned. -/
abbrev noPairs : GSem nD τ sig → Finset Unit := fun _ => ∅
abbrev noLevel : GSem nD τ sig → Unit → ℕ := fun _ _ => 0

/-- What a core carries beside its buffers from one segment to the next: its generator register at some state,
    and that it owes nothing. -/
abbrev carried (c : Dev nD) : sProp 𝕄 :=
  iprop((∃ r, prngReg c r) ∗ ∃ S, owes (c : Thread nD τ) (0 : CellTallies nD τ sig Unit) S)

/-- The thread state at a boundary with contents `W`: every unscoped buffer whole at `W`, and what is carried. -/
abbrev stateAt (W : Dev nD → Valuation τ sig (Elt F)) (c : Dev nD) : sProp 𝕄 :=
  iprop(StableHlo.held (c : Thread nD τ) (Pipeline.ucRefs τ sig) (W c) ∗ carried c)

/-- A stretch of host operations from the boundary contents `W`, as a segment: it ends at `StableHlo.after ops W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

section Record

variable (pdats : (p : Fin 6) → (c : Dev nD) → Dat τ (Elt F) Unit ℕ (UR sig nD τ) ℕ (cfgs p) c)

/-- No pallas_call of this program prefetches a table. -/
theorem noTables (p : Fin 6) (c : Dev nD) (v) :
    (BI.emp : sProp 𝕄) ⊢ Pipeline.prefHeld (pcfgs (F := F) p).pre c (fun _ => fullShare) v := by
  unfold Pipeline.prefHeld
  show (BI.emp : sProp 𝕄) ⊢ bigSep (∅ : Finset (Fin 0)) _
  rw [BI.bigSep_empty]

set_option backward.isDefEq.respectTransparency.types false in
/-- A pallas_call of @main as a segment between the boundary contents `Wb` and `Wa`, GIVEN how its windows' arrays
    leave the core's unscoped buffers at `Wb` and return to them at `Wa`: the body obligation of its proof data; an
    invariant that is the class one (the scoped buffers no window stages, the generator register); nothing owed; no
    semaphore of the kernel's own; no prefetched table. -/
def regionOf (p : Fin 6) (hw : Pipeline.WinFacts₀ (pcfgs (F := F) p).spec)
    (hblock : ∀ w : Fin (cfgs p).W, 0 < ((cfgs p).spec w).block.numel)
    (hstage : ∀ (w : Fin (cfgs p).W) (s : Fin ((cfgs p).spec w).nbuf), (((cfgs p).spec w).stage s).IsWhole)
    (Wb Wa : Dev nD → Valuation τ sig (Elt F))
    (hbody : ∀ c, BodyObligation (pdats p c) (defs₀ (F := F)) Variants.none () Set.univ)
    (hΦ : ∀ c t, (pdats p c).Φ t = Pipeline.ΦA (cfgs p).spec c)
    (howed : ∀ c t, (pdats p c).owed t = 0)
    (hrec : ∀ c t, (pdats p c).recorded t = Set.univ)
    (hsplit : ∀ c, (unscopedBufs c (atTc Wb c) : sProp 𝕄)
      ⊢ iprop((pdats p c).arrays ((pdats p c).arrAt · 0) ∗ Pipeline.unscopedRest (cfgs p).spec c (atTc Wb c)))
    (hjoin : ∀ c, iprop((pdats p c).arrays ((pdats p c).arrAt · (cfgs p).N) ∗ Pipeline.unscopedRest (cfgs p).spec c (atTc Wb c))
      ⊢ (unscopedBufs c (atTc Wa c) : sProp 𝕄)) :
    Pipeline.RegionSeg (pcfgs (F := F)) adm pdats () defs₀ Variants.none noPairs noLevel p where
  win := hw
  block_pos := hblock
  stage_whole := hstage
  K := PEmpty
  osem k := k.elim
  ho := Pipeline.OwnSemFacts.none _
  hbody c := (hbody c).loose
  hwaits := Pipeline.hwaits_of_owed_zero _ _ _ _ noPairs noLevel p howed
  pre := stateAt Wb
  post := stateAt Wa
  X c := iprop(∃ r, prngReg c r)
  Y c := iprop(∃ r, prngReg c r)
  Z c := Pipeline.unscopedRest (cfgs p).spec c (atTc Wb c)
  hentry c := by
    have hs := hsplit c
    rw [Pipeline.unscopedBufs_held] at hs
    iintro ⟨⟨Hbuf, Hreg, Howes⟩, -, -⟩
    imodintro
    ihave Hs := hs $$ Hbuf
    icases Hs with ⟨Harr, Hrest⟩
    isplitl [Harr]; · iexact Harr
    isplitr; · iapply (noTables p c _); iempintro
    isplitl [Howes]
    · icases Howes with ⟨%S, Howes⟩
      unfold Dat.owesAt Pipeline.owesWithin
      rw [howed c 0]
      iexists S
      isplitr; · ipureintro; unfold Dat.bound; rw [hrec c 0]; exact fun _ _ => Or.inl trivial
      iexact Howes
    isplitl [Hreg]; · iexact Hreg
    iexact Hrest
  hin c := by
    rw [hΦ c 0]; unfold Pipeline.ΦA
    iintro ⟨Hreg, -, Hscoped⟩
    isplitl [Hscoped]; · iexact Hscoped
    iexact Hreg
  hout c := by
    rw [hΦ c _, Pipeline.ownSems0_none]; unfold Pipeline.ΦA
    iintro ⟨Hscoped, Hreg⟩
    isplitl [Hreg]; · iexact Hreg
    isplitr; · iempintro
    iexact Hscoped
  hexit c := by
    have hj := hjoin c
    rw [Pipeline.unscopedBufs_held] at hj
    iintro ⟨Harr, Howes, Hreg, Hrest⟩
    imodintro
    isplitl [Harr Hrest]
    · iapply hj
      isplitl [Harr]; · iexact Harr
      iexact Hrest
    isplitl [Hreg]; · iexact Hreg
    unfold Dat.owesAt Pipeline.owesWithin
    rw [howed c _]
    icases Howes with ⟨%S, -, Howes⟩
    iexists S; iexact Howes

end Record

/-! ## The buffers' contents at the seventeen boundaries of @main -/

section Run

variable (m : (ℓ : Loc nD τ sig) → Buf (Elt F) ℓ)

/-- Regions 0, 1, 3, 4 and 5 hold every input array whole. -/
abbrev q0 : Fin cfg0.W → PosShare TreeShare := fun _ => fullShare
abbrev q1 : Fin cfg1.W → PosShare TreeShare := fun _ => fullShare
abbrev q3 : Fin cfg3.W → PosShare TreeShare := fun _ => fullShare
abbrev q4 : Fin cfg4.W → PosShare TreeShare := fun _ => fullShare
abbrev q5 : Fin cfg5.W → PosShare TreeShare := fun _ => fullShare

/-- Core `c`'s buffers at launch. -/
def W0 (c : Dev nD) : Valuation τ sig (Elt F) := fun b => m (c, b)
/-- After region 0 (the node projection): `main_v0` holds what the pipeline's write-backs leave. -/
def W1 (c : Dev nD) : Valuation τ sig (Elt F) := leftBy (dat0 (atTc (W0 m)) q0 c) 2 (W0 m c)
/-- After region 1 (the edge projection): `main_v1` holds what the pipeline's write-backs leave. -/
def W2 (c : Dev nD) : Valuation τ sig (Elt F) := leftBy (dat1 (atTc (W1 m)) q1 c) 2 (W1 m c)
/-- After the host stretch `hostOps2`. -/
def W3 (c : Dev nD) : Valuation τ sig (Elt F) := StableHlo.after hostOps2 (W2 m c)
/-- After the host stretch `hostOps2_1`. -/
def W4 (c : Dev nD) : Valuation τ sig (Elt F) := StableHlo.after hostOps2_1 (W3 m c)
/-- After the host stretch `hostOps2_2`. -/
def W5 (c : Dev nD) : Valuation τ sig (Elt F) := StableHlo.after hostOps2_2 (W4 m c)
/-- After region 2 (the first edge update): `main_v9` holds what the pipeline's write-backs leave. -/
def W6 (c : Dev nD) : Valuation τ sig (Elt F) := leftBy (dat2 (atTc (W5 m)) q2 c) 4 (W5 m c)
/-- After the host stretch `hostOps3`. -/
def W7 (c : Dev nD) : Valuation τ sig (Elt F) := StableHlo.after hostOps3 (W6 m c)
/-- After the host stretch `hostOps3_1`. -/
def W8 (c : Dev nD) : Valuation τ sig (Elt F) := StableHlo.after hostOps3_1 (W7 m c)
/-- After the host stretch `hostOps3_2`. -/
def W9 (c : Dev nD) : Valuation τ sig (Elt F) := StableHlo.after hostOps3_2 (W8 m c)
/-- After region 3 (the second edge update): `main_v17` holds what the pipeline's write-backs leave. -/
def W10 (c : Dev nD) : Valuation τ sig (Elt F) := leftBy (dat3 (atTc (W9 m)) q3 c) 4 (W9 m c)
/-- After the host stretch `hostOps4`. -/
def W11 (c : Dev nD) : Valuation τ sig (Elt F) := StableHlo.after hostOps4 (W10 m c)
/-- After the host stretch `hostOps4_1`. -/
def W12 (c : Dev nD) : Valuation τ sig (Elt F) := StableHlo.after hostOps4_1 (W11 m c)
/-- After the host stretch `hostOps4_2`. -/
def W13 (c : Dev nD) : Valuation τ sig (Elt F) := StableHlo.after hostOps4_2 (W12 m c)
/-- After region 4 (the third edge update): `main_v25` holds what the pipeline's write-backs leave. -/
def W14 (c : Dev nD) : Valuation τ sig (Elt F) := leftBy (dat4 (atTc (W13 m)) q4 c) 4 (W13 m c)
/-- After the host stretch `hostOps5`. -/
def W15 (c : Dev nD) : Valuation τ sig (Elt F) := StableHlo.after hostOps5 (W14 m c)
/-- After region 5 (the output head): `main_v35` holds what the pipeline's write-backs leave. -/
def W16 (c : Dev nD) : Valuation τ sig (Elt F) := leftBy (dat5 (atTc (W15 m)) q5 c) 9 (W15 m c)

/-! ### Reading a boundary: the region's output, and everything it leaves alone -/

theorem W1_out (c : Dev nD) : W1 m c (Proc.devRef .tc main_v0) = (dat0 (atTc (W0 m)) q0 c).arrAt 2 cfg0.N :=
  leftBy_out (dat0 (atTc (W0 m)) q0 c) 2 (W0 m c)
theorem W1_of_ne (c : Dev nD) (r : Ref sig .tc) (h : r ≠ main_v0) : W1 m c (Proc.devRef .tc r) = W0 m c (Proc.devRef .tc r) :=
  leftBy_of_ne (dat0 (atTc (W0 m)) q0 c) 2 (W0 m c) r h

theorem W2_out (c : Dev nD) : W2 m c (Proc.devRef .tc main_v1) = (dat1 (atTc (W1 m)) q1 c).arrAt 2 cfg1.N :=
  leftBy_out (dat1 (atTc (W1 m)) q1 c) 2 (W1 m c)
theorem W2_of_ne (c : Dev nD) (r : Ref sig .tc) (h : r ≠ main_v1) : W2 m c (Proc.devRef .tc r) = W1 m c (Proc.devRef .tc r) :=
  leftBy_of_ne (dat1 (atTc (W1 m)) q1 c) 2 (W1 m c) r h

theorem W6_out (c : Dev nD) : W6 m c (Proc.devRef .tc main_v9) = (dat2 (atTc (W5 m)) q2 c).arrAt 4 cfg2.N :=
  leftBy_out (dat2 (atTc (W5 m)) q2 c) 4 (W5 m c)
theorem W6_of_ne (c : Dev nD) (r : Ref sig .tc) (h : r ≠ main_v9) : W6 m c (Proc.devRef .tc r) = W5 m c (Proc.devRef .tc r) :=
  leftBy_of_ne (dat2 (atTc (W5 m)) q2 c) 4 (W5 m c) r h

theorem W10_out (c : Dev nD) : W10 m c (Proc.devRef .tc main_v17) = (dat3 (atTc (W9 m)) q3 c).arrAt 4 cfg3.N :=
  leftBy_out (dat3 (atTc (W9 m)) q3 c) 4 (W9 m c)
theorem W10_of_ne (c : Dev nD) (r : Ref sig .tc) (h : r ≠ main_v17) : W10 m c (Proc.devRef .tc r) = W9 m c (Proc.devRef .tc r) :=
  leftBy_of_ne (dat3 (atTc (W9 m)) q3 c) 4 (W9 m c) r h

theorem W14_out (c : Dev nD) : W14 m c (Proc.devRef .tc main_v25) = (dat4 (atTc (W13 m)) q4 c).arrAt 4 cfg4.N :=
  leftBy_out (dat4 (atTc (W13 m)) q4 c) 4 (W13 m c)
theorem W14_of_ne (c : Dev nD) (r : Ref sig .tc) (h : r ≠ main_v25) : W14 m c (Proc.devRef .tc r) = W13 m c (Proc.devRef .tc r) :=
  leftBy_of_ne (dat4 (atTc (W13 m)) q4 c) 4 (W13 m c) r h

theorem W16_out (c : Dev nD) : W16 m c (Proc.devRef .tc main_v35) = (dat5 (atTc (W15 m)) q5 c).arrAt 9 cfg5.N :=
  leftBy_out (dat5 (atTc (W15 m)) q5 c) 9 (W15 m c)
theorem W16_of_ne (c : Dev nD) (r : Ref sig .tc) (h : r ≠ main_v35) : W16 m c (Proc.devRef .tc r) = W15 m c (Proc.devRef .tc r) :=
  leftBy_of_ne (dat5 (atTc (W15 m)) q5 c) 9 (W15 m c) r h

/-! ### A host boundary is `StableHlo.after` of its stretch, by definition -/
theorem W3_eq (c : Dev nD) : W3 m c = StableHlo.after hostOps2 (W2 m c) := rfl
theorem W4_eq (c : Dev nD) : W4 m c = StableHlo.after hostOps2_1 (W3 m c) := rfl
theorem W5_eq (c : Dev nD) : W5 m c = StableHlo.after hostOps2_2 (W4 m c) := rfl
theorem W7_eq (c : Dev nD) : W7 m c = StableHlo.after hostOps3 (W6 m c) := rfl
theorem W8_eq (c : Dev nD) : W8 m c = StableHlo.after hostOps3_1 (W7 m c) := rfl
theorem W9_eq (c : Dev nD) : W9 m c = StableHlo.after hostOps3_2 (W8 m c) := rfl
theorem W11_eq (c : Dev nD) : W11 m c = StableHlo.after hostOps4 (W10 m c) := rfl
theorem W12_eq (c : Dev nD) : W12 m c = StableHlo.after hostOps4_1 (W11 m c) := rfl
theorem W13_eq (c : Dev nD) : W13 m c = StableHlo.after hostOps4_2 (W12 m c) := rfl
theorem W15_eq (c : Dev nD) : W15 m c = StableHlo.after hostOps5 (W14 m c) := rfl

/-! ### A host stretch leaves what it does not write -/

theorem W3_of (c : Dev nD) (r : Ref sig .tc) (h : r ∉ hostOps2_W) : W3 m c (Proc.devRef .tc r) = W2 m c (Proc.devRef .tc r) :=
  StableHlo.after_of_writes_sub hostOps2 _ hostOps2_writes h

theorem W4_of (c : Dev nD) (r : Ref sig .tc) (h : r ∉ hostOps2_1_W) : W4 m c (Proc.devRef .tc r) = W3 m c (Proc.devRef .tc r) :=
  StableHlo.after_of_writes_sub hostOps2_1 _ hostOps2_1_writes h

theorem W5_of (c : Dev nD) (r : Ref sig .tc) (h : r ∉ hostOps2_2_W) : W5 m c (Proc.devRef .tc r) = W4 m c (Proc.devRef .tc r) :=
  StableHlo.after_of_writes_sub hostOps2_2 _ hostOps2_2_writes h

theorem W7_of (c : Dev nD) (r : Ref sig .tc) (h : r ∉ hostOps3_W) : W7 m c (Proc.devRef .tc r) = W6 m c (Proc.devRef .tc r) :=
  StableHlo.after_of_writes_sub hostOps3 _ hostOps3_writes h

theorem W8_of (c : Dev nD) (r : Ref sig .tc) (h : r ∉ hostOps3_1_W) : W8 m c (Proc.devRef .tc r) = W7 m c (Proc.devRef .tc r) :=
  StableHlo.after_of_writes_sub hostOps3_1 _ hostOps3_1_writes h

theorem W9_of (c : Dev nD) (r : Ref sig .tc) (h : r ∉ hostOps3_2_W) : W9 m c (Proc.devRef .tc r) = W8 m c (Proc.devRef .tc r) :=
  StableHlo.after_of_writes_sub hostOps3_2 _ hostOps3_2_writes h

theorem W11_of (c : Dev nD) (r : Ref sig .tc) (h : r ∉ hostOps4_W) : W11 m c (Proc.devRef .tc r) = W10 m c (Proc.devRef .tc r) :=
  StableHlo.after_of_writes_sub hostOps4 _ hostOps4_writes h

theorem W12_of (c : Dev nD) (r : Ref sig .tc) (h : r ∉ hostOps4_1_W) : W12 m c (Proc.devRef .tc r) = W11 m c (Proc.devRef .tc r) :=
  StableHlo.after_of_writes_sub hostOps4_1 _ hostOps4_1_writes h

theorem W13_of (c : Dev nD) (r : Ref sig .tc) (h : r ∉ hostOps4_2_W) : W13 m c (Proc.devRef .tc r) = W12 m c (Proc.devRef .tc r) :=
  StableHlo.after_of_writes_sub hostOps4_2 _ hostOps4_2_writes h

theorem W15_of (c : Dev nD) (r : Ref sig .tc) (h : r ∉ hostOps5_W) : W15 m c (Proc.devRef .tc r) = W14 m c (Proc.devRef .tc r) :=
  StableHlo.after_of_writes_sub hostOps5 _ hostOps5_writes h

/-- A reference no segment writes — no region's output, no stretch's result — holds at the end what it held at launch. -/
theorem W16_of (c : Dev nD) (r : Ref sig .tc)
    (h : r ∉ ([main_v0, main_v1, main_v9, main_v17, main_v25, main_v35] : List (Ref sig .tc)) ∧ r ∉ hostOps2_W ∧ r ∉ hostOps2_1_W ∧ r ∉ hostOps2_2_W
      ∧ r ∉ hostOps3_W ∧ r ∉ hostOps3_1_W ∧ r ∉ hostOps3_2_W ∧ r ∉ hostOps4_W ∧ r ∉ hostOps4_1_W ∧ r ∉ hostOps4_2_W ∧ r ∉ hostOps5_W) :
    W16 m c (Proc.devRef .tc r) = m ((c : Thread nD τ).loc r) := by
  obtain ⟨ho, h2, h21, h22, h3, h31, h32, h4, h41, h42, h5⟩ := h
  simp only [List.mem_cons, List.not_mem_nil, or_false, not_or] at ho
  obtain ⟨o0, o1, o9, o17, o25, o35⟩ := ho
  rw [W16_of_ne m c r o35, W15_of m c r h5, W14_of_ne m c r o25, W13_of m c r h42, W12_of m c r h41, W11_of m c r h4,
    W10_of_ne m c r o17, W9_of m c r h32, W8_of m c r h31, W7_of m c r h3, W6_of_ne m c r o9, W5_of m c r h22,
    W4_of m c r h21, W3_of m c r h2, W2_of_ne m c r o1, W1_of_ne m c r o0]
  rfl
theorem W16_main_arg0 (c : Dev nD) : W16 m c (Proc.devRef .tc main_arg0) = m ((c : Thread nD τ).loc main_arg0) := W16_of m c main_arg0 (by decide)
theorem W16_main_arg1 (c : Dev nD) : W16 m c (Proc.devRef .tc main_arg1) = m ((c : Thread nD τ).loc main_arg1) := W16_of m c main_arg1 (by decide)
theorem W16_main_arg2 (c : Dev nD) : W16 m c (Proc.devRef .tc main_arg2) = m ((c : Thread nD τ).loc main_arg2) := W16_of m c main_arg2 (by decide)
theorem W16_main_arg3 (c : Dev nD) : W16 m c (Proc.devRef .tc main_arg3) = m ((c : Thread nD τ).loc main_arg3) := W16_of m c main_arg3 (by decide)
theorem W16_main_arg4 (c : Dev nD) : W16 m c (Proc.devRef .tc main_arg4) = m ((c : Thread nD τ).loc main_arg4) := W16_of m c main_arg4 (by decide)
theorem W16_main_arg5 (c : Dev nD) : W16 m c (Proc.devRef .tc main_arg5) = m ((c : Thread nD τ).loc main_arg5) := W16_of m c main_arg5 (by decide)
theorem W16_main_arg6 (c : Dev nD) : W16 m c (Proc.devRef .tc main_arg6) = m ((c : Thread nD τ).loc main_arg6) := W16_of m c main_arg6 (by decide)
theorem W16_main_arg7 (c : Dev nD) : W16 m c (Proc.devRef .tc main_arg7) = m ((c : Thread nD τ).loc main_arg7) := W16_of m c main_arg7 (by decide)
theorem W16_main_arg8 (c : Dev nD) : W16 m c (Proc.devRef .tc main_arg8) = m ((c : Thread nD τ).loc main_arg8) := W16_of m c main_arg8 (by decide)
theorem W16_main_arg9 (c : Dev nD) : W16 m c (Proc.devRef .tc main_arg9) = m ((c : Thread nD τ).loc main_arg9) := W16_of m c main_arg9 (by decide)

/-! ## The proof data, the regions, and @main as sixteen segments -/

/-- Every pipeline's proof data, at the contents its region is entered with. -/
def pdats : (p : Fin 6) → (c : Dev nD) → Dat τ (Elt F) Unit ℕ (UR sig nD τ) ℕ (cfgs p) c
  | ⟨0, _⟩ => fun c => dat0 (atTc (W0 m)) q0 c
  | ⟨1, _⟩ => fun c => dat1 (atTc (W1 m)) q1 c
  | ⟨2, _⟩ => fun c => dat2 (atTc (W5 m)) q2 c
  | ⟨3, _⟩ => fun c => dat3 (atTc (W9 m)) q3 c
  | ⟨4, _⟩ => fun c => dat4 (atTc (W13 m)) q4 c
  | ⟨5, _⟩ => fun c => dat5 (atTc (W15 m)) q5 c

set_option backward.isDefEq.respectTransparency.types false in
/-- REGION 0, the node projection, from the launch contents to `W1`. -/
def region0 : Pipeline.RegionSeg (pcfgs (F := F)) adm (pdats m) () defs₀ Variants.none noPairs noLevel 0 :=
  regionOf (pdats m) 0 launch0.win.to₀ launch0.block_pos launch0.stage_whole (W0 m) (W1 m)
    (fun c => body_obligation0 (atTc (W0 m)) q0 c) (fun _ _ => rfl) (fun _ _ => rfl) (fun _ _ => rfl)
    (fun c => Pipeline.arrays_of_unscopedBufs (p := 0) (pcfgs (F := F)) adm (pdats m) launch0.win launch0.arr_whole c
      ((pdats m 0 c).share_full fun _ => rfl) (atTc (W0 m) c) (A_eq0 (atTc (W0 m)) q0 c))
    (fun c => Pipeline.unscopedBufs_of_arrays (p := 0) (pcfgs (F := F)) adm launch0.win launch0.arr_whole c (pdats m)
      ((pdats m 0 c).share_full fun _ => rfl) (atTc (W0 m) c) (atTc (W1 m) c) ((pdats m 0 c).arrAt · cfg0.N)
      (leftBy_arr (pdats m 0 c) 2 (W0 m c) (A_eq0 (atTc (W0 m)) q0 c) (by decide) (by decide))
      (fun b hb => leftBy_rest (pdats m 0 c) 2 (W0 m c) b hb))

set_option backward.isDefEq.respectTransparency.types false in
/-- REGION 1, the edge projection, from `W1` to `W2`. -/
def region1 : Pipeline.RegionSeg (pcfgs (F := F)) adm (pdats m) () defs₀ Variants.none noPairs noLevel 1 :=
  regionOf (pdats m) 1 launch1.win.to₀ launch1.block_pos launch1.stage_whole (W1 m) (W2 m)
    (fun c => body_obligation1 (atTc (W1 m)) q1 c) (fun _ _ => rfl) (fun _ _ => rfl) (fun _ _ => rfl)
    (fun c => Pipeline.arrays_of_unscopedBufs (p := 1) (pcfgs (F := F)) adm (pdats m) launch1.win launch1.arr_whole c
      ((pdats m 1 c).share_full fun _ => rfl) (atTc (W1 m) c) (A_eq1 (atTc (W1 m)) q1 c))
    (fun c => Pipeline.unscopedBufs_of_arrays (p := 1) (pcfgs (F := F)) adm launch1.win launch1.arr_whole c (pdats m)
      ((pdats m 1 c).share_full fun _ => rfl) (atTc (W1 m) c) (atTc (W2 m) c) ((pdats m 1 c).arrAt · cfg1.N)
      (leftBy_arr (pdats m 1 c) 2 (W1 m c) (A_eq1 (atTc (W1 m)) q1 c) (by decide) (by decide))
      (fun b hb => leftBy_rest (pdats m 1 c) 2 (W1 m c) b hb))

set_option backward.isDefEq.respectTransparency.types false in
/-- REGION 2, the first edge update, from `W5` to `W6`: its windows 1 and 3 read one array, so its arrays leave and
    rejoin the unscoped buffers by `enter2` / `leave2`. -/
def region2 : Pipeline.RegionSeg (pcfgs (F := F)) adm (pdats m) () defs₀ Variants.none noPairs noLevel 2 :=
  regionOf (pdats m) 2 winFacts₀2 block_pos2 stage_whole2 (W5 m) (W6 m)
    (fun c => body_obligation2 (atTc (W5 m)) q2 c) (fun _ _ => rfl) (fun _ _ => rfl) (fun _ _ => rfl)
    (fun c => enter2 (pdats m 2 c) rfl (atTc (W5 m) c) (A_eq2 (atTc (W5 m)) q2 c))
    (fun c => leave2 (pdats m 2 c) rfl (atTc (W5 m) c) (atTc (W6 m) c)
      (leftBy_arr (pdats m 2 c) 4 (W5 m c) (A_eq2 (atTc (W5 m)) q2 c) (by decide) (by decide))
      (fun b hb => leftBy_rest (pdats m 2 c) 4 (W5 m c) b hb))

set_option backward.isDefEq.respectTransparency.types false in
/-- REGION 3, the second edge update, from `W9` to `W10`. -/
def region3 : Pipeline.RegionSeg (pcfgs (F := F)) adm (pdats m) () defs₀ Variants.none noPairs noLevel 3 :=
  regionOf (pdats m) 3 launch3.win.to₀ launch3.block_pos launch3.stage_whole (W9 m) (W10 m)
    (fun c => body_obligation3 (atTc (W9 m)) q3 c) (fun _ _ => rfl) (fun _ _ => rfl) (fun _ _ => rfl)
    (fun c => Pipeline.arrays_of_unscopedBufs (p := 3) (pcfgs (F := F)) adm (pdats m) launch3.win launch3.arr_whole c
      ((pdats m 3 c).share_full fun _ => rfl) (atTc (W9 m) c) (A_eq3 (atTc (W9 m)) q3 c))
    (fun c => Pipeline.unscopedBufs_of_arrays (p := 3) (pcfgs (F := F)) adm launch3.win launch3.arr_whole c (pdats m)
      ((pdats m 3 c).share_full fun _ => rfl) (atTc (W9 m) c) (atTc (W10 m) c) ((pdats m 3 c).arrAt · cfg3.N)
      (leftBy_arr (pdats m 3 c) 4 (W9 m c) (A_eq3 (atTc (W9 m)) q3 c) (by decide) (by decide))
      (fun b hb => leftBy_rest (pdats m 3 c) 4 (W9 m c) b hb))

set_option backward.isDefEq.respectTransparency.types false in
/-- REGION 4, the third edge update, from `W13` to `W14`. -/
def region4 : Pipeline.RegionSeg (pcfgs (F := F)) adm (pdats m) () defs₀ Variants.none noPairs noLevel 4 :=
  regionOf (pdats m) 4 launch4.win.to₀ launch4.block_pos launch4.stage_whole (W13 m) (W14 m)
    (fun c => body_obligation4 (atTc (W13 m)) q4 c) (fun _ _ => rfl) (fun _ _ => rfl) (fun _ _ => rfl)
    (fun c => Pipeline.arrays_of_unscopedBufs (p := 4) (pcfgs (F := F)) adm (pdats m) launch4.win launch4.arr_whole c
      ((pdats m 4 c).share_full fun _ => rfl) (atTc (W13 m) c) (A_eq4 (atTc (W13 m)) q4 c))
    (fun c => Pipeline.unscopedBufs_of_arrays (p := 4) (pcfgs (F := F)) adm launch4.win launch4.arr_whole c (pdats m)
      ((pdats m 4 c).share_full fun _ => rfl) (atTc (W13 m) c) (atTc (W14 m) c) ((pdats m 4 c).arrAt · cfg4.N)
      (leftBy_arr (pdats m 4 c) 4 (W13 m c) (A_eq4 (atTc (W13 m)) q4 c) (by decide) (by decide))
      (fun b hb => leftBy_rest (pdats m 4 c) 4 (W13 m c) b hb))

set_option backward.isDefEq.respectTransparency.types false in
/-- REGION 5, the output head, from `W15` to the last contents `W16`. -/
def region5 : Pipeline.RegionSeg (pcfgs (F := F)) adm (pdats m) () defs₀ Variants.none noPairs noLevel 5 :=
  regionOf (pdats m) 5 launch5.win.to₀ launch5.block_pos launch5.stage_whole (W15 m) (W16 m)
    (fun c => body_obligation5 (atTc (W15 m)) q5 c) (fun _ _ => rfl) (fun _ _ => rfl) (fun _ _ => rfl)
    (fun c => Pipeline.arrays_of_unscopedBufs (p := 5) (pcfgs (F := F)) adm (pdats m) launch5.win launch5.arr_whole c
      ((pdats m 5 c).share_full fun _ => rfl) (atTc (W15 m) c) (A_eq5 (atTc (W15 m)) q5 c))
    (fun c => Pipeline.unscopedBufs_of_arrays (p := 5) (pcfgs (F := F)) adm launch5.win launch5.arr_whole c (pdats m)
      ((pdats m 5 c).share_full fun _ => rfl) (atTc (W15 m) c) (atTc (W16 m) c) ((pdats m 5 c).arrAt · cfg5.N)
      (leftBy_arr (pdats m 5 c) 9 (W15 m c) (A_eq5 (atTc (W15 m)) q5 c) (by decide) (by decide))
      (fun b hb => leftBy_rest (pdats m 5 c) 9 (W15 m c) b hb))

/-- @main's sixteen segments in order: the two projections, then three rounds of {aggregate and add on the host,
    gather on the host, slice the round's weight, edge update}, the last aggregation and the weights' slices, the head. -/
abbrev segments : List (Pipeline.Seg (pcfgs (F := F)) adm (pdats m) () defs₀ Variants.none noPairs noLevel) :=
  [ .region (region0 m),
    .region (region1 m),
    .host (stretch hostOps2 hostOps2_sub hostOps2_fresh (W2 m)),
    .host (stretch hostOps2_1 hostOps2_1_sub hostOps2_1_fresh (W3 m)),
    .host (stretch hostOps2_2 hostOps2_2_sub hostOps2_2_fresh (W4 m)),
    .region (region2 m),
    .host (stretch hostOps3 hostOps3_sub hostOps3_fresh (W6 m)),
    .host (stretch hostOps3_1 hostOps3_1_sub hostOps3_1_fresh (W7 m)),
    .host (stretch hostOps3_2 hostOps3_2_sub hostOps3_2_fresh (W8 m)),
    .region (region3 m),
    .host (stretch hostOps4 hostOps4_sub hostOps4_fresh (W10 m)),
    .host (stretch hostOps4_1 hostOps4_1_sub hostOps4_1_fresh (W11 m)),
    .host (stretch hostOps4_2 hostOps4_2_sub hostOps4_2_fresh (W12 m)),
    .region (region4 m),
    .host (stretch hostOps5 hostOps5_sub hostOps5_fresh (W14 m)),
    .region (region5 m) ]

/-- @main is the run of its segments: both are the chain of the same sixteen programs. -/
theorem main_eq_run (c : Dev nD) : main (F := F) c = Pipeline.Seg.run (segments m) :=
  (main_chain c).trans (Pipeline.Seg.run_eq_chain (segments m)).symm

variable (ρ : Dev nD → PrngReg)

/-- The last thread state, regrouped: the buffers and the generator register on one side, nothing owed on the other. -/
theorem lastState (c : Dev nD) : (stateAt (W16 m) c : sProp 𝕄)
    ⊢ iprop((StableHlo.held (c : Thread nD τ) (Pipeline.ucRefs τ sig) (W16 m c) ∗ ∃ r, prngReg c r)
        ∗ ∃ S, owes (c : Thread nD τ) (0 : CellTallies nD τ sig Unit) S) := by
  iintro ⟨Hbuf, Hreg, Howes⟩
  isplitl [Hbuf Hreg]
  · isplitl [Hbuf]; · iexact Hbuf
    iexact Hreg
  iexact Howes

set_option backward.isDefEq.respectTransparency.types false in
/-- THE RUN. From any memory `m` with zero counters, every weakly fair execution of @main terminates, and in every
    final memory each core's unscoped buffers hold the last boundary's contents `W16`. -/
theorem run_all :
    θ_run defs (onTc (τ := τ) (main (F := F))) ⟨m, fun _ => 0, ρ⟩
      (fun r => ∀ c : Dev nD, ∀ b ∈ Pipeline.ucRefs τ sig, r.2.mem (((c : Thread nD τ)).1, b) = W16 m c b) :=
  Pipeline.θ_run_regions_kit_dev (pcfgs (F := F)) adm (pdats m) () cellOf_inj emb₁ defs₀ Variants.none noPairs noLevel m ρ main
    (fun _ => segments m)
    (fun c Q => by rw [main_eq_run m c])
    (fun _ => by simp only [Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hnone : (BI.emp : sProp 𝕄) ⊢ bigSep Finset.univ (fun _ : Dev nD => (BI.emp : sProp 𝕄)) := by
        rw [BI.bigSep_emp_const]
      iintro Hu
      imodintro
      isplitl [Hu]
      · iapply hown; iexact Hu
      · iapply hnone; iempintro)
    (T₀ := stateAt (W0 m))
    (Tₙ := fun c => iprop(StableHlo.held (c : Thread nD τ) (Pipeline.ucRefs τ sig) (W16 m c) ∗ ∃ r, prngReg c r))
    (hch := fun c => ⟨.rfl, .rfl, .rfl, .rfl, .rfl, .rfl, .rfl, .rfl, .rfl, .rfl, .rfl, .rfl, .rfl, .rfl, .rfl, .rfl, lastState m c⟩)
    (hinit := Pipeline.initEach noPairs noLevel fun c => by
      have e : (unscopedBufs c (fun b => m ((c : Thread nD τ).loc b)) : sProp 𝕄)
          = StableHlo.held (c : Thread nD τ) (Pipeline.ucRefs τ sig) (W0 m c) := Pipeline.unscopedBufs_held c (W0 m c)
      rw [e]
      iintro ⟨⟨Hbuf, -, Howes, -, Hreg, -⟩, -⟩
      imodintro
      isplitl [Hbuf]; · iexact Hbuf
      isplitl [Hreg]; · iexists _; iexact Hreg
      iexists ∅; iexact Howes)
    (QY := fun c s => ∀ b ∈ Pipeline.ucRefs τ sig, s.mem (((c : Thread nD τ)).1, b) = W16 m c b)
    (hfin := fun c s' => by
      unfold StableHlo.held
      iintro ⟨⟨Hbuf, -⟩, HSI⟩
      imodintro
      iapply (pointsTo_read_all (Pipeline.ucRefs τ sig) (fun b => (((c : Thread nD τ)).1, b)) (W16 m c) s')
      isplitl [Hbuf]; · iexact Hbuf
      iexact HSI)
    (hQ := fun _ h => h)

/-- An unscoped TensorCore reference is among those the run reads back. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono
    (Q := fun r => ∀ c : Dev nD, ∀ b ∈ Pipeline.ucRefs τ sig, r.2.mem (((c : Thread nD τ)).1, b) = W16 m c b)
    (fun r h c => ⟨(h c _ (mem_ucRefs main_arg0 (by decide))).trans (W16_main_arg0 m c),
      (h c _ (mem_ucRefs main_arg1 (by decide))).trans (W16_main_arg1 m c),
      (h c _ (mem_ucRefs main_arg2 (by decide))).trans (W16_main_arg2 m c),
      (h c _ (mem_ucRefs main_arg3 (by decide))).trans (W16_main_arg3 m c),
      (h c _ (mem_ucRefs main_arg4 (by decide))).trans (W16_main_arg4 m c),
      (h c _ (mem_ucRefs main_arg5 (by decide))).trans (W16_main_arg5 m c),
      (h c _ (mem_ucRefs main_arg6 (by decide))).trans (W16_main_arg6 m c),
      (h c _ (mem_ucRefs main_arg7 (by decide))).trans (W16_main_arg7 m c),
      (h c _ (mem_ucRefs main_arg8 (by decide))).trans (W16_main_arg8 m c),
      (h c _ (mem_ucRefs main_arg9 (by decide))).trans (W16_main_arg9 m c)⟩)
    (run_all m ρ)

end Run

end Cert.KernelIdeal.Hand

end
-- ==== Proof.VProj.lean ====
/-
  The two input projections, read as whole arrays. Calls 0 and 1 each compute `relu(x · w)` one block of 2000 rows at
  a time against a resident weight (133×256 over the 100000 node rows in 50 blocks; 147×256 over the 400000 edge rows
  in 200 blocks). At the ideal values a float is an extended real, the roundings to bf16 inside the body are the
  identity, the product into a zero accumulator is the plain sum over the contraction axis, and the reference's
  `dot_general` followed by a maximum with a zero splat is the same sum under the same maximum. So, whatever the
  buffers hold when a call is entered, the block a grid point writes back is that point's block of the reference's own
  stage applied to the two input arrays, and since the blocks tile the output array (row `r` lies in block `r / 2000`)
  the array ends holding that stage.
-/
import proofs.«429236_j40699110097566_3_alg».proof.Proof.IR0
import proofs.«429236_j40699110097566_3_alg».proof.Proof.IR1
import proofs.«429236_j40699110097566_3_alg».proof.Proof.RefRead
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Hand
open Idealize.ShloMosaic Idealize.ShloMosaic.TcCoe Idealize.SL Idealize.SL.RA Idealize.SL.Sem
open Idealize.ShloMosaic.Pipeline (Dat)

variable (V : (c : Dev nD) → (b : Ref sig .tc) → Buf (Elt Ideal) ((c : Thread nD τ).loc b))

namespace Proj

/-- The zero offsets of a whole-buffer access, however they are spelt. -/
theorem zero2 : (![0, 0] : Fin 2 → Nat) = fun _ => 0 := funext fun a => by fin_cases a <;> rfl

/-! # Call 0: `relu(x_node · w)` over 100000 rows

The body's one store is `max(x_blk · w, 0)` of the loaded row block (2000 rows, 133 columns) and the resident
133×256 weight. Read at an element it is the larger of zero and a sum over the 133 contraction positions; the row
block at point `t` is rows `2000 t …` of the node features, so the block that point `t` writes back is block `t` of the
reference's own stage (a `dot_general` followed by a maximum with a zero splat), and the 50 blocks tile the array. -/

/-! ## The body's arithmetic at an element -/

theorem lhs0_ax0 (i : S2000x256.Idx) (q : dot_S2000x133_S133x256_S2000x256_1_0_0_1_n_n.contr.Idx) :
    (dot_S2000x133_S133x256_S2000x256_1_0_0_1_n_n.lhsIdx i q 0).val = (i 0).val := by
  unfold DotDims.lhsIdx
  rw [dif_neg (show ¬(0 : Fin S2000x133.rank) ∈ dot_S2000x133_S133x256_S2000x256_1_0_0_1_n_n.lhsBatch by decide), dif_pos (show (0 : Fin S2000x133.rank) ∈ dot_S2000x133_S133x256_S2000x256_1_0_0_1_n_n.lhsNonContracting by decide)]
  rfl
theorem lhs0_ax1 (i : S2000x256.Idx) (q : dot_S2000x133_S133x256_S2000x256_1_0_0_1_n_n.contr.Idx) :
    (dot_S2000x133_S133x256_S2000x256_1_0_0_1_n_n.lhsIdx i q 1).val = (q ⟨0, by decide⟩).val :=
  dot_S2000x133_S133x256_S2000x256_1_0_0_1_n_n.lhsIdx_val_of_single rfl i q
theorem rhs0_ax0 (i : S2000x256.Idx) (q : dot_S2000x133_S133x256_S2000x256_1_0_0_1_n_n.contr.Idx) :
    (dot_S2000x133_S133x256_S2000x256_1_0_0_1_n_n.rhsIdx i q 0).val = (q ⟨0, by decide⟩).val :=
  dot_S2000x133_S133x256_S2000x256_1_0_0_1_n_n.rhsIdx_val_of_single rfl i q
theorem rhs0_ax1 (i : S2000x256.Idx) (q : dot_S2000x133_S133x256_S2000x256_1_0_0_1_n_n.contr.Idx) :
    (dot_S2000x133_S133x256_S2000x256_1_0_0_1_n_n.rhsIdx i q 1).val = (i 1).val := by
  unfold DotDims.rhsIdx
  rw [dif_neg (show ¬(1 : Fin S133x256.rank) ∈ dot_S2000x133_S133x256_S2000x256_1_0_0_1_n_n.rhsBatch by decide), dif_pos (show (1 : Fin S133x256.rank) ∈ dot_S2000x133_S133x256_S2000x256_1_0_0_1_n_n.rhsNonContracting by decide)]
  rfl

/-- Row `i 0` of a row block, at column `k`. -/
abbrev brow0 (i : S2000x256.Idx) (k : Fin 133) : S2000x133.Idx := fun a => match a with
  | ⟨0, _⟩ => ⟨(i 0).val, (i 0).isLt⟩
  | ⟨1, _⟩ => ⟨k.val, k.isLt⟩
/-- Column `i 1` of the weight, at row `k`. -/
abbrev wcol0 (i : S2000x256.Idx) (k : Fin 133) : S133x256.Idx := fun a => match a with
  | ⟨0, _⟩ => ⟨k.val, k.isLt⟩
  | ⟨1, _⟩ => ⟨(i 1).val, (i 1).isLt⟩

/-- The body's stored value at element `i` of the block: the larger of zero and the product of row `i 0` of the
    loaded row block with column `i 1` of the loaded weight (the roundings to bf16 are the identity on ideal values,
    and the product accumulates into a zero splat). -/
theorem pay0_apply (x0 : Vec Ideal S2000x133 .f32) (x1 : Vec Ideal S133x256 .f32) (i : S2000x256.Idx) :
    k0_pay1 (F := Ideal) x0 x1 i
      = FloatOps.maximumf (F := Ideal) (∑ k : Fin 133, x0 (brow0 i k) * x1 (wcol0 i k)) (FloatOps.ofBits .f32 0x00000000#32) := by
  unfold k0_pay1
  show FloatOps.maximumf (F := Ideal) (FloatOps.matmul dot_S2000x133_S133x256_S2000x256_1_0_0_1_n_n none (truncf .bf16 x0 bitsLt_bf16_f32) (truncf .bf16 x1 bitsLt_bf16_f32) (constant S2000x256 .f32 0x00000000#32) i) _ = _
  refine congrArg (fun z => FloatOps.maximumf (F := Ideal) z (FloatOps.ofBits .f32 0x00000000#32)) ?_
  rw [Ideal.matmul_constant_zero_apply, ← Equiv.sum_comp (ValueIdx.contrEquiv1 dot_S2000x133_S133x256_S2000x256_1_0_0_1_n_n 133 rfl rfl).symm]
  refine Finset.sum_congr rfl fun k _ => ?_
  have hk := ValueIdx.contrEquiv1_symm_val dot_S2000x133_S133x256_S2000x256_1_0_0_1_n_n 133 rfl rfl k
  have el : dot_S2000x133_S133x256_S2000x256_1_0_0_1_n_n.lhsIdx i ((ValueIdx.contrEquiv1 dot_S2000x133_S133x256_S2000x256_1_0_0_1_n_n 133 rfl rfl).symm k) = brow0 i k := funext fun a => Fin.ext (by
    match a with
    | ⟨0, _⟩ => exact lhs0_ax0 _ _
    | ⟨1, _⟩ => exact (lhs0_ax1 _ _).trans hk)
  have er : dot_S2000x133_S133x256_S2000x256_1_0_0_1_n_n.rhsIdx i ((ValueIdx.contrEquiv1 dot_S2000x133_S133x256_S2000x256_1_0_0_1_n_n 133 rfl rfl).symm k) = wcol0 i k := funext fun a => Fin.ext (by
    match a with
    | ⟨0, _⟩ => exact (rhs0_ax0 _ _).trans hk
    | ⟨1, _⟩ => exact rhs0_ax1 _ _)
  rw [el, er]
  rfl

/-! ## The reference's stage at an element -/

/-- The reference's `relu` of its `dot_general`, at element `i`: the same maximum of the same kind of sum, over
    the whole arrays. -/
theorem ref0_apply (x : S100000x133.Idx → EReal) (w : S133x256.Idx → EReal) (i : S100000x256.Idx) :
    Cert.ReferenceIdeal.ReadP.val_main_v1 (F := Ideal) x w i
      = FloatOps.maximumf (F := Ideal) (∑ k : Fin 133, x (Cert.ReferenceIdeal.ReadP.lidx_main_v0 i k) * w (Cert.ReferenceIdeal.ReadP.ridx_main_v0 i k)) (FloatOps.ofBits .f32 0x00000000#32) := by
  rw [Cert.ReferenceIdeal.ReadP.val_main_v1_apply, Cert.ReferenceIdeal.ReadP.val_main_v0_apply, Cert.ReferenceIdeal.ReadP.val_main_call0_v0_apply, Cert.ReferenceIdeal.ReadP.val_main_call0_cst_apply]

/-! ## The blocks the body loads, as parts of the arrays -/

/-- The printed index maps over the grid: the row block's and the output's block index is the point's number on the
    row axis and zero on the other; the weight's is zero on both. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` is rows `2000 t … 2000 t + 1999` of the node features. -/
theorem xblk0_apply (c : Dev nD) (t : Fin cfg0.N) (x : S2000x133.Idx) (k : S100000x133.Idx)
    (hk0 : (k 0).val = t.val * 2000 + (x 0).val) (hk1 : (k 1).val = (x 1).val) :
    (iblk0 V c 0 t : Vec Ideal S2000x133 .f32) x = (V c main_arg0 : S100000x133.Idx → Elt Ideal .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 133 + 1 * (x 1).val = (k 1).val; rw [e1, hk1]; omega

/-- The weight's block at every point is the whole weight. -/
theorem wblk0_apply (c : Dev nD) (t : Fin cfg0.N) (x : S133x256.Idx) :
    (iblk0 V c 1 t : Vec Ideal S133x256 .f32) x = (V c main_arg2 : S133x256.Idx → Elt Ideal .f32) x := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t (0 : Fin 2) * 133 + 1 * (x 0).val = (x 0).val; rw [e0]; omega
  | ⟨1, _⟩ => show win0_1.index t (1 : Fin 2) * 256 + 1 * (x 1).val = (x 1).val; rw [e1]; omega

/-! ## One point's write-back is its block of the reference's stage -/

/-- Element `y` of what the body stores at point `t` is the reference's stage at row `2000 t + y 0`, column `y 1`. -/
theorem point0 (c : Dev nD) (t : Fin cfg0.N) (y : S2000x256.Idx) (i : S100000x256.Idx)
    (hi0 : (i 0).val = t.val * 2000 + (y 0).val) (hi1 : (i 1).val = (y 1).val) :
    k0_pay1 (F := Ideal) (iblk0 V c 0 t) (iblk0 V c 1 t) y
      = Cert.ReferenceIdeal.ReadP.val_main_v1 (F := Ideal) (V c main_arg0) (V c main_arg2) i := by
  refine (pay0_apply (iblk0 V c 0 t) (iblk0 V c 1 t) y).trans ?_
  refine Eq.trans ?_ (ref0_apply (V c main_arg0) (V c main_arg2) i).symm
  refine congrArg (fun z => FloatOps.maximumf (F := Ideal) z (FloatOps.ofBits .f32 0x00000000#32)) ?_
  refine Finset.sum_congr rfl fun k _ => ?_
  have ex := xblk0_apply V c t (brow0 y k) (Cert.ReferenceIdeal.ReadP.lidx_main_v0 i k) hi0 rfl
  have ew := wblk0_apply V c t (wcol0 y k)
  have ei : wcol0 y k = Cert.ReferenceIdeal.ReadP.ridx_main_v0 i k := funext fun a => Fin.ext (by
    match a with
    | ⟨0, _⟩ => rfl
    | ⟨1, _⟩ => exact hi1.symm)
  rw [ex, ew, ei]

/-- WHAT POINT `t` WRITES BACK is block `t` of the reference's stage of the arrays as the call finds them. -/
theorem flushed0_eq (q : Fin cfg0.W → PosShare TreeShare) (c : Dev nD) (t : Fin cfg0.N) :
    (dat0 (F := Ideal) V q c).flushed 2 t
      = ((cfg0.win 2).blk t).view.read (Elt Ideal) (Cert.ReferenceIdeal.ReadP.val_main_v1 (F := Ideal) (V c main_arg0) (V c main_arg2)) := by
  show (cfg0.win 2).cut (grid0.coords t) ((dat0 (F := Ideal) V q c).after 2 t) = _
  rw [after0_2]
  unfold out0_2
  rw [View.canon_unit_zero zero2]
  simp only [View.ld_unit_zero (S := S2000x133) zero2, View.ld_unit_zero (S := S133x256) zero2]
  obtain ⟨-, -, -, -, e0, e1⟩ := idx0 t
  funext y
  show k0_pay1 (F := Ideal) (iblk0 V c 0 t) (iblk0 V c 1 t) y
    = Cert.ReferenceIdeal.ReadP.val_main_v1 (F := Ideal) (V c main_arg0) (V c main_arg2) (((cfg0.win 2).blk t).view.emb y)
  refine point0 V c t y _ ?_ ?_
  · show win0_2.index t (0 : Fin 2) * 2000 + 1 * (y 0).val = t.val * 2000 + (y 0).val
    rw [e0]; omega
  · show win0_2.index t (1 : Fin 2) * 256 + 1 * (y 1).val = (y 1).val
    rw [e1]; omega

/-! ## The blocks tile the array -/

/-- An element of the array is in point `t`'s block iff each coordinate is in the block's range on its axis. -/
theorem mem_oblk0 (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row `r` lies in the block of point `r / 2000`, and every point writes its block back. -/
theorem cover0 (i : S100000x256.Idx) :
    ∃ t : Fin cfg0.N, (cfg0.win 2).flush t = true ∧ i ∈ ((cfg0.win 2).blk t).view.set := by
  have h0 : (i 0).val < 100000 := (i 0).isLt
  have h1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e0, e1⟩ := idx0 t
  refine ⟨t, flush0_2 t, ?_⟩
  rw [mem_oblk0]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 256 ≤ (i 1).val ∧ (i 1).val < win0_2.index t (1 : Fin 2) * 256 + 256
    rw [e1]; omega

/-! # Call 1: `relu(x_edge · w)` over 400000 rows

The body's one store is `max(x_blk · w, 0)` of the loaded row block (2000 rows, 147 columns) and the resident
147×256 weight. Read at an element it is the larger of zero and a sum over the 147 contraction positions; the row
block at point `t` is rows `2000 t …` of the edge features, so the block that point `t` writes back is block `t` of the
reference's own stage (a `dot_general` followed by a maximum with a zero splat), and the 200 blocks tile the array. -/

/-! ## The body's arithmetic at an element -/

theorem lhs1_ax0 (i : S2000x256.Idx) (q : dot_S2000x147_S147x256_S2000x256_1_0_0_1_n_n.contr.Idx) :
    (dot_S2000x147_S147x256_S2000x256_1_0_0_1_n_n.lhsIdx i q 0).val = (i 0).val := by
  unfold DotDims.lhsIdx
  rw [dif_neg (show ¬(0 : Fin S2000x147.rank) ∈ dot_S2000x147_S147x256_S2000x256_1_0_0_1_n_n.lhsBatch by decide), dif_pos (show (0 : Fin S2000x147.rank) ∈ dot_S2000x147_S147x256_S2000x256_1_0_0_1_n_n.lhsNonContracting by decide)]
  rfl
theorem lhs1_ax1 (i : S2000x256.Idx) (q : dot_S2000x147_S147x256_S2000x256_1_0_0_1_n_n.contr.Idx) :
    (dot_S2000x147_S147x256_S2000x256_1_0_0_1_n_n.lhsIdx i q 1).val = (q ⟨0, by decide⟩).val :=
  dot_S2000x147_S147x256_S2000x256_1_0_0_1_n_n.lhsIdx_val_of_single rfl i q
theorem rhs1_ax0 (i : S2000x256.Idx) (q : dot_S2000x147_S147x256_S2000x256_1_0_0_1_n_n.contr.Idx) :
    (dot_S2000x147_S147x256_S2000x256_1_0_0_1_n_n.rhsIdx i q 0).val = (q ⟨0, by decide⟩).val :=
  dot_S2000x147_S147x256_S2000x256_1_0_0_1_n_n.rhsIdx_val_of_single rfl i q
theorem rhs1_ax1 (i : S2000x256.Idx) (q : dot_S2000x147_S147x256_S2000x256_1_0_0_1_n_n.contr.Idx) :
    (dot_S2000x147_S147x256_S2000x256_1_0_0_1_n_n.rhsIdx i q 1).val = (i 1).val := by
  unfold DotDims.rhsIdx
  rw [dif_neg (show ¬(1 : Fin S147x256.rank) ∈ dot_S2000x147_S147x256_S2000x256_1_0_0_1_n_n.rhsBatch by decide), dif_pos (show (1 : Fin S147x256.rank) ∈ dot_S2000x147_S147x256_S2000x256_1_0_0_1_n_n.rhsNonContracting by decide)]
  rfl

/-- Row `i 0` of a row block, at column `k`. -/
abbrev brow1 (i : S2000x256.Idx) (k : Fin 147) : S2000x147.Idx := fun a => match a with
  | ⟨0, _⟩ => ⟨(i 0).val, (i 0).isLt⟩
  | ⟨1, _⟩ => ⟨k.val, k.isLt⟩
/-- Column `i 1` of the weight, at row `k`. -/
abbrev wcol1 (i : S2000x256.Idx) (k : Fin 147) : S147x256.Idx := fun a => match a with
  | ⟨0, _⟩ => ⟨k.val, k.isLt⟩
  | ⟨1, _⟩ => ⟨(i 1).val, (i 1).isLt⟩

/-- The body's stored value at element `i` of the block: the larger of zero and the product of row `i 0` of the
    loaded row block with column `i 1` of the loaded weight (the roundings to bf16 are the identity on ideal values,
    and the product accumulates into a zero splat). -/
theorem pay1_apply (x0 : Vec Ideal S2000x147 .f32) (x1 : Vec Ideal S147x256 .f32) (i : S2000x256.Idx) :
    k1_pay1 (F := Ideal) x0 x1 i
      = FloatOps.maximumf (F := Ideal) (∑ k : Fin 147, x0 (brow1 i k) * x1 (wcol1 i k)) (FloatOps.ofBits .f32 0x00000000#32) := by
  unfold k1_pay1
  show FloatOps.maximumf (F := Ideal) (FloatOps.matmul dot_S2000x147_S147x256_S2000x256_1_0_0_1_n_n none (truncf .bf16 x0 bitsLt_bf16_f32) (truncf .bf16 x1 bitsLt_bf16_f32) (constant S2000x256 .f32 0x00000000#32) i) _ = _
  refine congrArg (fun z => FloatOps.maximumf (F := Ideal) z (FloatOps.ofBits .f32 0x00000000#32)) ?_
  rw [Ideal.matmul_constant_zero_apply, ← Equiv.sum_comp (ValueIdx.contrEquiv1 dot_S2000x147_S147x256_S2000x256_1_0_0_1_n_n 147 rfl rfl).symm]
  refine Finset.sum_congr rfl fun k _ => ?_
  have hk := ValueIdx.contrEquiv1_symm_val dot_S2000x147_S147x256_S2000x256_1_0_0_1_n_n 147 rfl rfl k
  have el : dot_S2000x147_S147x256_S2000x256_1_0_0_1_n_n.lhsIdx i ((ValueIdx.contrEquiv1 dot_S2000x147_S147x256_S2000x256_1_0_0_1_n_n 147 rfl rfl).symm k) = brow1 i k := funext fun a => Fin.ext (by
    match a with
    | ⟨0, _⟩ => exact lhs1_ax0 _ _
    | ⟨1, _⟩ => exact (lhs1_ax1 _ _).trans hk)
  have er : dot_S2000x147_S147x256_S2000x256_1_0_0_1_n_n.rhsIdx i ((ValueIdx.contrEquiv1 dot_S2000x147_S147x256_S2000x256_1_0_0_1_n_n 147 rfl rfl).symm k) = wcol1 i k := funext fun a => Fin.ext (by
    match a with
    | ⟨0, _⟩ => exact (rhs1_ax0 _ _).trans hk
    | ⟨1, _⟩ => exact rhs1_ax1 _ _)
  rw [el, er]
  rfl

/-! ## The reference's stage at an element -/

/-- The reference's `relu` of its `dot_general`, at element `i`: the same maximum of the same kind of sum, over
    the whole arrays. -/
theorem ref1_apply (x : S400000x147.Idx → EReal) (w : S147x256.Idx → EReal) (i : S400000x256.Idx) :
    Cert.ReferenceIdeal.ReadP.val_main_v3 (F := Ideal) x w i
      = FloatOps.maximumf (F := Ideal) (∑ k : Fin 147, x (Cert.ReferenceIdeal.ReadP.lidx_main_v2 i k) * w (Cert.ReferenceIdeal.ReadP.ridx_main_v2 i k)) (FloatOps.ofBits .f32 0x00000000#32) := by
  rw [Cert.ReferenceIdeal.ReadP.val_main_v3_apply, Cert.ReferenceIdeal.ReadP.val_main_v2_apply, Cert.ReferenceIdeal.ReadP.val_main_call1_v0_apply, Cert.ReferenceIdeal.ReadP.val_main_call1_cst_apply]

/-! ## The blocks the body loads, as parts of the arrays -/

/-- The printed index maps over the grid: the row block's and the output's block index is the point's number on the
    row axis and zero on the other; the weight's is zero on both. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point `t` is rows `2000 t … 2000 t + 1999` of the edge features. -/
theorem xblk1_apply (c : Dev nD) (t : Fin cfg1.N) (x : S2000x147.Idx) (k : S400000x147.Idx)
    (hk0 : (k 0).val = t.val * 2000 + (x 0).val) (hk1 : (k 1).val = (x 1).val) :
    (iblk1 V c 0 t : Vec Ideal S2000x147 .f32) x = (V c main_arg1 : S400000x147.Idx → Elt Ideal .f32) k := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 147 + 1 * (x 1).val = (k 1).val; rw [e1, hk1]; omega

/-- The weight's block at every point is the whole weight. -/
theorem wblk1_apply (c : Dev nD) (t : Fin cfg1.N) (x : S147x256.Idx) :
    (iblk1 V c 1 t : Vec Ideal S147x256 .f32) x = (V c main_arg3 : S147x256.Idx → Elt Ideal .f32) x := by
  obtain ⟨-, -, e0, e1, -⟩ := idx1 t
  unfold iblk1
  rw [View.read_apply]
  show V c main_arg3 _ = V c main_arg3 _
  congr 1
  funext a
  apply Fin.ext
  match a with
  | ⟨0, _⟩ => show win1_1.index t (0 : Fin 2) * 147 + 1 * (x 0).val = (x 0).val; rw [e0]; omega
  | ⟨1, _⟩ => show win1_1.index t (1 : Fin 2) * 256 + 1 * (x 1).val = (x 1).val; rw [e1]; omega

/-! ## One point's write-back is its block of the reference's stage -/

/-- Element `y` of what the body stores at point `t` is the reference's stage at row `2000 t + y 0`, column `y 1`. -/
theorem point1 (c : Dev nD) (t : Fin cfg1.N) (y : S2000x256.Idx) (i : S400000x256.Idx)
    (hi0 : (i 0).val = t.val * 2000 + (y 0).val) (hi1 : (i 1).val = (y 1).val) :
    k1_pay1 (F := Ideal) (iblk1 V c 0 t) (iblk1 V c 1 t) y
      = Cert.ReferenceIdeal.ReadP.val_main_v3 (F := Ideal) (V c main_arg1) (V c main_arg3) i := by
  refine (pay1_apply (iblk1 V c 0 t) (iblk1 V c 1 t) y).trans ?_
  refine Eq.trans ?_ (ref1_apply (V c main_arg1) (V c main_arg3) i).symm
  refine congrArg (fun z => FloatOps.maximumf (F := Ideal) z (FloatOps.ofBits .f32 0x00000000#32)) ?_
  refine Finset.sum_congr rfl fun k _ => ?_
  have ex := xblk1_apply V c t (brow1 y k) (Cert.ReferenceIdeal.ReadP.lidx_main_v2 i k) hi0 rfl
  have ew := wblk1_apply V c t (wcol1 y k)
  have ei : wcol1 y k = Cert.ReferenceIdeal.ReadP.ridx_main_v2 i k := funext fun a => Fin.ext (by
    match a with
    | ⟨0, _⟩ => rfl
    | ⟨1, _⟩ => exact hi1.symm)
  rw [ex, ew, ei]

/-- WHAT POINT `t` WRITES BACK is block `t` of the reference's stage of the arrays as the call finds them. -/
theorem flushed1_eq (q : Fin cfg1.W → PosShare TreeShare) (c : Dev nD) (t : Fin cfg1.N) :
    (dat1 (F := Ideal) V q c).flushed 2 t
      = ((cfg1.win 2).blk t).view.read (Elt Ideal) (Cert.ReferenceIdeal.ReadP.val_main_v3 (F := Ideal) (V c main_arg1) (V c main_arg3)) := by
  show (cfg1.win 2).cut (grid1.coords t) ((dat1 (F := Ideal) V q c).after 2 t) = _
  rw [after1_2]
  unfold out1_2
  rw [View.canon_unit_zero zero2]
  simp only [View.ld_unit_zero (S := S2000x147) zero2, View.ld_unit_zero (S := S147x256) zero2]
  obtain ⟨-, -, -, -, e0, e1⟩ := idx1 t
  funext y
  show k1_pay1 (F := Ideal) (iblk1 V c 0 t) (iblk1 V c 1 t) y
    = Cert.ReferenceIdeal.ReadP.val_main_v3 (F := Ideal) (V c main_arg1) (V c main_arg3) (((cfg1.win 2).blk t).view.emb y)
  refine point1 V c t y _ ?_ ?_
  · show win1_2.index t (0 : Fin 2) * 2000 + 1 * (y 0).val = t.val * 2000 + (y 0).val
    rw [e0]; omega
  · show win1_2.index t (1 : Fin 2) * 256 + 1 * (y 1).val = (y 1).val
    rw [e1]; omega

/-! ## The blocks tile the array -/

/-- An element of the array is in point `t`'s block iff each coordinate is in the block's range on its axis. -/
theorem mem_oblk1 (t : Fin cfg1.N) (i : S400000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v1).slice (win1_2.rect t)).set ↔ _
  rw [View.set_slice_whole, Rect.mem_set_unit]
  exact Iff.rfl

/-- Row `r` lies in the block of point `r / 2000`, and every point writes its block back. -/
theorem cover1 (i : S400000x256.Idx) :
    ∃ t : Fin cfg1.N, (cfg1.win 2).flush t = true ∧ i ∈ ((cfg1.win 2).blk t).view.set := by
  have h0 : (i 0).val < 400000 := (i 0).isLt
  have h1 : (i 1).val < 256 := (i 1).isLt
  have hN : cfg1.N = 200 := N_1
  obtain ⟨t, ht⟩ : ∃ t : Fin cfg1.N, t.val = (i 0).val / 2000 := ⟨⟨(i 0).val / 2000, by rw [hN]; omega⟩, rfl⟩
  obtain ⟨-, -, -, -, e0, e1⟩ := idx1 t
  refine ⟨t, flush1_2 t, ?_⟩
  rw [mem_oblk1]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 256 ≤ (i 1).val ∧ (i 1).val < win1_2.index t (1 : Fin 2) * 256 + 256
    rw [e1]; omega

end Proj

open Proj

/-! # The two arrays after their calls -/

/-- THE OUTPUT ARRAY after call 0, at any contents `V` of the buffers when it is entered, is the reference's
    `relu(x_node · w)` stage of the two input arrays as the call finds them. -/
theorem val0 (q : Fin cfg0.W → PosShare TreeShare) (c : Dev nD) :
    (dat0 (F := Ideal) V q c).arrAt 2 cfg0.N
      = (Cert.ReferenceIdeal.ReadP.val_main_v1 (F := Ideal) (V c main_arg0) (V c main_arg2) : S100000x256.Idx → EReal) :=
  (dat0 (F := Ideal) V q c).arrAt_eq_of_cover 2 _ (fun t _ => flushed0_eq V q c t) cover0

/-- THE OUTPUT ARRAY after call 1, at any contents `V` of the buffers when it is entered, is the reference's
    `relu(x_edge · w)` stage of the two input arrays as the call finds them. -/
theorem val1 (q : Fin cfg1.W → PosShare TreeShare) (c : Dev nD) :
    (dat1 (F := Ideal) V q c).arrAt 2 cfg1.N
      = (Cert.ReferenceIdeal.ReadP.val_main_v3 (F := Ideal) (V c main_arg1) (V c main_arg3) : S400000x256.Idx → EReal) :=
  (dat1 (F := Ideal) V q c).arrAt_eq_of_cover 2 _ (fun t _ => flushed1_eq V q c t) cover1

end Cert.Bridge

end
-- ==== Proof.VEdge.lean ====
/-
  The edge update `relu(h0 + (a − swap b) · w)` of Pallas calls 2, 3 and 4 (one kernel function at three call sites)
  in closed form, against the reference's own operations.

  The kernel works on row blocks of 2000 edges. Inside a block it pairs each row with its neighbour — row `i + 1` for
  even `i`, row `i − 1` for odd `i`, by two rotations along the rows and a select on the row's parity — subtracts that
  from the gathered node states, multiplies by the 256×256 weight into a zero accumulator, adds the initial edge states
  and clamps below at zero. The reference gathers the edge states at the index vector `e xor 1` over all 400000 edges.
  Since a block starts at the even row `t · 2000` and holds an even number of rows, the partner of a row inside its
  block is its partner in the whole array (`pairOf_rowAt`), and `e xor 1` is that partner as a number (`xor_one_toNat`).

  Both sides are brought to ONE index-by-index function `edgeAt` of the four arrays: the payload of the four blocks at
  a point is the block of `edgeAt` (`block_edge`; the sum in the kernel comes first, so `+` is commuted, which the
  extended reals allow), every point writes its block back and the blocks tile the array (`arrK_eq`), and the
  reference's composed operations are `edgeAt` too (`edgeRef_eq`). Hence `val2`, `val3`, `val4`: at ANY contents `V`
  of the buffers when the call is entered, its output array ends at `edgeRef` of the four arrays it reads.
-/
import proofs.«429236_j40699110097566_3_alg».proof.Proof.IR2
import proofs.«429236_j40699110097566_3_alg».proof.Proof.IR3
import proofs.«429236_j40699110097566_3_alg».proof.Proof.IR4
import proofs.«429236_j40699110097566_3_alg».proof.Proof.RefRead
import Idealize.ShloMosaic.Lib.Pipeline.Value
import Idealize.ShloMosaic.Lib.ValueIdx
import Idealize.ShloMosaic.Lib.KernelVsHost
import Idealize.ShloMosaic.Lib.StableHlo.Predicate
import Idealize.ShloMosaic.PureOps.Ideal.Laws

set_option maxRecDepth 16384

noncomputable section

namespace Cert.Bridge

open Idealize.ShloMosaic Idealize.ShloMosaic.ValueIdx

namespace Edge

/-! ## Words -/

/-- For an edge number `e` the word `e xor 1` is, as a number, `e + 1` for even `e` and `e − 1` for odd `e`: the xor flips the
    lowest bit and leaves `e / 2`. -/
theorem xor_one_toNat (e : Nat) (he : e < 400000) :
    (BitVec.ofNat 32 e ^^^ 1#32).toNat = if e % 2 = 0 then e + 1 else e - 1 := by
  rw [BitVec.toNat_xor, BitVec.toNat_ofNat, Nat.mod_eq_of_lt (by omega)]
  show e ^^^ 1 = _
  have h1 : (e ^^^ 1) / 2 = e / 2 := by rw [Nat.xor_div_two]; simp
  have h2 := @Nat.xor_mod_two_eq_one e 1
  split <;> omega

/-- The lowest bit of the word of `e` is clear exactly when `e` is even. -/
theorem and_one_eq_zero_iff (e : Nat) (he : e < 400000) :
    (BitVec.ofNat 32 e &&& 1#32) = 0#32 ↔ e % 2 = 0 := by
  constructor
  · intro h
    have := congrArg BitVec.toNat h
    rw [BitVec.toNat_and, BitVec.toNat_ofNat, Nat.mod_eq_of_lt (by omega)] at this
    have h1 : e &&& 1 = e % 2 := Nat.and_one_is_mod e
    simpa [h1] using this
  · intro h
    apply BitVec.eq_of_toNat_eq
    rw [BitVec.toNat_and, BitVec.toNat_ofNat, Nat.mod_eq_of_lt (by omega)]
    show e &&& 1 = 0
    rw [Nat.and_one_is_mod]; exact h

/-! ## A row gather read at an index -/

section Rows
variable {α : Type}

/-- The dimension numbers of a gather of whole ROWS of an `[N, M]` operand at an `[n, 1]` column of row numbers: axis 0
    collapsed and indexed, axis 1 the offset axis, slices `[1, M]`. -/
abbrev rowsDims (N M n : Nat) (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

/-- Row `p` of the index column. -/
abbrev rowIdx {n : Nat} (p : Fin n) : (⟨2, ![n, 1]⟩ : Shape).Idx :=
  fun a => match a with | ⟨0, _⟩ => p | ⟨1, _⟩ => ⟨0, Nat.one_pos⟩

/-- That gather at `(p, q)`: the operand at column `q` of the row the index column names at `p`, read signed and clamped
    into the operand's rows. -/
theorem gather_rows_apply {N M n w : Nat} (hN : 0 < N)
    (wf : GatherDims.WF ⟨2, ![N, M]⟩ ⟨2, ![n, 1]⟩ ⟨2, ![n, M]⟩ [1] [0] [] [0] [] 1 ![1, M])
    (x : (⟨2, ![N, M]⟩ : Shape).Idx → α) (idx : IVec ⟨2, ![n, 1]⟩ w) (p : Fin n) (q : Fin M) :
    Host.gather (rowsDims N M n wf) x idx (ix2 p q) = x (ix2 ⟨min (idx (rowIdx p)).toInt.toNat (N - 1), by omega⟩ q) := by
  unfold Host.gather
  refine congrArg x (funext fun a => Fin.ext ?_)
  match a with
  | ⟨0, _⟩ =>
    show (rowsDims N M n wf).start (ix2 p q) idx 0 + (rowsDims N M n wf).batchCoord (ix2 p q) 0 + (rowsDims N M n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M n wf).startIndexMap from List.mem_singleton.mpr rfl)]
    have hsi : (rowsDims N M n wf).siIdx (ix2 p q) ⟨List.idxOf (0 : Fin 2) (rowsDims N M n wf).startIndexMap,
        List.idxOf_lt_length_iff.2 (List.mem_singleton.mpr rfl)⟩ = rowIdx p := by
      funext b; refine Fin.ext ?_
      match b with
      | ⟨0, _⟩ => rfl
      | ⟨1, _⟩ => rfl
    rw [hsi]
    rfl
  | ⟨1, _⟩ =>
    show (rowsDims N M n wf).start (ix2 p q) idx 1 + (rowsDims N M n wf).batchCoord (ix2 p q) 1 + (rowsDims N M n wf).offCoord (ix2 p q) 1 = q.val
    rw [GatherDims.batchCoord_eq_zero _ _ _ List.not_mem_nil]
    unfold GatherDims.start
    rw [dif_neg (show ¬ (1 : Fin 2) ∈ (rowsDims N M n wf).startIndexMap from fun h => Nat.one_ne_zero (congrArg Fin.val (List.mem_singleton.mp h)))]
    simp only [Nat.add_zero, Nat.zero_add]
    unfold GatherDims.offCoord
    rw [dif_pos (show (1 : Fin 2) ∈ (rowsDims N M n wf).sKept from (GatherDims.mem_sKept _ _).mpr ⟨fun h => Nat.one_ne_zero (congrArg Fin.val (List.mem_singleton.mp h)), List.not_mem_nil⟩)]
    rfl

end Rows

/-! ## The pair swap inside a block of 2000 rows -/

section Swap
variable {α : Type}

/-- The partner of row `p` in its pair `(2k, 2k + 1)`. -/
def pairOf {n : Nat} (hn : n % 2 = 0) (p : Fin n) : Fin n :=
  ⟨if p.val % 2 = 0 then p.val + 1 else p.val - 1, by have := p.isLt; split <;> omega⟩

/-- Its number. -/
theorem pairOf_val {n : Nat} (hn : n % 2 = 0) (p : Fin n) :
    (pairOf hn p).val = if p.val % 2 = 0 then p.val + 1 else p.val - 1 := rfl

/-- The select, on the row's parity, between the block rotated up by one row (by 1999 of 2000) and rotated down by one
    row reads, at row `p`, the partner row of `p`: row `p + 1` for even `p` (never the wrapped row, as `p ≤ 1998`), row
    `p − 1` for odd `p` (never the wrapped row, as `p ≥ 1`). -/
theorem swap_apply (κ : Kind) (x : (⟨2, ![2000, 256]⟩ : Shape).Idx → α)
    (hr : Shape.Rotates (⟨2, ![2000, 256]⟩ : Shape) 0 none) (hi : Shape.Iotas (⟨2, ![2000, 256]⟩ : Shape) κ 32 [0])
    (p : Fin 2000) (q : Fin 256) :
    select (cmpi .eq (andi (iota κ (⟨2, ![2000, 256]⟩ : Shape) 32 [0] hi) (broadcast (⟨2, ![2000, 256]⟩ : Shape) 1#32)) (broadcast (⟨2, ![2000, 256]⟩ : Shape) 0#32))
      (dynamicRotate 0 1999#32 none x hr) (dynamicRotate 0 1#32 none x hr) (ix2 p q)
    = x (ix2 (pairOf (by decide) p) q) := by
  have hp : p.val < 2000 := p.isLt
  rw [select_apply]
  show Scalar.select (IntOp.cmpi .eq (IntOp.andi (iota κ (⟨2, ![2000, 256]⟩ : Shape) 32 [0] hi (ix2 p q)) 1#32) 0#32) _ _ = _
  rw [iota_single_apply]
  show Scalar.select (IntOp.cmpi .eq (BitVec.ofNat 32 p.val &&& 1#32) 0#32) _ _ = _
  by_cases hpar : p.val % 2 = 0
  · rw [(StableHlo.Predicate.cmpi_eq_iff).mpr ((and_one_eq_zero_iff p.val (by omega)).mpr hpar), select_one]
    refine dynamicRotate_apply 0 1999#32 x hr (ix2 p q) (ix2 (pairOf (by decide) p) q) (fun b => ?_)
    match b with
    | ⟨0, _⟩ =>
      show (pairOf (by decide) p).val = (p.val + 2000 - 1999 % 2000) % 2000
      rw [pairOf_val, if_pos hpar]; omega
    | ⟨1, _⟩ => rfl
  · have hc : IntOp.cmpi .eq (BitVec.ofNat 32 p.val &&& 1#32) 0#32 = 0#1 :=
      eq_zero_of_ne_one (fun h => hpar ((and_one_eq_zero_iff p.val (by omega)).mp ((StableHlo.Predicate.cmpi_eq_iff).mp h)))
    rw [hc, select_zero]
    refine dynamicRotate_apply 0 1#32 x hr (ix2 p q) (ix2 (pairOf (by decide) p) q) (fun b => ?_)
    match b with
    | ⟨0, _⟩ =>
      show (pairOf (by decide) p).val = (p.val + 2000 - 1 % 2000) % 2000
      rw [pairOf_val, if_neg hpar]; omega
    | ⟨1, _⟩ => rfl

end Swap

/-! ## The body's payload at an index -/

section Payload
open Cert.KernelIdeal Cert.KernelIdeal.Gen

/-- The matrix product's operand indices at output `(p, q)` and contracted coordinate `k`: `(p, k)` on the left, `(k, q)` on
    the right, axis by axis. -/
theorem klhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem klhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem krhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem krhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's matrix product into a zero accumulator, at row `p` and column `q`: the sum over the 256 contracted
    coordinates. -/
theorem kmatmul_apply (l : FVec Ideal S2000x256 .bf16) (r : FVec Ideal S256x256 .bf16) (p : Fin 2000) (q : Fin 256) :
    FloatOps.matmul dot_S2000x256_S256x256_S2000x256_1_0_0_1_n_n none l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact klhs_0 _ _
    | ⟨1, _⟩ => exact (klhs_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (krhs_0 _ _).trans hk
    | ⟨1, _⟩ => exact krhs_1 _ _)
  rw [el, er]

/-- The payload at row `p`, column `q` of the block: the gathered node state less the PARTNER row of the edge block, times
    the weight, plus the initial edge state, clamped below at zero. -/
theorem pay2_apply (bv av : Vec Ideal S2000x256 .f32) (wv : Vec Ideal S256x256 .f32) (hv : Vec Ideal S2000x256 .f32)
    (p : Fin 2000) (q : Fin 256) :
    k2_pay1 (F := Ideal) bv av wv hv (ix2 p q)
      = max ((∑ k : Fin 256, (av (ix2 p k) - bv (ix2 (pairOf (by decide) p) k)) * wv (ix2 k q)) + hv (ix2 p q)) 0 := by
  unfold k2_pay1
  simp only [shapeCast_self]
  refine (maximumf_apply _ _ (ix2 p q)).trans ?_
  refine congrArg₂ max ?_ Ideal.ofBits_zero_f32
  refine (addf_apply _ _ (ix2 p q)).trans ?_
  refine congrArg (· + hv (ix2 p q)) ?_
  refine (kmatmul_apply _ _ p q).trans ?_
  refine Finset.sum_congr rfl fun k _ => ?_
  refine congrArg₂ (· * ·) ?_ rfl
  exact congrArg (av (ix2 p k) - ·) (swap_apply .tc bv rotates_S2000x256_d0 iota_S2000x256_d0_w32 p k)

end Payload

/-- Pallas calls 3 and 4 run the same kernel function: their payloads are call 2's. -/
theorem pay3_eq : @Cert.KernelIdeal.Gen.k3_pay1 = @Cert.KernelIdeal.Gen.k2_pay1 := rfl
theorem pay4_eq : @Cert.KernelIdeal.Gen.k4_pay1 = @Cert.KernelIdeal.Gen.k2_pay1 := rfl

/-! ## The edge update as one function of whole arrays -/

section Spec

/-- The edge update, index by index: at edge `e` and column `j`, the initial edge state plus the row
    `a e − b (partner of e)` times column `j` of the weight, clamped below at zero. -/
def edgeAt (a b : FVec Ideal (⟨2, ![400000, 256]⟩ : Shape) .f32) (w : FVec Ideal (⟨2, ![256, 256]⟩ : Shape) .f32)
    (h0 : FVec Ideal (⟨2, ![400000, 256]⟩ : Shape) .f32) : FVec Ideal (⟨2, ![400000, 256]⟩ : Shape) .f32 :=
  fun i => max (h0 i + ∑ k : Fin 256, (a (ix2 ⟨(i 0).val, idx2_lt0 i⟩ k)
      - b (ix2 (pairOf (n := 400000) (by decide) ⟨(i 0).val, idx2_lt0 i⟩) k)) * w (ix2 k ⟨(i 1).val, idx2_lt1 i⟩)) 0

theorem edgeAt_apply (a b : FVec Ideal (⟨2, ![400000, 256]⟩ : Shape) .f32) (w : FVec Ideal (⟨2, ![256, 256]⟩ : Shape) .f32)
    (h0 : FVec Ideal (⟨2, ![400000, 256]⟩ : Shape) .f32) (e : Fin 400000) (j : Fin 256) :
    edgeAt a b w h0 (ix2 e j)
      = max (h0 (ix2 e j) + ∑ k : Fin 256, (a (ix2 e k) - b (ix2 (pairOf (n := 400000) (by decide) e) k)) * w (ix2 k j)) 0 := rfl

/-- Row `p` of the block of 2000 rows at grid point `t` is row `t · 2000 + p` of the array. -/
def rowAt (t : Nat) (ht : t < 200) (p : Fin 2000) : Fin 400000 := ⟨t * 2000 + p.val, by omega⟩

/-- Blocks start at even rows and hold an even number of rows, so a row's partner inside its block is its partner in
    the array. -/
theorem pairOf_rowAt (t : Nat) (ht : t < 200) (p : Fin 2000) :
    pairOf (n := 400000) (by decide) (rowAt t ht p) = rowAt t ht (pairOf (n := 2000) (by decide) p) := by
  apply Fin.ext
  show (if (t * 2000 + p.val) % 2 = 0 then t * 2000 + p.val + 1 else t * 2000 + p.val - 1)
    = t * 2000 + (if p.val % 2 = 0 then p.val + 1 else p.val - 1)
  have hp := p.isLt
  split <;> split <;> omega

open Cert.KernelIdeal Cert.KernelIdeal.Gen in
/-- The payload of the four blocks at point `t` is the block of `edgeAt` of the four arrays. -/
theorem block_edge (A B H : FVec Ideal S400000x256 .f32) (W : FVec Ideal S256x256 .f32)
    (av bv hv : Vec Ideal S2000x256 .f32) (wv : Vec Ideal S256x256 .f32) (t : Nat) (ht : t < 200)
    (ha : ∀ (p : Fin 2000) (k : Fin 256), av (ix2 p k) = A (ix2 (rowAt t ht p) k))
    (hb : ∀ (p : Fin 2000) (k : Fin 256), bv (ix2 p k) = B (ix2 (rowAt t ht p) k))
    (hh : ∀ (p : Fin 2000) (k : Fin 256), hv (ix2 p k) = H (ix2 (rowAt t ht p) k))
    (hw : ∀ (k j : Fin 256), wv (ix2 k j) = W (ix2 k j))
    (p : Fin 2000) (j : Fin 256) :
    k2_pay1 (F := Ideal) bv av wv hv (ix2 p j) = edgeAt A B W H (ix2 (rowAt t ht p) j) := by
  refine (pay2_apply bv av wv hv p j).trans ?_
  refine (congrArg (fun s => max s (0 : EReal)) (add_comm _ _)).trans ?_
  rw [edgeAt_apply, hh p j]
  refine congrArg (fun s => max (H (ix2 (rowAt t ht p) j) + s) (0 : EReal)) (Finset.sum_congr rfl fun k _ => ?_)
  rw [ha p k, hb (pairOf (n := 2000) (by decide) p) k, hw k j, pairOf_rowAt]

end Spec

/-- The zero offsets of a whole-buffer access. -/
theorem hz00 : (![0, 0] : Fin 2 → Nat) = fun _ => 0 := funext fun a => by fin_cases a <;> rfl

/-! ## Pallas call 2: from blocks to the array -/

section Region2
open Cert.KernelIdeal Cert.KernelIdeal.Gen Cert.KernelIdeal.Hand
open Idealize.ShloMosaic.TcCoe Idealize.SL Idealize.SL.RA Idealize.SL.Sem
open Idealize.ShloMosaic.Pipeline (Dat)

variable (V : (c : Dev nD) → (b : Ref sig .tc) → Buf (Elt Ideal) ((c : Thread nD τ).loc b))
variable (q : Fin cfg2.W → PosShare TreeShare)

/-- The printed index maps over the grid: a row-blocked window's block index is (t, 0), the weight's (0, 0). -/
theorem idx2_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0) :=
  (by decide +kernel : ∀ t : Fin grid2.N, _)

theorem lt2 (t : Fin cfg2.N) : t.val < 200 := lt_of_lt_of_eq t.isLt N_2

/-- Window 0's block at point `t` is rows `t · 2000 …` of the gathered node states. -/
theorem iblk2_0_apply (c : Dev nD) (t : Fin cfg2.N) (p : Fin 2000) (k : Fin 256) :
    (iblk2 V c 0 t : Vec Ideal S2000x256 .f32) (ix2 p k) = (V c main_v6 : FVec Ideal S400000x256 .f32) (ix2 (rowAt t.val (lt2 t) p) k) := by
  obtain ⟨⟨e0, e1⟩, -⟩ := idx2_facts t
  show V c main_v6 (((cfg2.win 0).blk t).view.emb (ix2 p k)) = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- Window 1's is the same rows of the edge states. -/
theorem iblk2_1_apply (c : Dev nD) (t : Fin cfg2.N) (p : Fin 2000) (k : Fin 256) :
    (iblk2 V c 1 t : Vec Ideal S2000x256 .f32) (ix2 p k) = (V c main_v1 : FVec Ideal S400000x256 .f32) (ix2 (rowAt t.val (lt2 t) p) k) := by
  obtain ⟨-, ⟨e0, e1⟩, -⟩ := idx2_facts t
  show V c main_v1 (((cfg2.win 1).blk t).view.emb (ix2 p k)) = _
  refine congrArg _ (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 256 + 1 * k.val = k.val; rw [e1]; omega

/-- Window 2's is the whole weight. -/
theorem iblk2_2_apply (c : Dev nD) (t : Fin cfg2.N) (k j : Fin 256) :
    (iblk2 V c 2 t : Vec Ideal S256x256 .f32) (ix2 k j) = (V c main_v8 : FVec Ideal S256x256 .f32) (ix2 k j) := by
  obtain ⟨-, -, ⟨e0, e1⟩, -⟩ := idx2_facts t
  show V c main_v8 (((cfg2.win 2).blk t).view.emb (ix2 k j)) = _
  refine congrArg _ (funext fun a => Fin.ext ?_)
  match a with
  | ⟨0, _⟩ => show win2_2.index t (0 : Fin 2) * 256 + 1 * k.val = k.val; rw [e0]; omega
  | ⟨1, _⟩ => show win2_2.index t (1 : Fin 2) * 256 + 1 * j.val = j.val; rw [e1]; omega

/-- Window 3's is the same rows of the initial edge states. -/
theorem iblk2_3_apply (c : Dev nD) (t : Fin cfg2.N) (p : Fin 2000) (k : Fin 256) :
    (iblk2 V c 3 t : Vec Ideal S2000x256 .f32) (ix2 p k) = (V c main_v1 : FVec Ideal S400000x256 .f32) (ix2 (rowAt t.val (lt2 t) p) k) := by
  obtain ⟨-, -, -, ⟨e0, e1⟩, -⟩ := idx2_facts t
  show V c main_v1 (((cfg2.win 3).blk t).view.emb (ix2 p k)) = _
  refine congrArg _ (funext fun a => Fin.ext ?_)
  match a with
  | ⟨0, _⟩ => show win2_3.index t (0 : Fin 2) * 2000 + 1 * p.val = t.val * 2000 + p.val; rw [e0]; omega
  | ⟨1, _⟩ => show win2_3.index t (1 : Fin 2) * 256 + 1 * k.val = k.val; rw [e1]; omega

/-- What point `t` writes back is block `t` of `edgeAt` of the four arrays as the call finds them. -/
theorem flushed2_eq (c : Dev nD) (t : Fin cfg2.N) :
    (dat2 (F := Ideal) V q c).flushed 4 t
      = ((cfg2.win 4).blk t).view.read (Elt Ideal) (edgeAt (V c main_v6) (V c main_v1) (V c main_v8) (V c main_v1)) := by
  show (cfg2.win 4).cut (grid2.coords t) ((dat2 (F := Ideal) V q c).after 4 t) = _
  rw [after2_4]
  unfold out2_4
  rw [View.canon_unit_zero hz00]
  simp only [View.ld_unit_zero (S := S2000x256) hz00, View.ld_unit_zero (S := S256x256) hz00]
  obtain ⟨-, -, -, -, e0, e1⟩ := idx2_facts t
  funext y
  have h0 : (y 0).val < 2000 := (y 0).isLt
  have h1 : (y 1).val < 256 := (y 1).isLt
  have hy : ((cfg2.win 4).blk t).view.emb y = ix2 (rowAt t.val (lt2 t) ⟨(y 0).val, h0⟩) ⟨(y 1).val, h1⟩ := by
    funext a; apply Fin.ext
    match a with
    | ⟨0, _⟩ => show win2_4.index t (0 : Fin 2) * 2000 + 1 * (y 0).val = t.val * 2000 + (y 0).val; rw [e0]; omega
    | ⟨1, _⟩ => show win2_4.index t (1 : Fin 2) * 256 + 1 * (y 1).val = (y 1).val; rw [e1]; omega
  show k2_pay1 (F := Ideal) (iblk2 V c 1 t) (iblk2 V c 0 t) (iblk2 V c 2 t) (iblk2 V c 3 t) (ix2 ⟨(y 0).val, h0⟩ ⟨(y 1).val, h1⟩)
    = edgeAt (V c main_v6) (V c main_v1) (V c main_v8) (V c main_v1) (((cfg2.win 4).blk t).view.emb y)
  rw [hy]
  exact block_edge (V c main_v6) (V c main_v1) (V c main_v1) (V c main_v8) (iblk2 V c 0 t) (iblk2 V c 1 t) (iblk2 V c 3 t) (iblk2 V c 2 t)
    t.val (lt2 t) (iblk2_0_apply V c t) (iblk2_1_apply V c t) (iblk2_3_apply V c t) (iblk2_2_apply V c t) ⟨(y 0).val, h0⟩ ⟨(y 1).val, h1⟩

/-- An index of the array is in point `t`'s block iff each coordinate is in the block's range on its axis. -/
theorem mem_blk2 (t : Fin cfg2.N) (i : S400000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v9).slice (win2_4.rect t)).set ↔ _
  rw [View.set_slice_whole, Rect.mem_set_unit]
  exact Iff.rfl

/-- The output array after the call: `edgeAt` of the four arrays (row `r` lies in the block of point `r / 2000`,
    and every point writes its block back). -/
theorem arr2_eq (c : Dev nD) :
    (dat2 (F := Ideal) V q c).arrAt 4 cfg2.N = edgeAt (V c main_v6) (V c main_v1) (V c main_v8) (V c main_v1) :=
  (dat2 (F := Ideal) V q c).arrAt_eq_of_cover 4 _ (fun t _ => flushed2_eq V q c t) fun i => by
    have hi0 : (i 0).val < 400000 := (i 0).isLt
    have hi1 : (i 1).val < 256 := (i 1).isLt
    have hN : cfg2.N = 200 := N_2
    obtain ⟨t, ht⟩ : ∃ t : Fin cfg2.N, t.val = (i 0).val / 2000 := ⟨⟨(i 0).val / 2000, by rw [hN]; omega⟩, rfl⟩
    obtain ⟨-, -, -, -, e0, e1⟩ := idx2_facts t
    refine ⟨t, flush2_4 t, ?_⟩
    rw [mem_blk2]
    intro a
    match a with
    | ⟨0, _⟩ =>
      show win2_4.index t (0 : Fin 2) * 2000 ≤ (i 0).val ∧ (i 0).val < win2_4.index t (0 : Fin 2) * 2000 + 2000
      rw [e0, ht]; omega
    | ⟨1, _⟩ =>
      show win2_4.index t (1 : Fin 2) * 256 ≤ (i 1).val ∧ (i 1).val < win2_4.index t (1 : Fin 2) * 256 + 256
      rw [e1]; omega

end Region2

/-! ## Pallas call 3: from blocks to the array -/

section Region3
open Cert.KernelIdeal Cert.KernelIdeal.Gen Cert.KernelIdeal.Hand
open Idealize.ShloMosaic.TcCoe Idealize.SL Idealize.SL.RA Idealize.SL.Sem
open Idealize.ShloMosaic.Pipeline (Dat)

variable (V : (c : Dev nD) → (b : Ref sig .tc) → Buf (Elt Ideal) ((c : Thread nD τ).loc b))
variable (q : Fin cfg3.W → PosShare TreeShare)

/-- The printed index maps over the grid: a row-blocked window's block index is (t, 0), the weight's (0, 0). -/
theorem idx3_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0) :=
  (by decide +kernel : ∀ t : Fin grid3.N, _)

theorem lt3 (t : Fin cfg3.N) : t.val < 200 := lt_of_lt_of_eq t.isLt N_3

/-- Window 0's block at point `t` is rows `t · 2000 …` of the gathered node states. -/
theorem iblk3_0_apply (c : Dev nD) (t : Fin cfg3.N) (p : Fin 2000) (k : Fin 256) :
    (iblk3 V c 0 t : Vec Ideal S2000x256 .f32) (ix2 p k) = (V c main_v14 : FVec Ideal S400000x256 .f32) (ix2 (rowAt t.val (lt3 t) p) k) := by
  obtain ⟨⟨e0, e1⟩, -⟩ := idx3_facts t
  show V c main_v14 (((cfg3.win 0).blk t).view.emb (ix2 p k)) = _
  refine congrArg _ (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 256 + 1 * k.val = k.val; rw [e1]; omega

/-- Window 1's is the same rows of the edge states. -/
theorem iblk3_1_apply (c : Dev nD) (t : Fin cfg3.N) (p : Fin 2000) (k : Fin 256) :
    (iblk3 V c 1 t : Vec Ideal S2000x256 .f32) (ix2 p k) = (V c main_v9 : FVec Ideal S400000x256 .f32) (ix2 (rowAt t.val (lt3 t) p) k) := by
  obtain ⟨-, ⟨e0, e1⟩, -⟩ := idx3_facts t
  show V c main_v9 (((cfg3.win 1).blk t).view.emb (ix2 p k)) = _
  refine congrArg _ (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 256 + 1 * k.val = k.val; rw [e1]; omega

/-- Window 2's is the whole weight. -/
theorem iblk3_2_apply (c : Dev nD) (t : Fin cfg3.N) (k j : Fin 256) :
    (iblk3 V c 2 t : Vec Ideal S256x256 .f32) (ix2 k j) = (V c main_v16 : FVec Ideal S256x256 .f32) (ix2 k j) := by
  obtain ⟨-, -, ⟨e0, e1⟩, -⟩ := idx3_facts t
  show V c main_v16 (((cfg3.win 2).blk t).view.emb (ix2 k j)) = _
  refine congrArg _ (funext fun a => Fin.ext ?_)
  match a with
  | ⟨0, _⟩ => show win3_2.index t (0 : Fin 2) * 256 + 1 * k.val = k.val; rw [e0]; omega
  | ⟨1, _⟩ => show win3_2.index t (1 : Fin 2) * 256 + 1 * j.val = j.val; rw [e1]; omega

/-- Window 3's is the same rows of the initial edge states. -/
theorem iblk3_3_apply (c : Dev nD) (t : Fin cfg3.N) (p : Fin 2000) (k : Fin 256) :
    (iblk3 V c 3 t : Vec Ideal S2000x256 .f32) (ix2 p k) = (V c main_v1 : FVec Ideal S400000x256 .f32) (ix2 (rowAt t.val (lt3 t) p) k) := by
  obtain ⟨-, -, -, ⟨e0, e1⟩, -⟩ := idx3_facts t
  show V c main_v1 (((cfg3.win 3).blk t).view.emb (ix2 p k)) = _
  refine congrArg _ (funext fun a => Fin.ext ?_)
  match a with
  | ⟨0, _⟩ => show win3_3.index t (0 : Fin 2) * 2000 + 1 * p.val = t.val * 2000 + p.val; rw [e0]; omega
  | ⟨1, _⟩ => show win3_3.index t (1 : Fin 2) * 256 + 1 * k.val = k.val; rw [e1]; omega

/-- What point `t` writes back is block `t` of `edgeAt` of the four arrays as the call finds them. -/
theorem flushed3_eq (c : Dev nD) (t : Fin cfg3.N) :
    (dat3 (F := Ideal) V q c).flushed 4 t
      = ((cfg3.win 4).blk t).view.read (Elt Ideal) (edgeAt (V c main_v14) (V c main_v9) (V c main_v16) (V c main_v1)) := by
  show (cfg3.win 4).cut (grid3.coords t) ((dat3 (F := Ideal) V q c).after 4 t) = _
  rw [after3_4]
  unfold out3_4
  rw [View.canon_unit_zero hz00]
  simp only [View.ld_unit_zero (S := S2000x256) hz00, View.ld_unit_zero (S := S256x256) hz00]
  obtain ⟨-, -, -, -, e0, e1⟩ := idx3_facts t
  funext y
  have h0 : (y 0).val < 2000 := (y 0).isLt
  have h1 : (y 1).val < 256 := (y 1).isLt
  have hy : ((cfg3.win 4).blk t).view.emb y = ix2 (rowAt t.val (lt3 t) ⟨(y 0).val, h0⟩) ⟨(y 1).val, h1⟩ := by
    funext a; apply Fin.ext
    match a with
    | ⟨0, _⟩ => show win3_4.index t (0 : Fin 2) * 2000 + 1 * (y 0).val = t.val * 2000 + (y 0).val; rw [e0]; omega
    | ⟨1, _⟩ => show win3_4.index t (1 : Fin 2) * 256 + 1 * (y 1).val = (y 1).val; rw [e1]; omega
  show k3_pay1 (F := Ideal) (iblk3 V c 1 t) (iblk3 V c 0 t) (iblk3 V c 2 t) (iblk3 V c 3 t) (ix2 ⟨(y 0).val, h0⟩ ⟨(y 1).val, h1⟩)
    = edgeAt (V c main_v14) (V c main_v9) (V c main_v16) (V c main_v1) (((cfg3.win 4).blk t).view.emb y)
  rw [hy, pay3_eq]
  exact block_edge (V c main_v14) (V c main_v9) (V c main_v1) (V c main_v16) (iblk3 V c 0 t) (iblk3 V c 1 t) (iblk3 V c 3 t) (iblk3 V c 2 t)
    t.val (lt3 t) (iblk3_0_apply V c t) (iblk3_1_apply V c t) (iblk3_3_apply V c t) (iblk3_2_apply V c t) ⟨(y 0).val, h0⟩ ⟨(y 1).val, h1⟩

/-- An index of the array is in point `t`'s block iff each coordinate is in the block's range on its axis. -/
theorem mem_blk3 (t : Fin cfg3.N) (i : S400000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v17).slice (win3_4.rect t)).set ↔ _
  rw [View.set_slice_whole, Rect.mem_set_unit]
  exact Iff.rfl

/-- The output array after the call: `edgeAt` of the four arrays (row `r` lies in the block of point `r / 2000`,
    and every point writes its block back). -/
theorem arr3_eq (c : Dev nD) :
    (dat3 (F := Ideal) V q c).arrAt 4 cfg3.N = edgeAt (V c main_v14) (V c main_v9) (V c main_v16) (V c main_v1) :=
  (dat3 (F := Ideal) V q c).arrAt_eq_of_cover 4 _ (fun t _ => flushed3_eq V q c t) fun i => by
    have hi0 : (i 0).val < 400000 := (i 0).isLt
    have hi1 : (i 1).val < 256 := (i 1).isLt
    have hN : cfg3.N = 200 := N_3
    obtain ⟨t, ht⟩ : ∃ t : Fin cfg3.N, t.val = (i 0).val / 2000 := ⟨⟨(i 0).val / 2000, by rw [hN]; omega⟩, rfl⟩
    obtain ⟨-, -, -, -, e0, e1⟩ := idx3_facts t
    refine ⟨t, flush3_4 t, ?_⟩
    rw [mem_blk3]
    intro a
    match a with
    | ⟨0, _⟩ =>
      show win3_4.index t (0 : Fin 2) * 2000 ≤ (i 0).val ∧ (i 0).val < win3_4.index t (0 : Fin 2) * 2000 + 2000
      rw [e0, ht]; omega
    | ⟨1, _⟩ =>
      show win3_4.index t (1 : Fin 2) * 256 ≤ (i 1).val ∧ (i 1).val < win3_4.index t (1 : Fin 2) * 256 + 256
      rw [e1]; omega

end Region3

/-! ## Pallas call 4: from blocks to the array -/

section Region4
open Cert.KernelIdeal Cert.KernelIdeal.Gen Cert.KernelIdeal.Hand
open Idealize.ShloMosaic.TcCoe Idealize.SL Idealize.SL.RA Idealize.SL.Sem
open Idealize.ShloMosaic.Pipeline (Dat)

variable (V : (c : Dev nD) → (b : Ref sig .tc) → Buf (Elt Ideal) ((c : Thread nD τ).loc b))
variable (q : Fin cfg4.W → PosShare TreeShare)

/-- The printed index maps over the grid: a row-blocked window's block index is (t, 0), the weight's (0, 0). -/
theorem idx4_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0) :=
  (by decide +kernel : ∀ t : Fin grid4.N, _)

theorem lt4 (t : Fin cfg4.N) : t.val < 200 := lt_of_lt_of_eq t.isLt N_4

/-- Window 0's block at point `t` is rows `t · 2000 …` of the gathered node states. -/
theorem iblk4_0_apply (c : Dev nD) (t : Fin cfg4.N) (p : Fin 2000) (k : Fin 256) :
    (iblk4 V c 0 t : Vec Ideal S2000x256 .f32) (ix2 p k) = (V c main_v22 : FVec Ideal S400000x256 .f32) (ix2 (rowAt t.val (lt4 t) p) k) := by
  obtain ⟨⟨e0, e1⟩, -⟩ := idx4_facts t
  show V c main_v22 (((cfg4.win 0).blk t).view.emb (ix2 p k)) = _
  refine congrArg _ (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 256 + 1 * k.val = k.val; rw [e1]; omega

/-- Window 1's is the same rows of the edge states. -/
theorem iblk4_1_apply (c : Dev nD) (t : Fin cfg4.N) (p : Fin 2000) (k : Fin 256) :
    (iblk4 V c 1 t : Vec Ideal S2000x256 .f32) (ix2 p k) = (V c main_v17 : FVec Ideal S400000x256 .f32) (ix2 (rowAt t.val (lt4 t) p) k) := by
  obtain ⟨-, ⟨e0, e1⟩, -⟩ := idx4_facts t
  show V c main_v17 (((cfg4.win 1).blk t).view.emb (ix2 p k)) = _
  refine congrArg _ (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 256 + 1 * k.val = k.val; rw [e1]; omega

/-- Window 2's is the whole weight. -/
theorem iblk4_2_apply (c : Dev nD) (t : Fin cfg4.N) (k j : Fin 256) :
    (iblk4 V c 2 t : Vec Ideal S256x256 .f32) (ix2 k j) = (V c main_v24 : FVec Ideal S256x256 .f32) (ix2 k j) := by
  obtain ⟨-, -, ⟨e0, e1⟩, -⟩ := idx4_facts t
  show V c main_v24 (((cfg4.win 2).blk t).view.emb (ix2 k j)) = _
  refine congrArg _ (funext fun a => Fin.ext ?_)
  match a with
  | ⟨0, _⟩ => show win4_2.index t (0 : Fin 2) * 256 + 1 * k.val = k.val; rw [e0]; omega
  | ⟨1, _⟩ => show win4_2.index t (1 : Fin 2) * 256 + 1 * j.val = j.val; rw [e1]; omega

/-- Window 3's is the same rows of the initial edge states. -/
theorem iblk4_3_apply (c : Dev nD) (t : Fin cfg4.N) (p : Fin 2000) (k : Fin 256) :
    (iblk4 V c 3 t : Vec Ideal S2000x256 .f32) (ix2 p k) = (V c main_v1 : FVec Ideal S400000x256 .f32) (ix2 (rowAt t.val (lt4 t) p) k) := by
  obtain ⟨-, -, -, ⟨e0, e1⟩, -⟩ := idx4_facts t
  show V c main_v1 (((cfg4.win 3).blk t).view.emb (ix2 p k)) = _
  refine congrArg _ (funext fun a => Fin.ext ?_)
  match a with
  | ⟨0, _⟩ => show win4_3.index t (0 : Fin 2) * 2000 + 1 * p.val = t.val * 2000 + p.val; rw [e0]; omega
  | ⟨1, _⟩ => show win4_3.index t (1 : Fin 2) * 256 + 1 * k.val = k.val; rw [e1]; omega

/-- What point `t` writes back is block `t` of `edgeAt` of the four arrays as the call finds them. -/
theorem flushed4_eq (c : Dev nD) (t : Fin cfg4.N) :
    (dat4 (F := Ideal) V q c).flushed 4 t
      = ((cfg4.win 4).blk t).view.read (Elt Ideal) (edgeAt (V c main_v22) (V c main_v17) (V c main_v24) (V c main_v1)) := by
  show (cfg4.win 4).cut (grid4.coords t) ((dat4 (F := Ideal) V q c).after 4 t) = _
  rw [after4_4]
  unfold out4_4
  rw [View.canon_unit_zero hz00]
  simp only [View.ld_unit_zero (S := S2000x256) hz00, View.ld_unit_zero (S := S256x256) hz00]
  obtain ⟨-, -, -, -, e0, e1⟩ := idx4_facts t
  funext y
  have h0 : (y 0).val < 2000 := (y 0).isLt
  have h1 : (y 1).val < 256 := (y 1).isLt
  have hy : ((cfg4.win 4).blk t).view.emb y = ix2 (rowAt t.val (lt4 t) ⟨(y 0).val, h0⟩) ⟨(y 1).val, h1⟩ := by
    funext a; apply Fin.ext
    match a with
    | ⟨0, _⟩ => show win4_4.index t (0 : Fin 2) * 2000 + 1 * (y 0).val = t.val * 2000 + (y 0).val; rw [e0]; omega
    | ⟨1, _⟩ => show win4_4.index t (1 : Fin 2) * 256 + 1 * (y 1).val = (y 1).val; rw [e1]; omega
  show k4_pay1 (F := Ideal) (iblk4 V c 1 t) (iblk4 V c 0 t) (iblk4 V c 2 t) (iblk4 V c 3 t) (ix2 ⟨(y 0).val, h0⟩ ⟨(y 1).val, h1⟩)
    = edgeAt (V c main_v22) (V c main_v17) (V c main_v24) (V c main_v1) (((cfg4.win 4).blk t).view.emb y)
  rw [hy, pay4_eq]
  exact block_edge (V c main_v22) (V c main_v17) (V c main_v1) (V c main_v24) (iblk4 V c 0 t) (iblk4 V c 1 t) (iblk4 V c 3 t) (iblk4 V c 2 t)
    t.val (lt4 t) (iblk4_0_apply V c t) (iblk4_1_apply V c t) (iblk4_3_apply V c t) (iblk4_2_apply V c t) ⟨(y 0).val, h0⟩ ⟨(y 1).val, h1⟩

/-- An index of the array is in point `t`'s block iff each coordinate is in the block's range on its axis. -/
theorem mem_blk4 (t : Fin cfg4.N) (i : S400000x256.Idx) :
    i ∈ ((cfg4.win 4).blk t).view.set ↔ ∀ a : Fin 2, win4_4.index t a * S2000x256.size a ≤ (i a).val
      ∧ (i a).val < win4_4.index t a * S2000x256.size a + S2000x256.size a := by
  show i ∈ ((View.whole main_v25).slice (win4_4.rect t)).set ↔ _
  rw [View.set_slice_whole, Rect.mem_set_unit]
  exact Iff.rfl

/-- The output array after the call: `edgeAt` of the four arrays (row `r` lies in the block of point `r / 2000`,
    and every point writes its block back). -/
theorem arr4_eq (c : Dev nD) :
    (dat4 (F := Ideal) V q c).arrAt 4 cfg4.N = edgeAt (V c main_v22) (V c main_v17) (V c main_v24) (V c main_v1) :=
  (dat4 (F := Ideal) V q c).arrAt_eq_of_cover 4 _ (fun t _ => flushed4_eq V q c t) fun i => by
    have hi0 : (i 0).val < 400000 := (i 0).isLt
    have hi1 : (i 1).val < 256 := (i 1).isLt
    have hN : cfg4.N = 200 := N_4
    obtain ⟨t, ht⟩ : ∃ t : Fin cfg4.N, t.val = (i 0).val / 2000 := ⟨⟨(i 0).val / 2000, by rw [hN]; omega⟩, rfl⟩
    obtain ⟨-, -, -, -, e0, e1⟩ := idx4_facts t
    refine ⟨t, flush4_4 t, ?_⟩
    rw [mem_blk4]
    intro a
    match a with
    | ⟨0, _⟩ =>
      show win4_4.index t (0 : Fin 2) * 2000 ≤ (i 0).val ∧ (i 0).val < win4_4.index t (0 : Fin 2) * 2000 + 2000
      rw [e0, ht]; omega
    | ⟨1, _⟩ =>
      show win4_4.index t (1 : Fin 2) * 256 ≤ (i 1).val ∧ (i 1).val < win4_4.index t (1 : Fin 2) * 256 + 256
      rw [e1]; omega

end Region4

end Edge

open Edge

/-! ## The reference's edge update -/

/-- One round of the reference's edge update, as a function of its four array operands: the gathered node states `a`,
    the edge states `b` (gathered at the partner rows `e xor 1`), the round's weight `w`, the initial edge states `h0`. -/
def edgeRef (a b : FVec Ideal Cert.ReferenceIdeal.S400000x256 .f32) (w : FVec Ideal Cert.ReferenceIdeal.S256x256 .f32)
    (h0 : FVec Ideal Cert.ReferenceIdeal.S400000x256 .f32) : FVec Ideal Cert.ReferenceIdeal.S400000x256 .f32 :=
  maximumf (addf h0 (Host.dotGeneral Cert.ReferenceIdeal.dot_S400000x256_S256x256_S400000x256_1_0_0_1_n_n none
      (subf a (Host.gather Cert.ReferenceIdeal.gather_S400000x256_S400000x1_S400000x256_1_0_n_n_0_1_1256 b (Cert.ReferenceIdeal.ReadP.val_main_v23 (F := Ideal)))) w))
    (Cert.ReferenceIdeal.ReadP.val_main_call2_v0 (F := Ideal))

/-- The later rounds build the same partner indices and the same zero array. -/
theorem val_main_v47_eq {F : FTy → Type} [FloatOps F] : Cert.ReferenceIdeal.ReadP.val_main_v47 (F := F) = Cert.ReferenceIdeal.ReadP.val_main_v23 (F := F) := rfl
theorem val_main_v71_eq {F : FTy → Type} [FloatOps F] : Cert.ReferenceIdeal.ReadP.val_main_v71 (F := F) = Cert.ReferenceIdeal.ReadP.val_main_v23 (F := F) := rfl
theorem val_main_call3_v0_eq {F : FTy → Type} [FloatOps F] : Cert.ReferenceIdeal.ReadP.val_main_call3_v0 (F := F) = Cert.ReferenceIdeal.ReadP.val_main_call2_v0 (F := F) := rfl
theorem val_main_call4_v0_eq {F : FTy → Type} [FloatOps F] : Cert.ReferenceIdeal.ReadP.val_main_call4_v0 (F := F) = Cert.ReferenceIdeal.ReadP.val_main_call2_v0 (F := F) := rfl

namespace Edge

/-- The partner index as the reference computes it: `e xor 1` is non-negative, so the wrap-around select keeps it. -/
theorem rev_word (e : Nat) (he : e < 400000) :
    Scalar.select (IntOp.cmpi .slt (IntOp.xori (BitVec.ofNat 32 e) 1#32) 0#32)
        (IntOp.addi (IntOp.xori (BitVec.ofNat 32 e) 1#32) 400000#32) (IntOp.xori (BitVec.ofNat 32 e) 1#32)
      = BitVec.ofNat 32 e ^^^ 1#32 := by
  have hx := xor_one_toNat e he
  have hlt : (BitVec.ofNat 32 e ^^^ 1#32).toNat < 2 ^ 31 := by rw [hx]; split <;> omega
  have hc : IntOp.cmpi .slt (IntOp.xori (BitVec.ofNat 32 e) 1#32) 0#32 = 0#1 :=
    eq_zero_of_ne_one fun h => by
      have := (StableHlo.Predicate.slt_iff_toNat (a := BitVec.ofNat 32 e ^^^ 1#32) (b := 0#32) hlt (by decide)).mp h
      exact absurd this (by simp)
  rw [hc, select_zero]
  rfl

/-- The reference's partner-index column at row `e` is the word `e xor 1`. -/
theorem v23_row (e : Fin 400000) : Cert.ReferenceIdeal.ReadP.val_main_v23 (F := Ideal) (rowIdx e) = BitVec.ofNat 32 e.val ^^^ 1#32 := by
  rw [Cert.ReferenceIdeal.ReadP.val_main_v23_apply, Cert.ReferenceIdeal.ReadP.val_main_v22_apply, Cert.ReferenceIdeal.ReadP.val_main_v19_apply, Cert.ReferenceIdeal.ReadP.val_main_v21_apply,
    Cert.ReferenceIdeal.ReadP.val_main_v6_apply, Cert.ReferenceIdeal.ReadP.val_main_v4_apply, Cert.ReferenceIdeal.ReadP.val_main_v5_apply, Cert.ReferenceIdeal.ReadP.val_main_c_apply,
    Cert.ReferenceIdeal.ReadP.val_main_v18_apply, Cert.ReferenceIdeal.ReadP.val_main_c_2_apply, Cert.ReferenceIdeal.ReadP.val_main_v20_apply, Cert.ReferenceIdeal.ReadP.val_main_c_3_apply]
  exact rev_word e.val e.isLt

/-- The reference's gather of the edge states reads row `e`'s partner row. -/
theorem rgather_apply (b : FVec Ideal Cert.ReferenceIdeal.S400000x256 .f32) (e : Fin 400000) (k : Fin 256) :
    Host.gather Cert.ReferenceIdeal.gather_S400000x256_S400000x1_S400000x256_1_0_n_n_0_1_1256 b (Cert.ReferenceIdeal.ReadP.val_main_v23 (F := Ideal)) (ix2 e k) = b (ix2 (pairOf (n := 400000) (by decide) e) k) := by
  refine (gather_rows_apply (N := 400000) (M := 256) (n := 400000) (by decide) Cert.ReferenceIdeal.gather_S400000x256_S400000x1_S400000x256_1_0_n_n_0_1_1256.wf b (Cert.ReferenceIdeal.ReadP.val_main_v23 (F := Ideal)) e k).trans ?_
  refine congrArg (fun r => b (ix2 r k)) (Fin.ext ?_)
  show min (Cert.ReferenceIdeal.ReadP.val_main_v23 (F := Ideal) (rowIdx e)).toInt.toNat (400000 - 1) = (pairOf (n := 400000) (by decide) e).val
  have he := e.isLt
  have hx := xor_one_toNat e.val he
  have hlt : (BitVec.ofNat 32 e.val ^^^ 1#32).toNat < 2 ^ 31 := by rw [hx]; split <;> omega
  rw [v23_row, StableHlo.Predicate.toInt_eq_toNat_of_lt hlt, Int.toNat_natCast, hx, pairOf_val]
  split <;> omega

/-- The reference's `dot_general` at `(e, j)`: the sum over the 256 contracted coordinates. -/
theorem rdot_apply (l : FVec Ideal Cert.ReferenceIdeal.S400000x256 .f32) (r : FVec Ideal Cert.ReferenceIdeal.S256x256 .f32)
    (e : Fin 400000) (j : Fin 256) :
    Host.dotGeneral Cert.ReferenceIdeal.dot_S400000x256_S256x256_S400000x256_1_0_0_1_n_n none l r (ix2 e j) = ∑ k : Fin 256, l (ix2 e k) * r (ix2 k j) := by
  simp only [Host.dotGeneral]
  rw [Ideal.dotGeneral_apply, ← Equiv.sum_comp (ValueIdx.contrEquiv1 Cert.ReferenceIdeal.dot_S400000x256_S256x256_S400000x256_1_0_0_1_n_n 256 rfl rfl).symm]
  refine Finset.sum_congr rfl fun k _ => ?_
  have hk := ValueIdx.contrEquiv1_symm_val Cert.ReferenceIdeal.dot_S400000x256_S256x256_S400000x256_1_0_0_1_n_n 256 rfl rfl k
  have el : Cert.ReferenceIdeal.dot_S400000x256_S256x256_S400000x256_1_0_0_1_n_n.lhsIdx (ix2 e j) ((ValueIdx.contrEquiv1 Cert.ReferenceIdeal.dot_S400000x256_S256x256_S400000x256_1_0_0_1_n_n 256 rfl rfl).symm k) = ix2 e k := funext fun a => Fin.ext (by
    match a with
    | ⟨0, _⟩ => exact Cert.ReferenceIdeal.ReadP.lhs_main_v28_0 _ _
    | ⟨1, _⟩ => exact (Cert.ReferenceIdeal.ReadP.lhs_main_v28_1 _ _).trans hk)
  have er : Cert.ReferenceIdeal.dot_S400000x256_S256x256_S400000x256_1_0_0_1_n_n.rhsIdx (ix2 e j) ((ValueIdx.contrEquiv1 Cert.ReferenceIdeal.dot_S400000x256_S256x256_S400000x256_1_0_0_1_n_n 256 rfl rfl).symm k) = ix2 k j := funext fun a => Fin.ext (by
    match a with
    | ⟨0, _⟩ => exact (Cert.ReferenceIdeal.ReadP.rhs_main_v28_0 _ _).trans hk
    | ⟨1, _⟩ => exact Cert.ReferenceIdeal.ReadP.rhs_main_v28_1 _ _)
  rw [el, er]

/-- The reference's edge update IS `edgeAt`. -/
theorem edgeRef_eq (a b : FVec Ideal Cert.ReferenceIdeal.S400000x256 .f32) (w : FVec Ideal Cert.ReferenceIdeal.S256x256 .f32)
    (h0 : FVec Ideal Cert.ReferenceIdeal.S400000x256 .f32) : edgeRef a b w h0 = edgeAt a b w h0 := by
  funext i
  obtain ⟨e, j, rfl⟩ : ∃ (e : Fin 400000) (j : Fin 256), i = ix2 e j := ⟨i 0, i 1, eq_ix2 i⟩
  rw [edgeAt_apply]
  unfold edgeRef
  refine (maximumf_apply _ _ (ix2 e j)).trans ?_
  refine congrArg₂ max ?_ ?_
  · refine (addf_apply _ _ (ix2 e j)).trans ?_
    refine congrArg (h0 (ix2 e j) + ·) ?_
    refine (rdot_apply _ _ e j).trans ?_
    refine Finset.sum_congr rfl fun k _ => ?_
    refine congrArg₂ (· * ·) ?_ rfl
    exact congrArg (a (ix2 e k) - ·) (rgather_apply b e k)
  · rw [Cert.ReferenceIdeal.ReadP.val_main_call2_v0_apply, Cert.ReferenceIdeal.ReadP.val_main_call2_cst_apply]
    exact Ideal.ofBits_zero_f32

end Edge

/-! ## The three calls' output arrays -/

section Values
open Cert.KernelIdeal Cert.KernelIdeal.Gen Cert.KernelIdeal.Hand
open Idealize.ShloMosaic.TcCoe Idealize.SL Idealize.SL.RA Idealize.SL.Sem

variable (V : (c : Dev nD) → (b : Ref sig .tc) → Buf (Elt Ideal) ((c : Thread nD τ).loc b))

/-- Pallas call 2 leaves in its output array the reference's edge update of the arrays it is entered with. -/
theorem val2 (q : Fin cfg2.W → PosShare TreeShare) (c : Dev nD) :
    (dat2 (F := Ideal) V q c).arrAt 4 cfg2.N = edgeRef (V c main_v6) (V c main_v1) (V c main_v8) (V c main_v1) :=
  (arr2_eq V q c).trans (edgeRef_eq _ _ _ _).symm

/-- Pallas call 3 likewise. -/
theorem val3 (q : Fin cfg3.W → PosShare TreeShare) (c : Dev nD) :
    (dat3 (F := Ideal) V q c).arrAt 4 cfg3.N = edgeRef (V c main_v14) (V c main_v9) (V c main_v16) (V c main_v1) :=
  (arr3_eq V q c).trans (edgeRef_eq _ _ _ _).symm

/-- Pallas call 4 likewise. -/
theorem val4 (q : Fin cfg4.W → PosShare TreeShare) (c : Dev nD) :
    (dat4 (F := Ideal) V q c).arrAt 4 cfg4.N = edgeRef (V c main_v22) (V c main_v17) (V c main_v24) (V c main_v1) :=
  (arr4_eq V q c).trans (edgeRef_eq _ _ _ _).symm

end Values

end Cert.Bridge

end
-- ==== Proof.VFinal.lean ====
/-
  The fused output head (call 5 of the kernel), as ONE function of the arrays the call finds, against the reference's last
  stages. On every node the body computes `y = agg · wlr0 + hn · wlr1 + h0 · wlr2` (three 256-term products added
  left to right), then `max ((y · wo0 + h0 · wo1) + bias) 0`; the reference joins `[agg | hn | h0]` along the columns
  and contracts the 768 columns with `W_lr` in one product, joins `[y | h0]` and contracts the 512 columns with `W_o`
  in one product, adds the bias and takes the larger of that and zero. The law between them: a sum over a joined axis
  is the sum of the sums over its pieces (sums of extended reals associate and commute; no distributivity is used),
  with each joined array read at a column as the piece the column falls in, and the rows of `W_lr` and `W_o` read
  through the slices the call is handed. At the ideal values the roundings to bf16 are the identity.
-/
import proofs.«429236_j40699110097566_3_alg».proof.Proof.IR5
import proofs.«429236_j40699110097566_3_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge
open Idealize.ShloMosaic Idealize.ShloMosaic.ValueIdx

/-! ## A sum over a joined axis is the sum of the sums over its pieces -/

section SplitSums
variable {M : Type*} [AddCommMonoid M]

/-- 768 terms are three runs of 256, added left to right. -/
theorem sum_fin768 (f : Fin 768 → M) :
    ∑ k : Fin 768, f k
      = (∑ k : Fin 256, f ⟨k.val, by omega⟩ + ∑ k : Fin 256, f ⟨256 + k.val, by omega⟩) + ∑ k : Fin 256, f ⟨512 + k.val, by omega⟩ :=
  calc ∑ k : Fin 768, f k
      = ∑ i : Fin 512, f (Fin.castAdd 256 i) + ∑ i : Fin 256, f (Fin.natAdd 512 i) := Fin.sum_univ_add (a := 512) (b := 256) f
    _ = (∑ i : Fin 256, f (Fin.castAdd 256 (Fin.castAdd 256 i)) + ∑ i : Fin 256, f (Fin.castAdd 256 (Fin.natAdd 256 i)))
          + ∑ i : Fin 256, f (Fin.natAdd 512 i) :=
        congrArg (· + ∑ i : Fin 256, f (Fin.natAdd 512 i))
          (Fin.sum_univ_add (a := 256) (b := 256) (fun i => f (Fin.castAdd 256 i)))
    _ = _ := rfl

/-- 512 terms are two runs of 256. -/
theorem sum_fin512 (f : Fin 512 → M) :
    ∑ k : Fin 512, f k = ∑ k : Fin 256, f ⟨k.val, by omega⟩ + ∑ k : Fin 256, f ⟨256 + k.val, by omega⟩ :=
  (Fin.sum_univ_add (a := 256) (b := 256) f).trans rfl

end SplitSums

/-! ## The output head on one row -/

/-- The linear stage on one node: the row `a · w0 + h · w1 + z · w2` at column `k`, the three products added left to right. -/
def lrRow (a h z : Fin 256 → EReal) (w0 w1 w2 : Fin 256 → Fin 256 → EReal) (k : Fin 256) : EReal :=
  (∑ j : Fin 256, a j * w0 j k + ∑ j : Fin 256, h j * w1 j k) + ∑ j : Fin 256, z j * w2 j k

/-- The head on one node: `max ((y · u0 + z · u1) + bias) 0` at column `c`, `y` the linear stage's row. -/
def headRow (a h z : Fin 256 → EReal) (w0 w1 w2 u0 u1 : Fin 256 → Fin 256 → EReal) (bias : Fin 256 → EReal) (c : Fin 256) : EReal :=
  max (((∑ k : Fin 256, lrRow a h z w0 w1 w2 k * u0 k c) + ∑ k : Fin 256, z k * u1 k c) + bias c) 0

/-- The head over whole arrays: at node `i 0` and column `i 1`, the head on that node's rows of the three node arrays. -/
def headArr (agg hn h0 : (⟨2, ![100000, 256]⟩ : Shape).Idx → EReal) (w0 w1 w2 u0 u1 : (⟨2, ![256, 256]⟩ : Shape).Idx → EReal)
    (bv : (⟨2, ![1, 256]⟩ : Shape).Idx → EReal) : (⟨2, ![100000, 256]⟩ : Shape).Idx → EReal :=
  fun i => headRow (fun j => agg (ix2 (n0 := 100000) (i 0) j)) (fun j => hn (ix2 (n0 := 100000) (i 0) j)) (fun j => h0 (ix2 (n0 := 100000) (i 0) j))
    (fun j k => w0 (ix2 j k)) (fun j k => w1 (ix2 j k)) (fun j k => w2 (ix2 j k)) (fun j k => u0 (ix2 j k)) (fun j k => u1 (ix2 j k))
    (fun k => bv (ix2 (0 : Fin 1) k)) (i 1)

/-- The head over whole arrays at node `r`, column `c`. -/
theorem headArr_apply (agg hn h0 : (⟨2, ![100000, 256]⟩ : Shape).Idx → EReal) (w0 w1 w2 u0 u1 : (⟨2, ![256, 256]⟩ : Shape).Idx → EReal)
    (bv : (⟨2, ![1, 256]⟩ : Shape).Idx → EReal) (r : Fin 100000) (c : Fin 256) :
    headArr agg hn h0 w0 w1 w2 u0 u1 bv (ix2 r c)
      = headRow (fun j => agg (ix2 r j)) (fun j => hn (ix2 r j)) (fun j => h0 (ix2 r j))
          (fun j k => w0 (ix2 j k)) (fun j k => w1 (ix2 j k)) (fun j k => w2 (ix2 j k)) (fun j k => u0 (ix2 j k)) (fun j k => u1 (ix2 j k))
          (fun k => bv (ix2 (0 : Fin 1) k)) c := rfl

/-- A matrix's leading rows, cut at offset zero, read the matrix's own rows. -/
theorem head_slice_rows_zero {n0 n1 m : Nat} (X : (⟨2, ![n0, n1]⟩ : Shape).Idx → EReal)
    (h : (⟨2, ![n0, n1]⟩ : Shape).Slices ![0, 0] ⟨2, ![m, n1]⟩) (j : Fin m) (e : Fin n1) :
    extractStridedSlice ⟨2, ![m, n1]⟩ ![0, 0] X h (ix2 j e) = X (ix2 ⟨j.val, Nat.lt_of_lt_of_le j.isLt (Nat.le_trans (Nat.le_add_left m 0) (h.2 0))⟩ e) :=
  slice2_axis0_apply 0 X h j e _ (Nat.zero_add _).symm

section Kernel
open Cert.KernelIdeal Cert.KernelIdeal.Gen
open Idealize.ShloMosaic Idealize.ShloMosaic.TcCoe Idealize.SL.Sem
open Idealize.ShloMosaic.ValueIdx

/-! ## The body's matrix product at an element -/

theorem mm5_lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm5_lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem mm5_rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem mm5_rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000×256 block times a 256×256 weight, accumulated into zero, at row `p` and column `c`: the row of the
    block against the column of the weight. -/
theorem mm5_apply {φ₁ φ₂ : FTy} (x : FVec Ideal S2000x256 φ₁) (w : FVec Ideal S256x256 φ₂) (p : Fin 2000) (c : Fin 256) :
    FloatOps.matmul (F := Ideal) dot_S2000x256_S256x256_S2000x256_1_0_0_1_n_n none x w (constant (F := Ideal) S2000x256 .f32 0x00000000#32) (ix2 p c)
      = ∑ k : Fin 256, x (ix2 p k) * w (ix2 k c) := by
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p c) ((ValueIdx.contrEquiv1 dot_S2000x256_S256x256_S2000x256_1_0_0_1_n_n 256 rfl rfl).symm k) = ix2 p k := funext fun a => Fin.ext (by
    match a with
    | ⟨0, _⟩ => exact mm5_lhs_ax0 _ _
    | ⟨1, _⟩ => exact (mm5_lhs_ax1 _ _).trans hk)
  have er : dot_S2000x256_S256x256_S2000x256_1_0_0_1_n_n.rhsIdx (ix2 p c) ((ValueIdx.contrEquiv1 dot_S2000x256_S256x256_S2000x256_1_0_0_1_n_n 256 rfl rfl).symm k) = ix2 k c := funext fun a => Fin.ext (by
    match a with
    | ⟨0, _⟩ => exact (mm5_rhs_ax0 _ _).trans hk
    | ⟨1, _⟩ => exact mm5_rhs_ax1 _ _)
  rw [el, er]

/-! ## The body's stored value at an element -/

/-- The linear stage of the body at row `p`, column `k` of the block. -/
theorem pay5_lr_apply (x0 x1 x2 : Vec Ideal S2000x256 .f32) (x3 x4 x5 x6 x7 : Vec Ideal S256x256 .f32) (p : Fin 2000) (c : Fin 256) :
    k5_pay2 (F := Ideal) x0 x1 x2 x3 x4 x5 x6 x7 (ix2 p c)
      = (∑ k : Fin 256, lrRow (fun j => x0 (ix2 p j)) (fun j => x1 (ix2 p j)) (fun j => x2 (ix2 p j))
            (fun j k => x3 (ix2 j k)) (fun j k => x4 (ix2 j k)) (fun j k => x5 (ix2 j k)) k * x6 (ix2 k c))
          + ∑ k : Fin 256, x2 (ix2 p k) * x7 (ix2 k c) := by
  unfold k5_pay2
  simp only [shapeCast_self]
  show FloatOps.matmul (F := Ideal) dot_S2000x256_S256x256_S2000x256_1_0_0_1_n_n none _ _ (constant (F := Ideal) S2000x256 .f32 0x00000000#32) (ix2 p c)
      + FloatOps.matmul (F := Ideal) dot_S2000x256_S256x256_S2000x256_1_0_0_1_n_n none _ _ (constant (F := Ideal) S2000x256 .f32 0x00000000#32) (ix2 p c) = _
  rw [mm5_apply, mm5_apply]
  refine congrArg₂ (· + ·) (Finset.sum_congr rfl fun k _ => congrArg (· * x6 (ix2 k c)) ?_) rfl
  show (FloatOps.matmul (F := Ideal) dot_S2000x256_S256x256_S2000x256_1_0_0_1_n_n none _ _ (constant (F := Ideal) S2000x256 .f32 0x00000000#32) (ix2 p k)
      + FloatOps.matmul (F := Ideal) dot_S2000x256_S256x256_S2000x256_1_0_0_1_n_n none _ _ (constant (F := Ideal) S2000x256 .f32 0x00000000#32) (ix2 p k))
      + FloatOps.matmul (F := Ideal) dot_S2000x256_S256x256_S2000x256_1_0_0_1_n_n none _ _ (constant (F := Ideal) S2000x256 .f32 0x00000000#32) (ix2 p k) = _
  rw [mm5_apply, mm5_apply, mm5_apply]
  rfl

/-- What the body stores at row `p`, column `c` of the block: the head on that row of the three loaded blocks. -/
theorem pay5_apply (x0 x1 x2 : Vec Ideal S2000x256 .f32) (x3 x4 x5 x6 x7 : Vec Ideal S256x256 .f32) (x8 : Vec Ideal S1x256 .f32)
    (p : Fin 2000) (c : Fin 256) :
    k5_pay1 (F := Ideal) (k5_pay2 x0 x1 x2 x3 x4 x5 x6 x7) (k5_pay3 x8) (ix2 p c)
      = headRow (fun j => x0 (ix2 p j)) (fun j => x1 (ix2 p j)) (fun j => x2 (ix2 p j))
          (fun j k => x3 (ix2 j k)) (fun j k => x4 (ix2 j k)) (fun j k => x5 (ix2 j k)) (fun j k => x6 (ix2 j k)) (fun j k => x7 (ix2 j k))
          (fun k => x8 (ix2 (0 : Fin 1) k)) c := by
  unfold k5_pay1
  show max (k5_pay2 (F := Ideal) x0 x1 x2 x3 x4 x5 x6 x7 (ix2 p c) + k5_pay3 (F := Ideal) x8 (ix2 p c)) (Ideal.ofBits .f32 0x00000000#32) = _
  rw [pay5_lr_apply, Ideal.ofBits_zero_f32]
  unfold k5_pay3
  simp only [shapeCast_self]
  rw [broadcastTo_1b_ab_apply]
  rfl

end Kernel

/-! ## The block each window holds at a point -/

section Blocks
open Cert.KernelIdeal Cert.KernelIdeal.Gen Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

theorem zero_offsets5 : (![0, 0] : Fin 2 → Nat) = fun _ => 0 := funext fun a => by fin_cases a <;> rfl

/-- The windows' index maps over the grid: a row block's and the output's block index is the point's number on the row
    axis and zero on the column axis; a weight's and the bias row's is zero on both. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

theorem point5_lt (t : Fin cfg5.N) : t.val < 50 := by
  have hN : cfg5.N = 50 := N_5
  have := t.isLt
  omega

/-- Window 0 (the last aggregation): its block at point `t` is rows `2000 t … 2000 t + 1999` of its array. -/
theorem blk5_0_apply (c : Dev nD) (t : Fin cfg5.N) (p : Fin 2000) (k : Fin 256) :
    (iblk5 V c 0 t : Vec Ideal S2000x256 .f32) (ix2 p k)
      = (V c main_v28 : S100000x256.Idx → EReal) (ix2 ⟨t.val * 2000 + p.val, by have := point5_lt t; omega⟩ k) := by
  obtain ⟨i0a, i0b, -, -, -, -, -, -, -, -, -, -, -, -, -, -, -, -, -, -⟩ := idx5 t
  unfold iblk5
  rw [View.read_apply]
  show V c main_v28 _ = V c main_v28 _
  congr 1
  funext a
  apply Fin.ext
  match a with
  | ⟨0, _⟩ => show win5_0.index t (0 : Fin 2) * 2000 + 1 * p.val = t.val * 2000 + p.val; rw [i0a]; omega
  | ⟨1, _⟩ => show win5_0.index t (1 : Fin 2) * 256 + 1 * k.val = k.val; rw [i0b]; omega

/-- Window 1 (the node states): its block at point `t` is rows `2000 t … 2000 t + 1999` of its array. -/
theorem blk5_1_apply (c : Dev nD) (t : Fin cfg5.N) (p : Fin 2000) (k : Fin 256) :
    (iblk5 V c 1 t : Vec Ideal S2000x256 .f32) (ix2 p k)
      = (V c main_v21 : S100000x256.Idx → EReal) (ix2 ⟨t.val * 2000 + p.val, by have := point5_lt t; omega⟩ k) := by
  obtain ⟨-, -, i1a, i1b, -, -, -, -, -, -, -, -, -, -, -, -, -, -, -, -⟩ := idx5 t
  unfold iblk5
  rw [View.read_apply]
  show V c main_v21 _ = V c main_v21 _
  congr 1
  funext a
  apply Fin.ext
  match a with
  | ⟨0, _⟩ => show win5_1.index t (0 : Fin 2) * 2000 + 1 * p.val = t.val * 2000 + p.val; rw [i1a]; omega
  | ⟨1, _⟩ => show win5_1.index t (1 : Fin 2) * 256 + 1 * k.val = k.val; rw [i1b]; omega

/-- Window 2 (the initial node states): its block at point `t` is rows `2000 t … 2000 t + 1999` of its array. -/
theorem blk5_2_apply (c : Dev nD) (t : Fin cfg5.N) (p : Fin 2000) (k : Fin 256) :
    (iblk5 V c 2 t : Vec Ideal S2000x256 .f32) (ix2 p k)
      = (V c main_v0 : S100000x256.Idx → EReal) (ix2 ⟨t.val * 2000 + p.val, by have := point5_lt t; omega⟩ k) := by
  obtain ⟨-, -, -, -, i2a, i2b, -, -, -, -, -, -, -, -, -, -, -, -, -, -⟩ := idx5 t
  unfold iblk5
  rw [View.read_apply]
  show V c main_v0 _ = V c main_v0 _
  congr 1
  funext a
  apply Fin.ext
  match a with
  | ⟨0, _⟩ => show win5_2.index t (0 : Fin 2) * 2000 + 1 * p.val = t.val * 2000 + p.val; rw [i2a]; omega
  | ⟨1, _⟩ => show win5_2.index t (1 : Fin 2) * 256 + 1 * k.val = k.val; rw [i2b]; omega

/-- Window 3 (rows 0 … 255 of `W_lr`): its block at every point is its whole array. -/
theorem blk5_3_eq (c : Dev nD) (t : Fin cfg5.N) :
    (iblk5 V c 3 t : Vec Ideal S256x256 .f32) = (V c main_v29 : S256x256.Idx → EReal) := by
  obtain ⟨-, -, -, -, -, -, i3a, i3b, -, -, -, -, -, -, -, -, -, -, -, -⟩ := idx5 t
  funext x
  unfold iblk5
  rw [View.read_apply]
  show V c main_v29 _ = V c main_v29 x
  congr 1
  funext a
  apply Fin.ext
  match a with
  | ⟨0, _⟩ => show win5_3.index t (0 : Fin 2) * 256 + 1 * (x 0).val = (x 0).val; rw [i3a]; omega
  | ⟨1, _⟩ => show win5_3.index t (1 : Fin 2) * 256 + 1 * (x 1).val = (x 1).val; rw [i3b]; omega

/-- Window 4 (rows 256 … 511 of `W_lr`): its block at every point is its whole array. -/
theorem blk5_4_eq (c : Dev nD) (t : Fin cfg5.N) :
    (iblk5 V c 4 t : Vec Ideal S256x256 .f32) = (V c main_v30 : S256x256.Idx → EReal) := by
  obtain ⟨-, -, -, -, -, -, -, -, i4a, i4b, -, -, -, -, -, -, -, -, -, -⟩ := idx5 t
  funext x
  unfold iblk5
  rw [View.read_apply]
  show V c main_v30 _ = V c main_v30 x
  congr 1
  funext a
  apply Fin.ext
  match a with
  | ⟨0, _⟩ => show win5_4.index t (0 : Fin 2) * 256 + 1 * (x 0).val = (x 0).val; rw [i4a]; omega
  | ⟨1, _⟩ => show win5_4.index t (1 : Fin 2) * 256 + 1 * (x 1).val = (x 1).val; rw [i4b]; omega

/-- Window 5 (rows 512 … 767 of `W_lr`): its block at every point is its whole array. -/
theorem blk5_5_eq (c : Dev nD) (t : Fin cfg5.N) :
    (iblk5 V c 5 t : Vec Ideal S256x256 .f32) = (V c main_v31 : S256x256.Idx → EReal) := by
  obtain ⟨-, -, -, -, -, -, -, -, -, -, i5a, i5b, -, -, -, -, -, -, -, -⟩ := idx5 t
  funext x
  unfold iblk5
  rw [View.read_apply]
  show V c main_v31 _ = V c main_v31 x
  congr 1
  funext a
  apply Fin.ext
  match a with
  | ⟨0, _⟩ => show win5_5.index t (0 : Fin 2) * 256 + 1 * (x 0).val = (x 0).val; rw [i5a]; omega
  | ⟨1, _⟩ => show win5_5.index t (1 : Fin 2) * 256 + 1 * (x 1).val = (x 1).val; rw [i5b]; omega

/-- Window 6 (rows 0 … 255 of `W_o`): its block at every point is its whole array. -/
theorem blk5_6_eq (c : Dev nD) (t : Fin cfg5.N) :
    (iblk5 V c 6 t : Vec Ideal S256x256 .f32) = (V c main_v32 : S256x256.Idx → EReal) := by
  obtain ⟨-, -, -, -, -, -, -, -, -, -, -, -, i6a, i6b, -, -, -, -, -, -⟩ := idx5 t
  funext x
  unfold iblk5
  rw [View.read_apply]
  show V c main_v32 _ = V c main_v32 x
  congr 1
  funext a
  apply Fin.ext
  match a with
  | ⟨0, _⟩ => show win5_6.index t (0 : Fin 2) * 256 + 1 * (x 0).val = (x 0).val; rw [i6a]; omega
  | ⟨1, _⟩ => show win5_6.index t (1 : Fin 2) * 256 + 1 * (x 1).val = (x 1).val; rw [i6b]; omega

/-- Window 7 (rows 256 … 511 of `W_o`): its block at every point is its whole array. -/
theorem blk5_7_eq (c : Dev nD) (t : Fin cfg5.N) :
    (iblk5 V c 7 t : Vec Ideal S256x256 .f32) = (V c main_v33 : S256x256.Idx → EReal) := by
  obtain ⟨-, -, -, -, -, -, -, -, -, -, -, -, -, -, i7a, i7b, -, -, -, -⟩ := idx5 t
  funext x
  unfold iblk5
  rw [View.read_apply]
  show V c main_v33 _ = V c main_v33 x
  congr 1
  funext a
  apply Fin.ext
  match a with
  | ⟨0, _⟩ => show win5_7.index t (0 : Fin 2) * 256 + 1 * (x 0).val = (x 0).val; rw [i7a]; omega
  | ⟨1, _⟩ => show win5_7.index t (1 : Fin 2) * 256 + 1 * (x 1).val = (x 1).val; rw [i7b]; omega

/-- Window 8 (the bias row): its block at every point is its whole array. -/
theorem blk5_8_eq (c : Dev nD) (t : Fin cfg5.N) :
    (iblk5 V c 8 t : Vec Ideal S1x256 .f32) = (V c main_v34 : S1x256.Idx → EReal) := by
  obtain ⟨-, -, -, -, -, -, -, -, -, -, -, -, -, -, -, -, i8a, i8b, -, -⟩ := idx5 t
  funext x
  unfold iblk5
  rw [View.read_apply]
  show V c main_v34 _ = V c main_v34 x
  congr 1
  funext a
  apply Fin.ext
  match a with
  | ⟨0, _⟩ => show win5_8.index t (0 : Fin 2) * 1 + 1 * (x 0).val = (x 0).val; rw [i8a]; omega
  | ⟨1, _⟩ => show win5_8.index t (1 : Fin 2) * 256 + 1 * (x 1).val = (x 1).val; rw [i8b]; omega

end Blocks

/-! ## From the blocks to the output array -/

section Final
open Cert.KernelIdeal Cert.KernelIdeal.Gen Cert.KernelIdeal.Hand
open Idealize.ShloMosaic.TcCoe Idealize.SL.Sem Idealize.SL.RA
open Idealize.ShloMosaic.Pipeline (Dat)

variable (V : (c : Dev nD) → (b : Ref sig .tc) → Buf (Elt Ideal) ((c : Thread nD τ).loc b))

/-- What the body stores at row `p`, column `c` of a block whose three node blocks are rows `2000 n + p` of three node
    arrays and whose weights and bias are whole arrays: the head over those arrays at node `2000 n + p`. -/
theorem head_block (agg hn h0 : S100000x256.Idx → EReal) (w0 w1 w2 u0 u1 : S256x256.Idx → EReal) (bv : S1x256.Idx → EReal)
    (x0 x1 x2 : Vec Ideal S2000x256 .f32) (x3 x4 x5 x6 x7 : Vec Ideal S256x256 .f32) (x8 : Vec Ideal S1x256 .f32)
    (n : Nat) (hn50 : n < 50)
    (e0 : ∀ (p : Fin 2000) (k : Fin 256), x0 (ix2 p k) = agg (ix2 ⟨n * 2000 + p.val, by omega⟩ k))
    (e1 : ∀ (p : Fin 2000) (k : Fin 256), x1 (ix2 p k) = hn (ix2 ⟨n * 2000 + p.val, by omega⟩ k))
    (e2 : ∀ (p : Fin 2000) (k : Fin 256), x2 (ix2 p k) = h0 (ix2 ⟨n * 2000 + p.val, by omega⟩ k))
    (e3 : x3 = w0) (e4 : x4 = w1) (e5 : x5 = w2) (e6 : x6 = u0) (e7 : x7 = u1) (e8 : x8 = bv)
    (p : Fin 2000) (c : Fin 256) :
    k5_pay1 (F := Ideal) (k5_pay2 x0 x1 x2 x3 x4 x5 x6 x7) (k5_pay3 x8) (ix2 p c)
      = headArr agg hn h0 w0 w1 w2 u0 u1 bv (ix2 ⟨n * 2000 + p.val, by omega⟩ c) := by
  subst e3 e4 e5 e6 e7 e8
  rw [pay5_apply, headArr_apply]
  simp only [e0, e1, e2]

/-- The same at any element `y` of the block. -/
theorem head_block_at (agg hn h0 : S100000x256.Idx → EReal) (w0 w1 w2 u0 u1 : S256x256.Idx → EReal) (bv : S1x256.Idx → EReal)
    (x0 x1 x2 : Vec Ideal S2000x256 .f32) (x3 x4 x5 x6 x7 : Vec Ideal S256x256 .f32) (x8 : Vec Ideal S1x256 .f32)
    (n : Nat) (hn50 : n < 50)
    (e0 : ∀ (p : Fin 2000) (k : Fin 256), x0 (ix2 p k) = agg (ix2 ⟨n * 2000 + p.val, by omega⟩ k))
    (e1 : ∀ (p : Fin 2000) (k : Fin 256), x1 (ix2 p k) = hn (ix2 ⟨n * 2000 + p.val, by omega⟩ k))
    (e2 : ∀ (p : Fin 2000) (k : Fin 256), x2 (ix2 p k) = h0 (ix2 ⟨n * 2000 + p.val, by omega⟩ k))
    (e3 : x3 = w0) (e4 : x4 = w1) (e5 : x5 = w2) (e6 : x6 = u0) (e7 : x7 = u1) (e8 : x8 = bv)
    (y : S2000x256.Idx) :
    k5_pay1 (F := Ideal) (k5_pay2 x0 x1 x2 x3 x4 x5 x6 x7) (k5_pay3 x8) y
      = headArr agg hn h0 w0 w1 w2 u0 u1 bv (ix2 ⟨n * 2000 + (y 0).val, by have := idx2_lt0 y; omega⟩ (y 1)) :=
  (congrArg (k5_pay1 (F := Ideal) (k5_pay2 x0 x1 x2 x3 x4 x5 x6 x7) (k5_pay3 x8)) (eq_ix2 y)).trans
    (head_block agg hn h0 w0 w1 w2 u0 u1 bv x0 x1 x2 x3 x4 x5 x6 x7 x8 n hn50 e0 e1 e2 e3 e4 e5 e6 e7 e8 (y 0) (y 1))

/-- What point `t` writes back is block `t` of the head over the arrays the call finds. -/
theorem flushed5_eq (q : Fin cfg5.W → PosShare TreeShare) (c : Dev nD) (t : Fin cfg5.N) :
    (dat5 (F := Ideal) V q c).flushed 9 t
      = ((cfg5.win 9).blk t).view.read (Elt Ideal) (headArr (V c main_v28) (V c main_v21) (V c main_v0) (V c main_v29) (V c main_v30) (V c main_v31) (V c main_v32) (V c main_v33) (V c main_v34)) := by
  show (cfg5.win 9).cut (grid5.coords t) ((dat5 V q c).after 9 t) = _
  rw [after5_9]
  unfold out5_9
  rw [View.canon_unit_zero zero_offsets5]
  simp only [View.ld_unit_zero (S := S2000x256) zero_offsets5, View.ld_unit_zero (S := S256x256) zero_offsets5,
    View.ld_unit_zero (S := S1x256) zero_offsets5]
  obtain ⟨-, -, -, -, -, -, -, -, -, -, -, -, -, -, -, -, -, -, i9a, i9b⟩ := idx5 t
  have ht := point5_lt t
  funext j
  rw [View.read_apply]
  refine (head_block_at (V c main_v28) (V c main_v21) (V c main_v0) (V c main_v29) (V c main_v30) (V c main_v31) (V c main_v32) (V c main_v33) (V c main_v34) (iblk5 V c 0 t) (iblk5 V c 1 t) (iblk5 V c 2 t) (iblk5 V c 3 t) (iblk5 V c 4 t) (iblk5 V c 5 t) (iblk5 V c 6 t) (iblk5 V c 7 t) (iblk5 V c 8 t) t.val ht
    (blk5_0_apply V c t) (blk5_1_apply V c t) (blk5_2_apply V c t) (blk5_3_eq V c t) (blk5_4_eq V c t) (blk5_5_eq V c t)
    (blk5_6_eq V c t) (blk5_7_eq V c t) (blk5_8_eq V c t) ((cfg5.win 9).xinj (grid5.coords t) j)).trans ?_
  show headArr (V c main_v28) (V c main_v21) (V c main_v0) (V c main_v29) (V c main_v30) (V c main_v31) (V c main_v32) (V c main_v33) (V c main_v34) _ = headArr (V c main_v28) (V c main_v21) (V c main_v0) (V c main_v29) (V c main_v30) (V c main_v31) (V c main_v32) (V c main_v33) (V c main_v34) (((cfg5.win 9).blk t).view.emb j)
  refine congrArg (headArr (V c main_v28) (V c main_v21) (V c main_v0) (V c main_v29) (V c main_v30) (V c main_v31) (V c main_v32) (V c main_v33) (V c main_v34)) ?_
  funext a
  apply Fin.ext
  match a with
  | ⟨0, _⟩ => show t.val * 2000 + (j 0).val = win5_9.index t (0 : Fin 2) * 2000 + 1 * (j 0).val; rw [i9a]; omega
  | ⟨1, _⟩ => show (j 1).val = win5_9.index t (1 : Fin 2) * 256 + 1 * (j 1).val; rw [i9b]; omega

/-- A node's row lies in point `t`'s block iff each coordinate is in the block's range on its axis. -/
theorem mem_blk5 (t : Fin cfg5.N) (i : S100000x256.Idx) :
    i ∈ ((cfg5.win 9).blk t).view.set
      ↔ ∀ a : Fin 2, win5_9.index t a * S2000x256.size a ≤ (i a).val ∧ (i a).val < win5_9.index t a * S2000x256.size a + S2000x256.size a := by
  show i ∈ ((View.whole main_v35).slice (win5_9.rect t)).set ↔ _
  rw [View.set_slice_whole, Rect.mem_set_unit]
  exact Iff.rfl

/-- Every node's row is written back: node `r` by point `r / 2000`. -/
theorem cover5 (i : S100000x256.Idx) : ∃ t : Fin cfg5.N, (cfg5.win 9).flush t = true ∧ i ∈ ((cfg5.win 9).blk t).view.set := by
  have hi0 : (i 0).val < 100000 := (i 0).isLt
  have hi1 : (i 1).val < 256 := (i 1).isLt
  have hN : cfg5.N = 50 := N_5
  obtain ⟨t, ht⟩ : ∃ t : Fin cfg5.N, t.val = (i 0).val / 2000 := ⟨⟨(i 0).val / 2000, by omega⟩, rfl⟩
  obtain ⟨-, -, -, -, -, -, -, -, -, -, -, -, -, -, -, -, -, -, i9a, i9b⟩ := idx5 t
  refine ⟨t, flush5_9 t, ?_⟩
  rw [mem_blk5]
  intro a
  match a with
  | ⟨0, _⟩ => show win5_9.index t (0 : Fin 2) * 2000 ≤ (i 0).val ∧ (i 0).val < win5_9.index t (0 : Fin 2) * 2000 + 2000; rw [i9a, ht]; omega
  | ⟨1, _⟩ => show win5_9.index t (1 : Fin 2) * 256 ≤ (i 1).val ∧ (i 1).val < win5_9.index t (1 : Fin 2) * 256 + 256; rw [i9b]; omega

/-- The output array after the call is the head over the arrays the call finds. -/
theorem final5 (q : Fin cfg5.W → PosShare TreeShare) (c : Dev nD) :
    (dat5 (F := Ideal) V q c).arrAt 9 cfg5.N = headArr (V c main_v28) (V c main_v21) (V c main_v0) (V c main_v29) (V c main_v30) (V c main_v31) (V c main_v32) (V c main_v33) (V c main_v34) :=
  (dat5 (F := Ideal) V q c).arrAt_eq_of_cover 9 (headArr (V c main_v28) (V c main_v21) (V c main_v0) (V c main_v29) (V c main_v30) (V c main_v31) (V c main_v32) (V c main_v33) (V c main_v34)) (fun t _ => flushed5_eq V q c t) cover5

end Final

section Reference
open Cert.ReferenceIdeal Cert.ReferenceIdeal.Gen
open Idealize.ShloMosaic.TcCoe Idealize.SL.Sem

/-! ## The reference's head -/

/-- The reference's last stages over any operands: the three node arrays joined along the columns against `W_lr` in one
    768-term product, the result joined with the initial node states against `W_o` in one 512-term product, the bias
    row added to every node, the larger of that and zero. -/
def finalRef (agg hn h0 : FVec Ideal S100000x256 .f32) (wlr : FVec Ideal S768x256 .f32) (wo : FVec Ideal S512x256 .f32)
    (b : FVec Ideal S256 .f32) : FVec Ideal S100000x256 .f32 :=
  maximumf (addf (Host.dotGeneral dot_S100000x512_S512x256_S100000x256_1_0_0_1_n_n none
        (concatenate S100000x512 1 [⟨S100000x256, Host.dotGeneral dot_S100000x768_S768x256_S100000x256_1_0_0_1_n_n none
            (concatenate S100000x768 1 [⟨S100000x256, agg⟩, ⟨S100000x256, hn⟩, ⟨S100000x256, h0⟩] concatenates_S100000x256_S100000x256_S100000x256_S100000x768_d1) wlr⟩,
          ⟨S100000x256, h0⟩] concatenates_S100000x256_S100000x256_S100000x512_d1) wo)
      (broadcastInDim S100000x256 ![0, 1] bcast_S1x256_S100000x256_0_1 (broadcastInDim S1x256 ![1] bcast_S256_S1x256_1 b)))
    (Cert.ReferenceIdeal.ReadP.val_main_call5_v0 (F := Ideal))

/-- The reference's product over 768 columns at node `r`, column `c`: the row of the left operand against the column of the right. -/
theorem dot768_apply (l : FVec Ideal S100000x768 .f32) (w : FVec Ideal S768x256 .f32) (r : Fin 100000) (c : Fin 256) :
    Host.dotGeneral (F := Ideal) dot_S100000x768_S768x256_S100000x256_1_0_0_1_n_n none l w (ix2 r c) = ∑ k : Fin 768, l (ix2 r k) * w (ix2 k c) := by
  simp only [Host.dotGeneral]
  rw [Ideal.dotGeneral_apply, ← Equiv.sum_comp (ValueIdx.contrEquiv1 dot_S100000x768_S768x256_S100000x256_1_0_0_1_n_n 768 rfl rfl).symm]
  refine Finset.sum_congr rfl fun k _ => ?_
  have hk := ValueIdx.contrEquiv1_symm_val dot_S100000x768_S768x256_S100000x256_1_0_0_1_n_n 768 rfl rfl k
  have el : dot_S100000x768_S768x256_S100000x256_1_0_0_1_n_n.lhsIdx (ix2 r c) ((ValueIdx.contrEquiv1 dot_S100000x768_S768x256_S100000x256_1_0_0_1_n_n 768 rfl rfl).symm k) = ix2 r k := funext fun a => Fin.ext (by
    match a with
    | ⟨0, _⟩ => exact Cert.ReferenceIdeal.ReadP.lhs_main_v83_0 _ _
    | ⟨1, _⟩ => exact (Cert.ReferenceIdeal.ReadP.lhs_main_v83_1 _ _).trans hk)
  have er : dot_S100000x768_S768x256_S100000x256_1_0_0_1_n_n.rhsIdx (ix2 r c) ((ValueIdx.contrEquiv1 dot_S100000x768_S768x256_S100000x256_1_0_0_1_n_n 768 rfl rfl).symm k) = ix2 k c := funext fun a => Fin.ext (by
    match a with
    | ⟨0, _⟩ => exact (Cert.ReferenceIdeal.ReadP.rhs_main_v83_0 _ _).trans hk
    | ⟨1, _⟩ => exact Cert.ReferenceIdeal.ReadP.rhs_main_v83_1 _ _)
  rw [el, er]

/-- The reference's product over 512 columns at node `r`, column `c`: the row of the left operand against the column of the right. -/
theorem dot512_apply (l : FVec Ideal S100000x512 .f32) (w : FVec Ideal S512x256 .f32) (r : Fin 100000) (c : Fin 256) :
    Host.dotGeneral (F := Ideal) dot_S100000x512_S512x256_S100000x256_1_0_0_1_n_n none l w (ix2 r c) = ∑ k : Fin 512, l (ix2 r k) * w (ix2 k c) := by
  simp only [Host.dotGeneral]
  rw [Ideal.dotGeneral_apply, ← Equiv.sum_comp (ValueIdx.contrEquiv1 dot_S100000x512_S512x256_S100000x256_1_0_0_1_n_n 512 rfl rfl).symm]
  refine Finset.sum_congr rfl fun k _ => ?_
  have hk := ValueIdx.contrEquiv1_symm_val dot_S100000x512_S512x256_S100000x256_1_0_0_1_n_n 512 rfl rfl k
  have el : dot_S100000x512_S512x256_S100000x256_1_0_0_1_n_n.lhsIdx (ix2 r c) ((ValueIdx.contrEquiv1 dot_S100000x512_S512x256_S100000x256_1_0_0_1_n_n 512 rfl rfl).symm k) = ix2 r k := funext fun a => Fin.ext (by
    match a with
    | ⟨0, _⟩ => exact Cert.ReferenceIdeal.ReadP.lhs_main_v85_0 _ _
    | ⟨1, _⟩ => exact (Cert.ReferenceIdeal.ReadP.lhs_main_v85_1 _ _).trans hk)
  have er : dot_S100000x512_S512x256_S100000x256_1_0_0_1_n_n.rhsIdx (ix2 r c) ((ValueIdx.contrEquiv1 dot_S100000x512_S512x256_S100000x256_1_0_0_1_n_n 512 rfl rfl).symm k) = ix2 k c := funext fun a => Fin.ext (by
    match a with
    | ⟨0, _⟩ => exact (Cert.ReferenceIdeal.ReadP.rhs_main_v85_0 _ _).trans hk
    | ⟨1, _⟩ => exact Cert.ReferenceIdeal.ReadP.rhs_main_v85_1 _ _)
  rw [el, er]

/-! ## The joined arrays at an element -/

/-- Columns `0 … 255` of the three arrays joined are the first array's. -/
theorem join3_first (x y z : FVec Ideal S100000x256 .f32) (r : Fin 100000) (k : Fin 256) (hk : k.val < 768) :
    concatenate S100000x768 1 [⟨S100000x256, x⟩, ⟨S100000x256, y⟩, ⟨S100000x256, z⟩] concatenates_S100000x256_S100000x256_S100000x256_S100000x768_d1 (ix2 r ⟨k.val, hk⟩) = x (ix2 r k) :=
  concatenate_apply_piece (1 : Fin S100000x768.rank) [⟨S100000x256, x⟩, ⟨S100000x256, y⟩, ⟨S100000x256, z⟩] concatenates_S100000x256_S100000x256_S100000x256_S100000x768_d1 (ix2 r ⟨k.val, hk⟩)
    0 (by show (0 : Nat) < 3; decide) S100000x256 x rfl rfl 0 rfl (ix2 r k)
    (fun b hb => by match b with
      | ⟨0, _⟩ => rfl
      | ⟨1, _⟩ => exact absurd rfl hb)
    (Nat.zero_add _)
/-- Columns `256 … 511` are the second array's. -/
theorem join3_second (x y z : FVec Ideal S100000x256 .f32) (r : Fin 100000) (k : Fin 256) (hk : 256 + k.val < 768) :
    concatenate S100000x768 1 [⟨S100000x256, x⟩, ⟨S100000x256, y⟩, ⟨S100000x256, z⟩] concatenates_S100000x256_S100000x256_S100000x256_S100000x768_d1 (ix2 r ⟨256 + k.val, hk⟩) = y (ix2 r k) :=
  concatenate_apply_piece (1 : Fin S100000x768.rank) [⟨S100000x256, x⟩, ⟨S100000x256, y⟩, ⟨S100000x256, z⟩] concatenates_S100000x256_S100000x256_S100000x256_S100000x768_d1 (ix2 r ⟨256 + k.val, hk⟩)
    1 (by show (1 : Nat) < 3; decide) S100000x256 y rfl rfl 256 rfl (ix2 r k)
    (fun b hb => by match b with
      | ⟨0, _⟩ => rfl
      | ⟨1, _⟩ => exact absurd rfl hb)
    rfl
/-- Columns `512 … 767` are the third array's. -/
theorem join3_third (x y z : FVec Ideal S100000x256 .f32) (r : Fin 100000) (k : Fin 256) (hk : 512 + k.val < 768) :
    concatenate S100000x768 1 [⟨S100000x256, x⟩, ⟨S100000x256, y⟩, ⟨S100000x256, z⟩] concatenates_S100000x256_S100000x256_S100000x256_S100000x768_d1 (ix2 r ⟨512 + k.val, hk⟩) = z (ix2 r k) :=
  concatenate_apply_piece (1 : Fin S100000x768.rank) [⟨S100000x256, x⟩, ⟨S100000x256, y⟩, ⟨S100000x256, z⟩] concatenates_S100000x256_S100000x256_S100000x256_S100000x768_d1 (ix2 r ⟨512 + k.val, hk⟩)
    2 (by show (2 : Nat) < 3; decide) S100000x256 z rfl rfl 512 rfl (ix2 r k)
    (fun b hb => by match b with
      | ⟨0, _⟩ => rfl
      | ⟨1, _⟩ => exact absurd rfl hb)
    rfl
/-- Columns `0 … 255` of two arrays joined are the first's, -/
theorem join2_first (x y : FVec Ideal S100000x256 .f32) (r : Fin 100000) (k : Fin 256) (hk : k.val < 512) :
    concatenate S100000x512 1 [⟨S100000x256, x⟩, ⟨S100000x256, y⟩] concatenates_S100000x256_S100000x256_S100000x512_d1 (ix2 r ⟨k.val, hk⟩) = x (ix2 r k) :=
  concatenate_pair_apply_left (1 : Fin S100000x512.rank) x y concatenates_S100000x256_S100000x256_S100000x512_d1 (ix2 r ⟨k.val, hk⟩) rfl (ix2 r k)
    (fun b => by match b with
      | ⟨0, _⟩ => rfl
      | ⟨1, _⟩ => rfl)
/-- and columns `256 … 511` the second's. -/
theorem join2_second (x y : FVec Ideal S100000x256 .f32) (r : Fin 100000) (k : Fin 256) (hk : 256 + k.val < 512) :
    concatenate S100000x512 1 [⟨S100000x256, x⟩, ⟨S100000x256, y⟩] concatenates_S100000x256_S100000x256_S100000x512_d1 (ix2 r ⟨256 + k.val, hk⟩) = y (ix2 r k) :=
  concatenate_pair_apply_right (1 : Fin S100000x512.rank) x y concatenates_S100000x256_S100000x256_S100000x512_d1 (ix2 r ⟨256 + k.val, hk⟩) rfl rfl (ix2 r k)
    (fun b hb => by match b with
      | ⟨0, _⟩ => rfl
      | ⟨1, _⟩ => exact absurd rfl hb)
    (Nat.add_comm _ _)

/-- The bias broadcast to every node, at node `r` and column `c`, is the bias at `c`. -/
theorem head_bias_apply (b : FVec Ideal S256 .f32) (r : Fin 100000) (c : Fin 256) :
    broadcastInDim S100000x256 ![0, 1] bcast_S1x256_S100000x256_0_1 (broadcastInDim S1x256 ![1] bcast_S256_S1x256_1 b) (ix2 r c) = b (ix1 c) := by
  refine (broadcastInDim_apply _ bcast_S1x256_S100000x256_0_1 _ (ix2 r c) (ix2 (0 : Fin 1) c) (fun a => match a with
    | ⟨0, _⟩ => by show 0 = if (1 : Nat) = 1 then 0 else r.val; rw [if_pos rfl]
    | ⟨1, _⟩ => by show c.val = if (256 : Nat) = 1 then 0 else c.val; rw [if_neg (by decide)])).trans ?_
  exact broadcastInDim_apply _ bcast_S256_S1x256_1 b (ix2 (0 : Fin 1) c) (ix1 c) (fun a => match a with
    | ⟨0, _⟩ => by show c.val = if (256 : Nat) = 1 then 0 else c.val; rw [if_neg (by decide)])

/-- The reference's zero array is zero everywhere. -/
theorem head_relu_zero_apply (i : S100000x256.Idx) : Cert.ReferenceIdeal.ReadP.val_main_call5_v0 (F := Ideal) i = 0 := by
  rw [Cert.ReferenceIdeal.ReadP.val_main_call5_v0_apply, Cert.ReferenceIdeal.ReadP.val_main_call5_cst_apply]
  exact Ideal.ofBits_zero_f32

/-! ## The reference's head is the head on every node -/

/-- The reference's last stages, element by element: the 768-term and 512-term products split into their runs of 256, each
    joined array read as the array its columns come from, each weight's rows read through its slices. -/
theorem finalRef_eq (agg hn h0 : FVec Ideal S100000x256 .f32) (wlr : FVec Ideal S768x256 .f32) (wo : FVec Ideal S512x256 .f32)
    (b : FVec Ideal S256 .f32)
    (s0 : S768x256.Slices ![0, 0] ⟨2, ![256, 256]⟩) (s1 : S768x256.Slices ![256, 0] ⟨2, ![256, 256]⟩) (s2 : S768x256.Slices ![512, 0] ⟨2, ![256, 256]⟩)
    (o0 : S512x256.Slices ![0, 0] ⟨2, ![256, 256]⟩) (o1 : S512x256.Slices ![256, 0] ⟨2, ![256, 256]⟩) (hb : S256.ShapeCasts S1x256) :
    finalRef agg hn h0 wlr wo b
      = headArr agg hn h0 (extractStridedSlice ⟨2, ![256, 256]⟩ ![0, 0] wlr s0) (extractStridedSlice ⟨2, ![256, 256]⟩ ![256, 0] wlr s1)
          (extractStridedSlice ⟨2, ![256, 256]⟩ ![512, 0] wlr s2) (extractStridedSlice ⟨2, ![256, 256]⟩ ![0, 0] wo o0)
          (extractStridedSlice ⟨2, ![256, 256]⟩ ![256, 0] wo o1) (shapeCast S1x256 b hb) := by
  funext i
  obtain ⟨r, c, rfl⟩ : ∃ (r : Fin 100000) (c : Fin 256), i = ix2 r c := ⟨i 0, i 1, eq_ix2 i⟩
  rw [headArr_apply]
  unfold finalRef headRow lrRow
  rw [maximumf_apply, addf_apply]
  rw [dot512_apply, sum_fin512, head_bias_apply, head_relu_zero_apply]
  simp only [join2_first, join2_second, dot768_apply, sum_fin768, join3_first, join3_second, join3_third, head_slice_rows_zero, shapeCast_a_1a_apply]
  simp only [slice2_axis0_eq]

end Reference

/-! ## The call's output is the reference's head -/

section Assembly
open Cert.KernelIdeal Cert.KernelIdeal.Gen Cert.KernelIdeal.Hand
open Idealize.ShloMosaic.TcCoe Idealize.SL.Sem Idealize.SL.RA
open Idealize.ShloMosaic.Pipeline (Dat)

variable (V : (c : Dev nD) → (b : Ref sig .tc) → Buf (Elt Ideal) ((c : Thread nD τ).loc b))

/-- The output array after the call is the reference's head of the three node arrays the call finds, when the five
    weight arrays it finds are the slices of `W_lr` and `W_o` and the bias row it finds is the bias as a 1×256 row. -/
theorem val5 (q : Fin cfg5.W → PosShare TreeShare) (c : Dev nD) (wlr : S768x256.Idx → EReal) (wo : S512x256.Idx → EReal) (b : S256.Idx → EReal)
    (h3 : (V c main_v29 : S256x256.Idx → EReal) = extractStridedSlice S256x256 ![0, 0] wlr slices_S768x256_S256x256_0_0)
    (h4 : (V c main_v30 : S256x256.Idx → EReal) = extractStridedSlice S256x256 ![256, 0] wlr slices_S768x256_S256x256_256_0)
    (h5 : (V c main_v31 : S256x256.Idx → EReal) = extractStridedSlice S256x256 ![512, 0] wlr slices_S768x256_S256x256_512_0)
    (h6 : (V c main_v32 : S256x256.Idx → EReal) = extractStridedSlice S256x256 ![0, 0] wo slices_S512x256_S256x256_0_0)
    (h7 : (V c main_v33 : S256x256.Idx → EReal) = extractStridedSlice S256x256 ![256, 0] wo slices_S512x256_S256x256_256_0)
    (h8 : (V c main_v34 : S1x256.Idx → EReal) = shapeCast S1x256 b shapeCasts_S256_S1x256) :
    (dat5 (F := Ideal) V q c).arrAt 9 cfg5.N = finalRef (V c main_v28) (V c main_v21) (V c main_v0) wlr wo b := by
  rw [final5 V q c, h3, h4, h5, h6, h7, h8]
  exact (finalRef_eq (V c main_v28) (V c main_v21) (V c main_v0) wlr wo b slices_S768x256_S256x256_0_0 slices_S768x256_S256x256_256_0
    slices_S768x256_S256x256_512_0 slices_S512x256_S256x256_0_0 slices_S512x256_S256x256_256_0 shapeCasts_S256_S1x256).symm

end Assembly

end Cert.Bridge

end
-- ==== Proof.VHost.lean ====
/-
  The host side of `@main` at the ideal instance. Between its six kernels the program runs stretches of host
  operations: a segment sum added to the node state, the guarded row gather of the node state at the source indices,
  row slices and reshapes of the weights. Here: (1) the precondition's last conjunct read back as a signed range of the
  source indices; (2) the guarded gather, and that on indices in range it is the plain gather at the wrapped index
  column (the guard holds on every row, so the fill constant is never read); (3) what each stretch leaves in the
  buffers the kernels read, from ANY contents the stretch starts from, and that it leaves every buffer it does not
  write as it was.
-/
import proofs.«429236_j40699110097566_3_alg».proof.Proof.Gen.KernelIdeal.Launch
import proofs.«429236_j40699110097566_3_alg».proof.Proof.Gen.KernelIdeal.Regions
import proofs.«429236_j40699110097566_3_alg».proof.Proof.Gen.Pre_finite_inputs
import proofs.«429236_j40699110097566_3_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.PureOps.Ideal

set_option maxRecDepth 16384

noncomputable section

namespace Cert.Bridge

open Cert.KernelIdeal Cert.KernelIdeal.Gen
open Idealize.ShloMosaic Idealize.ShloMosaic.TcCoe

/-! ## The precondition's index range -/

instance : Subsingleton Cert.Pre_finite_inputs.S_.Idx := ⟨fun a b => funext fun d => d.elim0⟩

/-- The precondition's last conjunct read back: every source index lies in `[0, 100000)`, read signed. -/
theorem src_inrange (m : (ℓ : Loc nD τ sig) → Buf (Elt Ideal) ℓ) (hpre : Cert.Pre_KernelIdeal m) (c : Dev nD) (e : S400000.Idx) :
    0 ≤ ((m ((c.tc : Thread nD τ).loc main_arg8) : IVec S400000 32) e).toInt
      ∧ ((m ((c.tc : Thread nD τ).loc main_arg8) : IVec S400000 32) e).toInt < 100000 := by
  have h := congrFun (hpre c) ValueIdx.ix0
  dsimp only [Cert.Pre_finite_inputs.fn, Cert.Pre_finite_inputs.fn_part1, Cert.Pre_finite_inputs.fn_part2] at h
  have h44 := (IntOp.andi_eq_one.1 h).2
  have h43 := Host.reduce_andi_all _ _ _ _ _ h44 e
  obtain ⟨hge, hlt⟩ := IntOp.andi_eq_one.1 h43
  have hge' : (0#32 : BitVec 32).toInt ≤ _ := IntOp.cmpi_sge.1 hge
  have hlt' : _ < (100000#32 : BitVec 32).toInt := IntOp.cmpi_slt.1 hlt
  have h0 := StableHlo.Predicate.toInt_ofNat_small 0 (by norm_num)
  have h1 := StableHlo.Predicate.toInt_ofNat_small 100000 (by norm_num)
  exact ⟨by omega, by omega⟩

/-! ## The guarded row gather, as the program's `@_take` composes it -/

/-- The index column: a negative source index is wrapped once by the table's height, then the vector is laid out as a
    400000×1 column. -/
def takeIdx (src : IVec S400000 32) : IVec S400000x1 32 :=
  let c : IVec S_ 32 := constantI S_ 32 0#32
  let v0 : IVec S400000 32 := broadcastInDim S400000 ![] bcast_S_S400000 c
  let v1 : IVec S400000 1 := cmpi .slt src v0
  let c_0 : IVec S_ 32 := constantI S_ 32 100000#32
  let v2 : IVec S400000 32 := broadcastInDim S400000 ![] bcast_S_S400000 c_0
  let v3 : IVec S400000 32 := addi src v2
  let v4 : IVec S400000 32 := select v1 v3 src
  broadcastInDim S400000x1 ![0] bcast_S400000_S400000x1_0 v4

/-- The guard, per row: the wrapped index lies in `[0, 99999]` (the conjunction reduced over the column's unit axis). -/
def takeOk (src : IVec S400000 32) : IVec S400000 1 :=
  let v5 : IVec S400000x1 32 := takeIdx src
  let c_1 : IVec S1 32 := constantI S1 32 99999#32
  let c_2 : IVec S_ 32 := constantI S_ 32 0#32
  let v6 : IVec S400000x1 32 := broadcastInDim S400000x1 ![] bcast_S_S400000x1 c_2
  let v7 : IVec S400000x1 1 := cmpi .sge v5 v6
  let v8 : IVec S1x1 32 := broadcastInDim S1x1 ![1] bcast_S1_S1x1_1 c_1
  let v9 : IVec S400000x1 32 := broadcastInDim S400000x1 ![0, 1] bcast_S1x1_S400000x1_0_1 v8
  let v10 : IVec S400000x1 1 := cmpi .sle v5 v9
  let v11 : IVec S400000x1 1 := andi v7 v10
  let c_3 : IVec S_ 1 := constantI S_ 1 1#1
  Host.reduce IntOp.andi v11 c_3 reducesTo_S400000x1_S400000_d1 h_S_

/-- The guarded row gather: row `e` of the result is row `takeIdx src e` of `x` where the guard holds, and the constant
    `0x7FC00000` in every column where it fails. -/
def takeK (x : FVec Ideal S100000x256 .f32) (src : IVec S400000 32) : FVec Ideal S400000x256 .f32 :=
  let v13 : FVec Ideal S400000x256 .f32 := Host.gather gather_S100000x256_S400000x1_S400000x256_1_0_n_n_0_1_1256 x (takeIdx src)
  let v14 : IVec S400000x256 1 := broadcastInDim S400000x256 ![0] bcast_S400000_S400000x256_0 (takeOk src)
  let cst : FVec Ideal S_ .f32 := constant (F := Ideal) S_ .f32 0x7FC00000#32
  let v15 : FVec Ideal S400000x256 .f32 := broadcastInDim S400000x256 ![] bcast_S_S400000x256 cst
  select v14 v13 v15

/-! ## The guarded gather against the plain gather -/

/-- A fold by `and` that starts at 1 and meets only 1s ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and` from 1 of an array of 1s is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- A non-negative word is not wrapped. -/
theorem wrap_eq (w : BitVec 32) (h : 0 ≤ w.toInt) :
    Scalar.select (IntOp.cmpi .slt w 0#32) (IntOp.addi w 100000#32) w = w := by
  unfold Scalar.select
  refine if_neg fun hc => ?_
  have h1 := IntOp.cmpi_slt.1 hc
  have h0 := StableHlo.Predicate.toInt_ofNat_small 0 (by norm_num)
  omega

/-- A word in `[0, 100000)` passes the guard `0 ≤ · ≤ 99999` once wrapped. -/
theorem guard_one (w : BitVec 32) (h : 0 ≤ w.toInt ∧ w.toInt < 100000) :
    IntOp.andi
        (IntOp.cmpi .sge (Scalar.select (IntOp.cmpi .slt w 0#32) (IntOp.addi w 100000#32) w) 0#32)
        (IntOp.cmpi .sle (Scalar.select (IntOp.cmpi .slt w 0#32) (IntOp.addi w 100000#32) w) 99999#32) = 1#1 := by
  rw [wrap_eq w h.1]
  have h0 := StableHlo.Predicate.toInt_ofNat_small 0 (by norm_num)
  have h1 := StableHlo.Predicate.toInt_ofNat_small 99999 (by norm_num)
  exact IntOp.andi_eq_one.2 ⟨IntOp.cmpi_sge.2 (by omega), IntOp.cmpi_sle.2 (by omega)⟩

/-- A select whose condition is 1 is its first branch. -/
theorem select_of_one {α : Type} (c : BitVec 1) (a b : α) (hc : c = 1#1) : Scalar.select c a b = a := by
  subst hc; rfl

/-- An entry of the index column is a source index, wrapped. -/
theorem takeIdx_apply (src : IVec S400000 32) (i : S400000x1.Idx) :
    ∃ k : S400000.Idx, takeIdx src i
      = Scalar.select (IntOp.cmpi .slt (src k) 0#32) (IntOp.addi (src k) 100000#32) (src k) :=
  ⟨_, rfl⟩

/-- On source indices in `[0, 100000)` the guard holds on every row. -/
theorem takeOk_one (src : IVec S400000 32) (hsrc : ∀ e, 0 ≤ (src e).toInt ∧ (src e).toInt < 100000) (j : S400000.Idx) :
    takeOk src j = 1#1 := by
  unfold takeOk
  dsimp only
  refine reduce_andi_of_all _ _ _ _ (fun _ => rfl) (fun i' => ?_) j
  obtain ⟨k, hk⟩ := takeIdx_apply src i'
  show IntOp.andi (IntOp.cmpi .sge (takeIdx src i') 0#32) (IntOp.cmpi .sle (takeIdx src i') 99999#32) = 1#1
  rw [hk]
  exact guard_one _ (hsrc k)

section
attribute [local irreducible] takeOk takeIdx

/-- On source indices in `[0, 100000)` the guarded gather is the plain gather at the index column: the guard holds on
    every row, so the fill constant is never read. -/
theorem takeK_eq_gather (x : FVec Ideal S100000x256 .f32) (src : IVec S400000 32)
    (hsrc : ∀ e, 0 ≤ (src e).toInt ∧ (src e).toInt < 100000) :
    takeK x src = Host.gather gather_S100000x256_S400000x1_S400000x256_1_0_n_n_0_1_1256 x (takeIdx src) := by
  funext i
  show Scalar.select (takeOk src _) _ _ = _
  exact select_of_one _ _ _ (takeOk_one src hsrc _)

end

variable (W : Valuation τ sig (Elt Ideal))

/-! ## What each host stretch writes, from any contents `W` -/

/-- After `hostOps2`: `main_v5` holds `main_v0` plus the segment sum of `main_v1` at the destination indices. -/
theorem after2_v5 :
    (StableHlo.after hostOps2 W (Proc.devRef .tc main_v5) : FVec Ideal S100000x256 .f32)
      = addf (W (Proc.devRef .tc main_v0))
          (Host.scatterAdd scatter_S100000x256_S400000x1_S400000x256_1_0_0_1
            (broadcastInDim S100000x256 ![] bcast_S_S100000x256 (constant (F := Ideal) S_ .f32 0x00000000#32))
            (broadcastInDim S400000x1 ![0] bcast_S400000_S400000x1_0 (W (Proc.devRef .tc main_arg9)))
            (W (Proc.devRef .tc main_v1))) := by
  dsimp only [hostOps2]; after_results

set_option maxHeartbeats 4000000 in
/-- After `hostOps2_1`: `main_v6` holds the guarded row gather of `main_v5` at the source indices. -/
theorem after2_1_v6 :
    (StableHlo.after hostOps2_1 W (Proc.devRef .tc main_v6) : FVec Ideal S400000x256 .f32)
      = takeK (W (Proc.devRef .tc main_v5)) (W (Proc.devRef .tc main_arg8)) := by
  dsimp only [hostOps2_1]; after_results_simp
  dsimp only [StableHlo.TRef.toBuf, StableHlo.TRef.ofBuf, cast_eq]
  unfold takeK takeOk takeIdx
  rfl

/-- After `hostOps2_2`: `main_v8` holds slab 0 of the stacked edge weights, as a 256×256 matrix. -/
theorem after2_2_v8 :
    (StableHlo.after hostOps2_2 W (Proc.devRef .tc main_v8) : FVec Ideal S256x256 .f32)
      = shapeCast S256x256 (extractStridedSlice S1x256x256 ![0, 0, 0] (W (Proc.devRef .tc main_arg4)) slices_S3x256x256_S1x256x256_0_0_0) shapeCasts_S1x256x256_S256x256 := by
  dsimp only [hostOps2_2]; after_results; rfl

/-- After `hostOps3`: `main_v13` holds `main_v5` plus the segment sum of `main_v9` at the destination indices. -/
theorem after3_v13 :
    (StableHlo.after hostOps3 W (Proc.devRef .tc main_v13) : FVec Ideal S100000x256 .f32)
      = addf (W (Proc.devRef .tc main_v5))
          (Host.scatterAdd scatter_S100000x256_S400000x1_S400000x256_1_0_0_1
            (broadcastInDim S100000x256 ![] bcast_S_S100000x256 (constant (F := Ideal) S_ .f32 0x00000000#32))
            (broadcastInDim S400000x1 ![0] bcast_S400000_S400000x1_0 (W (Proc.devRef .tc main_arg9)))
            (W (Proc.devRef .tc main_v9))) := by
  dsimp only [hostOps3]; after_results

set_option maxHeartbeats 4000000 in
/-- After `hostOps3_1`: `main_v14` holds the guarded row gather of `main_v13` at the source indices. -/
theorem after3_1_v14 :
    (StableHlo.after hostOps3_1 W (Proc.devRef .tc main_v14) : FVec Ideal S400000x256 .f32)
      = takeK (W (Proc.devRef .tc main_v13)) (W (Proc.devRef .tc main_arg8)) := by
  dsimp only [hostOps3_1]; after_results_simp
  dsimp only [StableHlo.TRef.toBuf, StableHlo.TRef.ofBuf, cast_eq]
  unfold takeK takeOk takeIdx
  rfl

/-- After `hostOps3_2`: `main_v16` holds slab 1 of the stacked edge weights, as a 256×256 matrix. -/
theorem after3_2_v16 :
    (StableHlo.after hostOps3_2 W (Proc.devRef .tc main_v16) : FVec Ideal S256x256 .f32)
      = shapeCast S256x256 (extractStridedSlice S1x256x256 ![1, 0, 0] (W (Proc.devRef .tc main_arg4)) slices_S3x256x256_S1x256x256_1_0_0) shapeCasts_S1x256x256_S256x256 := by
  dsimp only [hostOps3_2]; after_results; rfl

/-- After `hostOps4`: `main_v21` holds `main_v13` plus the segment sum of `main_v17` at the destination indices. -/
theorem after4_v21 :
    (StableHlo.after hostOps4 W (Proc.devRef .tc main_v21) : FVec Ideal S100000x256 .f32)
      = addf (W (Proc.devRef .tc main_v13))
          (Host.scatterAdd scatter_S100000x256_S400000x1_S400000x256_1_0_0_1
            (broadcastInDim S100000x256 ![] bcast_S_S100000x256 (constant (F := Ideal) S_ .f32 0x00000000#32))
            (broadcastInDim S400000x1 ![0] bcast_S400000_S400000x1_0 (W (Proc.devRef .tc main_arg9)))
            (W (Proc.devRef .tc main_v17))) := by
  dsimp only [hostOps4]; after_results

set_option maxHeartbeats 4000000 in
/-- After `hostOps4_1`: `main_v22` holds the guarded row gather of `main_v21` at the source indices. -/
theorem after4_1_v22 :
    (StableHlo.after hostOps4_1 W (Proc.devRef .tc main_v22) : FVec Ideal S400000x256 .f32)
      = takeK (W (Proc.devRef .tc main_v21)) (W (Proc.devRef .tc main_arg8)) := by
  dsimp only [hostOps4_1]; after_results_simp
  dsimp only [StableHlo.TRef.toBuf, StableHlo.TRef.ofBuf, cast_eq]
  unfold takeK takeOk takeIdx
  rfl

/-- After `hostOps4_2`: `main_v24` holds slab 2 of the stacked edge weights, as a 256×256 matrix. -/
theorem after4_2_v24 :
    (StableHlo.after hostOps4_2 W (Proc.devRef .tc main_v24) : FVec Ideal S256x256 .f32)
      = shapeCast S256x256 (extractStridedSlice S1x256x256 ![2, 0, 0] (W (Proc.devRef .tc main_arg4)) slices_S3x256x256_S1x256x256_2_0_0) shapeCasts_S1x256x256_S256x256 := by
  dsimp only [hostOps4_2]; after_results; rfl

/-- After `hostOps5`: `main_v28` holds the segment sum of `main_v25` at the destination indices. -/
theorem after5_v28 :
    (StableHlo.after hostOps5 W (Proc.devRef .tc main_v28) : FVec Ideal S100000x256 .f32)
      = Host.scatterAdd scatter_S100000x256_S400000x1_S400000x256_1_0_0_1
          (broadcastInDim S100000x256 ![] bcast_S_S100000x256 (constant (F := Ideal) S_ .f32 0x00000000#32))
          (broadcastInDim S400000x1 ![0] bcast_S400000_S400000x1_0 (W (Proc.devRef .tc main_arg9)))
          (W (Proc.devRef .tc main_v25)) := by
  dsimp only [hostOps5]; after_results
/-- After `hostOps5`: `main_v29`, `main_v30`, `main_v31` hold rows 0–255, 256–511, 512–767 of `main_arg7`. -/
theorem after5_v29 :
    (StableHlo.after hostOps5 W (Proc.devRef .tc main_v29) : FVec Ideal S256x256 .f32)
      = extractStridedSlice S256x256 ![0, 0] (W (Proc.devRef .tc main_arg7)) slices_S768x256_S256x256_0_0 := by
  dsimp only [hostOps5]; after_results
theorem after5_v30 :
    (StableHlo.after hostOps5 W (Proc.devRef .tc main_v30) : FVec Ideal S256x256 .f32)
      = extractStridedSlice S256x256 ![256, 0] (W (Proc.devRef .tc main_arg7)) slices_S768x256_S256x256_256_0 := by
  dsimp only [hostOps5]; after_results
theorem after5_v31 :
    (StableHlo.after hostOps5 W (Proc.devRef .tc main_v31) : FVec Ideal S256x256 .f32)
      = extractStridedSlice S256x256 ![512, 0] (W (Proc.devRef .tc main_arg7)) slices_S768x256_S256x256_512_0 := by
  dsimp only [hostOps5]; after_results
/-- After `hostOps5`: `main_v32`, `main_v33` hold rows 0–255, 256–511 of `main_arg5`. -/
theorem after5_v32 :
    (StableHlo.after hostOps5 W (Proc.devRef .tc main_v32) : FVec Ideal S256x256 .f32)
      = extractStridedSlice S256x256 ![0, 0] (W (Proc.devRef .tc main_arg5)) slices_S512x256_S256x256_0_0 := by
  dsimp only [hostOps5]; after_results
theorem after5_v33 :
    (StableHlo.after hostOps5 W (Proc.devRef .tc main_v33) : FVec Ideal S256x256 .f32)
      = extractStridedSlice S256x256 ![256, 0] (W (Proc.devRef .tc main_arg5)) slices_S512x256_S256x256_256_0 := by
  dsimp only [hostOps5]; after_results
/-- After `hostOps5`: `main_v34` holds `main_arg6` as a 1×256 row. -/
theorem after5_v34 :
    (StableHlo.after hostOps5 W (Proc.devRef .tc main_v34) : FVec Ideal S1x256 .f32)
      = shapeCast S1x256 (W (Proc.devRef .tc main_arg6)) shapeCasts_S256_S1x256 := by
  dsimp only [hostOps5]; after_results; rfl

/-! ## What each host stretch leaves alone -/

/-- `hostOps2` leaves every buffer it does not write as it was. -/
theorem after2_of (r : Ref sig .tc) (h : r ∉ hostOps2_W) :
    StableHlo.after hostOps2 W (Proc.devRef .tc r) = W (Proc.devRef .tc r) :=
  StableHlo.after_of_writes_sub hostOps2 _ hostOps2_writes h

/-- `hostOps2_1` leaves every buffer it does not write as it was. -/
theorem after2_1_of (r : Ref sig .tc) (h : r ∉ hostOps2_1_W) :
    StableHlo.after hostOps2_1 W (Proc.devRef .tc r) = W (Proc.devRef .tc r) :=
  StableHlo.after_of_writes_sub hostOps2_1 _ hostOps2_1_writes h

/-- `hostOps2_2` leaves every buffer it does not write as it was. -/
theorem after2_2_of (r : Ref sig .tc) (h : r ∉ hostOps2_2_W) :
    StableHlo.after hostOps2_2 W (Proc.devRef .tc r) = W (Proc.devRef .tc r) :=
  StableHlo.after_of_writes_sub hostOps2_2 _ hostOps2_2_writes h

/-- `hostOps3` leaves every buffer it does not write as it was. -/
theorem after3_of (r : Ref sig .tc) (h : r ∉ hostOps3_W) :
    StableHlo.after hostOps3 W (Proc.devRef .tc r) = W (Proc.devRef .tc r) :=
  StableHlo.after_of_writes_sub hostOps3 _ hostOps3_writes h

/-- `hostOps3_1` leaves every buffer it does not write as it was. -/
theorem after3_1_of (r : Ref sig .tc) (h : r ∉ hostOps3_1_W) :
    StableHlo.after hostOps3_1 W (Proc.devRef .tc r) = W (Proc.devRef .tc r) :=
  StableHlo.after_of_writes_sub hostOps3_1 _ hostOps3_1_writes h

/-- `hostOps3_2` leaves every buffer it does not write as it was. -/
theorem after3_2_of (r : Ref sig .tc) (h : r ∉ hostOps3_2_W) :
    StableHlo.after hostOps3_2 W (Proc.devRef .tc r) = W (Proc.devRef .tc r) :=
  StableHlo.after_of_writes_sub hostOps3_2 _ hostOps3_2_writes h

/-- `hostOps4` leaves every buffer it does not write as it was. -/
theorem after4_of (r : Ref sig .tc) (h : r ∉ hostOps4_W) :
    StableHlo.after hostOps4 W (Proc.devRef .tc r) = W (Proc.devRef .tc r) :=
  StableHlo.after_of_writes_sub hostOps4 _ hostOps4_writes h

/-- `hostOps4_1` leaves every buffer it does not write as it was. -/
theorem after4_1_of (r : Ref sig .tc) (h : r ∉ hostOps4_1_W) :
    StableHlo.after hostOps4_1 W (Proc.devRef .tc r) = W (Proc.devRef .tc r) :=
  StableHlo.after_of_writes_sub hostOps4_1 _ hostOps4_1_writes h

/-- `hostOps4_2` leaves every buffer it does not write as it was. -/
theorem after4_2_of (r : Ref sig .tc) (h : r ∉ hostOps4_2_W) :
    StableHlo.after hostOps4_2 W (Proc.devRef .tc r) = W (Proc.devRef .tc r) :=
  StableHlo.after_of_writes_sub hostOps4_2 _ hostOps4_2_writes h

/-- `hostOps5` leaves every buffer it does not write as it was. -/
theorem after5_of (r : Ref sig .tc) (h : r ∉ hostOps5_W) :
    StableHlo.after hostOps5 W (Proc.devRef .tc r) = W (Proc.devRef .tc r) :=
  StableHlo.after_of_writes_sub hostOps5 _ hostOps5_writes h

end Cert.Bridge

end
-- ==== Proof.Bridge.lean ====
/-
  The value of the kernel's result at the ideal instance, boundary by boundary: what each Pallas call and each host
  stretch leaves is the reference's own stage of the arguments. The two projections are the reference's
  `relu(x · w)`; a host stretch applies the reference's own operations (the scatter-add at `dst`, the sum, the
  weight slices) to equal operands; the guarded gather at `src` is the plain gather because the precondition keeps
  every index inside the node array; one edge update is `relu(h0 + (a − b[i xor 1]) · w)` with the reference's
  gather at the reversed pairs; the output head contracts the concatenations blockwise. So the result array is
  the reference's last stage of the arguments.
-/
import proofs.«429236_j40699110097566_3_alg».proof.Defs
import proofs.«429236_j40699110097566_3_alg».proof.Proof.IRun
import proofs.«429236_j40699110097566_3_alg».proof.Proof.VProj
import proofs.«429236_j40699110097566_3_alg».proof.Proof.VEdge
import proofs.«429236_j40699110097566_3_alg».proof.Proof.VFinal
import proofs.«429236_j40699110097566_3_alg».proof.Proof.VHost
import proofs.«429236_j40699110097566_3_alg».proof.Proof.RefRead

set_option maxRecDepth 16384

noncomputable section

namespace Cert.Bridge

open Cert.KernelIdeal Cert.KernelIdeal.Gen Cert.KernelIdeal.Hand
open Cert.ReferenceIdeal.ReadP
open Idealize.ShloMosaic Idealize.ShloMosaic.TcCoe Idealize.SL.Sem

variable (m : (ℓ : Loc nD τ sig) → Buf (Elt Ideal) ℓ) (c : Dev nD)

/-- The ten argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)

/-! ## The arguments are never written: every boundary reads them as launched -/

/-- The ten argument arrays. -/
abbrev argRefs : List (Ref sig .tc) := [main_arg0, main_arg1, main_arg2, main_arg3, main_arg4, main_arg5, main_arg6, main_arg7, main_arg8, main_arg9]

theorem W0_at (r : Ref sig .tc) : W0 m c (Proc.devRef .tc r) = m ((c : Thread nD τ).loc r) := rfl
theorem W1_arg (r : Ref sig .tc) (hr : r ∈ argRefs) : W1 m c (Proc.devRef .tc r) = m ((c : Thread nD τ).loc r) :=
  (W1_of_ne m c r ((by decide : ∀ r ∈ argRefs, r ≠ main_v0) r hr)).trans (W0_at m c r)
theorem W2_arg (r : Ref sig .tc) (hr : r ∈ argRefs) : W2 m c (Proc.devRef .tc r) = m ((c : Thread nD τ).loc r) :=
  (W2_of_ne m c r ((by decide : ∀ r ∈ argRefs, r ≠ main_v1) r hr)).trans (W1_arg m c r hr)
theorem W3_arg (r : Ref sig .tc) (hr : r ∈ argRefs) : W3 m c (Proc.devRef .tc r) = m ((c : Thread nD τ).loc r) :=
  (W3_of m c r ((by decide : ∀ r ∈ argRefs, r ∉ hostOps2_W) r hr)).trans (W2_arg m c r hr)
theorem W4_arg (r : Ref sig .tc) (hr : r ∈ argRefs) : W4 m c (Proc.devRef .tc r) = m ((c : Thread nD τ).loc r) :=
  (W4_of m c r ((by decide : ∀ r ∈ argRefs, r ∉ hostOps2_1_W) r hr)).trans (W3_arg m c r hr)
theorem W5_arg (r : Ref sig .tc) (hr : r ∈ argRefs) : W5 m c (Proc.devRef .tc r) = m ((c : Thread nD τ).loc r) :=
  (W5_of m c r ((by decide : ∀ r ∈ argRefs, r ∉ hostOps2_2_W) r hr)).trans (W4_arg m c r hr)
theorem W6_arg (r : Ref sig .tc) (hr : r ∈ argRefs) : W6 m c (Proc.devRef .tc r) = m ((c : Thread nD τ).loc r) :=
  (W6_of_ne m c r ((by decide : ∀ r ∈ argRefs, r ≠ main_v9) r hr)).trans (W5_arg m c r hr)
theorem W7_arg (r : Ref sig .tc) (hr : r ∈ argRefs) : W7 m c (Proc.devRef .tc r) = m ((c : Thread nD τ).loc r) :=
  (W7_of m c r ((by decide : ∀ r ∈ argRefs, r ∉ hostOps3_W) r hr)).trans (W6_arg m c r hr)
theorem W8_arg (r : Ref sig .tc) (hr : r ∈ argRefs) : W8 m c (Proc.devRef .tc r) = m ((c : Thread nD τ).loc r) :=
  (W8_of m c r ((by decide : ∀ r ∈ argRefs, r ∉ hostOps3_1_W) r hr)).trans (W7_arg m c r hr)
theorem W9_arg (r : Ref sig .tc) (hr : r ∈ argRefs) : W9 m c (Proc.devRef .tc r) = m ((c : Thread nD τ).loc r) :=
  (W9_of m c r ((by decide : ∀ r ∈ argRefs, r ∉ hostOps3_2_W) r hr)).trans (W8_arg m c r hr)
theorem W10_arg (r : Ref sig .tc) (hr : r ∈ argRefs) : W10 m c (Proc.devRef .tc r) = m ((c : Thread nD τ).loc r) :=
  (W10_of_ne m c r ((by decide : ∀ r ∈ argRefs, r ≠ main_v17) r hr)).trans (W9_arg m c r hr)
theorem W11_arg (r : Ref sig .tc) (hr : r ∈ argRefs) : W11 m c (Proc.devRef .tc r) = m ((c : Thread nD τ).loc r) :=
  (W11_of m c r ((by decide : ∀ r ∈ argRefs, r ∉ hostOps4_W) r hr)).trans (W10_arg m c r hr)
theorem W12_arg (r : Ref sig .tc) (hr : r ∈ argRefs) : W12 m c (Proc.devRef .tc r) = m ((c : Thread nD τ).loc r) :=
  (W12_of m c r ((by decide : ∀ r ∈ argRefs, r ∉ hostOps4_1_W) r hr)).trans (W11_arg m c r hr)
theorem W13_arg (r : Ref sig .tc) (hr : r ∈ argRefs) : W13 m c (Proc.devRef .tc r) = m ((c : Thread nD τ).loc r) :=
  (W13_of m c r ((by decide : ∀ r ∈ argRefs, r ∉ hostOps4_2_W) r hr)).trans (W12_arg m c r hr)
theorem W14_arg (r : Ref sig .tc) (hr : r ∈ argRefs) : W14 m c (Proc.devRef .tc r) = m ((c : Thread nD τ).loc r) :=
  (W14_of_ne m c r ((by decide : ∀ r ∈ argRefs, r ≠ main_v25) r hr)).trans (W13_arg m c r hr)
theorem W15_arg (r : Ref sig .tc) (hr : r ∈ argRefs) : W15 m c (Proc.devRef .tc r) = m ((c : Thread nD τ).loc r) :=
  (W15_of m c r ((by decide : ∀ r ∈ argRefs, r ∉ hostOps5_W) r hr)).trans (W14_arg m c r hr)

/-! ## Buffers that a stretch of boundaries leaves alone -/

/-- Round 1's three host stretches leave a buffer they do not write as the second projection left it. -/
theorem keep_2_5 (r : Ref sig .tc) (h : r ∉ hostOps2_W) (h1 : r ∉ hostOps2_1_W) (h2 : r ∉ hostOps2_2_W) :
    W5 m c (Proc.devRef .tc r) = W2 m c (Proc.devRef .tc r) :=
  (W5_of m c r h2).trans ((W4_of m c r h1).trans (W3_of m c r h))
theorem keep_6_9 (r : Ref sig .tc) (h : r ∉ hostOps3_W) (h1 : r ∉ hostOps3_1_W) (h2 : r ∉ hostOps3_2_W) :
    W9 m c (Proc.devRef .tc r) = W6 m c (Proc.devRef .tc r) :=
  (W9_of m c r h2).trans ((W8_of m c r h1).trans (W7_of m c r h))
theorem keep_10_13 (r : Ref sig .tc) (h : r ∉ hostOps4_W) (h1 : r ∉ hostOps4_1_W) (h2 : r ∉ hostOps4_2_W) :
    W13 m c (Proc.devRef .tc r) = W10 m c (Proc.devRef .tc r) :=
  (W13_of m c r h2).trans ((W12_of m c r h1).trans (W11_of m c r h))

/-! ## Boundary by boundary -/

/-- The node projection leaves the reference's `relu(node_attr · W_i_atom)`. -/
theorem at1_v0 : (W1 m c (Proc.devRef .tc main_v0) : FVec Ideal S100000x256 .f32) = val_main_v1 (F := Ideal) (A0 m c) (A2 m c) := by
  rw [W1_out]; exact val0 (atTc (W0 m)) q0 c

/-- The edge projection leaves the reference's `relu(edge_attr · W_i_bond)`; the node projection's array stays. -/
theorem at2_v1 : (W2 m c (Proc.devRef .tc main_v1) : FVec Ideal S400000x256 .f32) = val_main_v3 (F := Ideal) (A1 m c) (A3 m c) := by
  rw [W2_out]
  have h := val1 (atTc (W1 m)) q1 c
  rw [show atTc (W1 m) c main_arg1 = (A1 m c) from W1_arg m c main_arg1 (by decide), show atTc (W1 m) c main_arg3 = (A3 m c) from W1_arg m c main_arg3 (by decide)] at h
  exact h
theorem at2_v0 : (W2 m c (Proc.devRef .tc main_v0) : FVec Ideal S100000x256 .f32) = val_main_v1 (F := Ideal) (A0 m c) (A2 m c) :=
  (W2_of_ne m c main_v0 (by decide)).trans (at1_v0 m c)

/-- The initial edge states stay in place to the end: every later boundary reads them as the edge projection left them. -/
theorem at5_v1 : (W5 m c (Proc.devRef .tc main_v1) : FVec Ideal S400000x256 .f32) = val_main_v3 (F := Ideal) (A1 m c) (A3 m c) :=
  (keep_2_5 m c main_v1 (by decide) (by decide) (by decide)).trans (at2_v1 m c)
theorem at9_v1 : (W9 m c (Proc.devRef .tc main_v1) : FVec Ideal S400000x256 .f32) = val_main_v3 (F := Ideal) (A1 m c) (A3 m c) :=
  (keep_6_9 m c main_v1 (by decide) (by decide) (by decide)).trans ((W6_of_ne m c main_v1 (by decide)).trans (at5_v1 m c))
theorem at13_v1 : (W13 m c (Proc.devRef .tc main_v1) : FVec Ideal S400000x256 .f32) = val_main_v3 (F := Ideal) (A1 m c) (A3 m c) :=
  (keep_10_13 m c main_v1 (by decide) (by decide) (by decide)).trans ((W10_of_ne m c main_v1 (by decide)).trans (at9_v1 m c))

/-- Round 1, the aggregation: node states plus the scatter-add of the edge states at `dst`. -/
theorem at3_v5 : (W3 m c (Proc.devRef .tc main_v5) : FVec Ideal S100000x256 .f32) = val_main_v10 (F := Ideal) (A0 m c) (A1 m c) (A2 m c) (A3 m c) (A9 m c) := by
  rw [W3_eq, after2_v5, at2_v0, at2_v1, W2_arg m c main_arg9 (by decide)]
  rfl

/-- The kernel's wrapped index column is the reference's: the same operations on `src`. -/
theorem takeIdx_eq_v16 (src : IVec S400000 32) : (takeIdx src : IVec S400000x1 32) = val_main_v16 (F := Ideal) src := rfl
theorem takeIdx_eq_v40 (src : IVec S400000 32) : (takeIdx src : IVec S400000x1 32) = val_main_v40 (F := Ideal) src := rfl
theorem takeIdx_eq_v64 (src : IVec S400000 32) : (takeIdx src : IVec S400000x1 32) = val_main_v64 (F := Ideal) src := rfl

/-- Round 1, the weight: slice 0 of `W_h`. -/
theorem at5_v8 : (W5 m c (Proc.devRef .tc main_v8) : FVec Ideal S256x256 .f32) = val_main_v27 (F := Ideal) (A4 m c) := by
  rw [W5_eq, after2_2_v8, W4_arg m c main_arg4 (by decide)]
  rfl

/-- Round 2, the aggregation (the node states of round 1 are read through three untouched boundaries). -/
theorem at6_v5 : (W6 m c (Proc.devRef .tc main_v5) : FVec Ideal S100000x256 .f32) = val_main_v10 (F := Ideal) (A0 m c) (A1 m c) (A2 m c) (A3 m c) (A9 m c) :=
  (W6_of_ne m c main_v5 (by decide)).trans ((W5_of m c main_v5 (by decide)).trans ((W4_of m c main_v5 (by decide)).trans (at3_v5 m c)))
theorem at9_v16 : (W9 m c (Proc.devRef .tc main_v16) : FVec Ideal S256x256 .f32) = val_main_v51 (F := Ideal) (A4 m c) := by
  rw [W9_eq, after3_2_v16, W8_arg m c main_arg4 (by decide)]
  rfl
theorem at13_v24 : (W13 m c (Proc.devRef .tc main_v24) : FVec Ideal S256x256 .f32) = val_main_v75 (F := Ideal) (A4 m c) := by
  rw [W13_eq, after4_2_v24, W12_arg m c main_arg4 (by decide)]
  rfl
theorem at15_v0 : (W15 m c (Proc.devRef .tc main_v0) : FVec Ideal S100000x256 .f32) = val_main_v1 (F := Ideal) (A0 m c) (A2 m c) :=
  (W15_of m c main_v0 (by decide)).trans ((W14_of_ne m c main_v0 (by decide)).trans ((keep_10_13 m c main_v0 (by decide) (by decide) (by decide)).trans
    ((W10_of_ne m c main_v0 (by decide)).trans ((keep_6_9 m c main_v0 (by decide) (by decide) (by decide)).trans
      ((W6_of_ne m c main_v0 (by decide)).trans ((keep_2_5 m c main_v0 (by decide) (by decide) (by decide)).trans (at2_v0 m c)))))))

variable (hpre : Cert.Pre_KernelIdeal m)
include hpre

/-- Round 1, the gather at `src`: in range by the precondition, so the guard never fills. -/
theorem at4_v6 : (W4 m c (Proc.devRef .tc main_v6) : FVec Ideal S400000x256 .f32) = val_main_v17 (F := Ideal) (A0 m c) (A1 m c) (A2 m c) (A3 m c) (A8 m c) (A9 m c) := by
  rw [W4_eq, after2_1_v6, at3_v5, W3_arg m c main_arg8 (by decide), takeK_eq_gather _ _ (src_inrange m hpre c), takeIdx_eq_v16]
  rfl

/-- Round 1, the edge update. -/
theorem at6_v9 : (W6 m c (Proc.devRef .tc main_v9) : FVec Ideal S400000x256 .f32) = val_main_v30 (F := Ideal) (A0 m c) (A1 m c) (A2 m c) (A3 m c) (A4 m c) (A8 m c) (A9 m c) := by
  rw [W6_out, val2 (atTc (W5 m)) q2 c]
  show edgeRef (W5 m c (Proc.devRef .tc main_v6)) (W5 m c (Proc.devRef .tc main_v1)) (W5 m c (Proc.devRef .tc main_v8)) (W5 m c (Proc.devRef .tc main_v1)) = _
  rw [W5_of m c main_v6 (by decide), at4_v6 m c hpre, at5_v1, at5_v8]
  rfl

theorem at7_v13 : (W7 m c (Proc.devRef .tc main_v13) : FVec Ideal S100000x256 .f32) = val_main_v34 (F := Ideal) (A0 m c) (A1 m c) (A2 m c) (A3 m c) (A4 m c) (A8 m c) (A9 m c) := by
  rw [W7_eq, after3_v13, at6_v5, at6_v9 m c hpre, W6_arg m c main_arg9 (by decide)]
  rfl
theorem at8_v14 : (W8 m c (Proc.devRef .tc main_v14) : FVec Ideal S400000x256 .f32) = val_main_v41 (F := Ideal) (A0 m c) (A1 m c) (A2 m c) (A3 m c) (A4 m c) (A8 m c) (A9 m c) := by
  rw [W8_eq, after3_1_v14, at7_v13 m c hpre, W7_arg m c main_arg8 (by decide), takeK_eq_gather _ _ (src_inrange m hpre c), takeIdx_eq_v40]
  rfl
theorem at10_v17 : (W10 m c (Proc.devRef .tc main_v17) : FVec Ideal S400000x256 .f32) = val_main_v54 (F := Ideal) (A0 m c) (A1 m c) (A2 m c) (A3 m c) (A4 m c) (A8 m c) (A9 m c) := by
  rw [W10_out, val3 (atTc (W9 m)) q3 c]
  show edgeRef (W9 m c (Proc.devRef .tc main_v14)) (W9 m c (Proc.devRef .tc main_v9)) (W9 m c (Proc.devRef .tc main_v16)) (W9 m c (Proc.devRef .tc main_v1)) = _
  rw [W9_of m c main_v14 (by decide), at8_v14 m c hpre, keep_6_9 m c main_v9 (by decide) (by decide) (by decide), at6_v9 m c hpre, at9_v16, at9_v1]
  unfold val_main_v54 val_main_v53 val_main_v52 val_main_v49 val_main_v48
  rw [val_main_v47_eq, val_main_call3_v0_eq]
  rfl

/-- Round 3. -/
theorem at10_v13 : (W10 m c (Proc.devRef .tc main_v13) : FVec Ideal S100000x256 .f32) = val_main_v34 (F := Ideal) (A0 m c) (A1 m c) (A2 m c) (A3 m c) (A4 m c) (A8 m c) (A9 m c) :=
  (W10_of_ne m c main_v13 (by decide)).trans ((W9_of m c main_v13 (by decide)).trans ((W8_of m c main_v13 (by decide)).trans (at7_v13 m c hpre)))
theorem at11_v21 : (W11 m c (Proc.devRef .tc main_v21) : FVec Ideal S100000x256 .f32) = val_main_v58 (F := Ideal) (A0 m c) (A1 m c) (A2 m c) (A3 m c) (A4 m c) (A8 m c) (A9 m c) := by
  rw [W11_eq, after4_v21, at10_v13 m c hpre, at10_v17 m c hpre, W10_arg m c main_arg9 (by decide)]
  rfl
theorem at12_v22 : (W12 m c (Proc.devRef .tc main_v22) : FVec Ideal S400000x256 .f32) = val_main_v65 (F := Ideal) (A0 m c) (A1 m c) (A2 m c) (A3 m c) (A4 m c) (A8 m c) (A9 m c) := by
  rw [W12_eq, after4_1_v22, at11_v21 m c hpre, W11_arg m c main_arg8 (by decide), takeK_eq_gather _ _ (src_inrange m hpre c), takeIdx_eq_v64]
  rfl
theorem at14_v25 : (W14 m c (Proc.devRef .tc main_v25) : FVec Ideal S400000x256 .f32) = val_main_v78 (F := Ideal) (A0 m c) (A1 m c) (A2 m c) (A3 m c) (A4 m c) (A8 m c) (A9 m c) := by
  rw [W14_out, val4 (atTc (W13 m)) q4 c]
  show edgeRef (W13 m c (Proc.devRef .tc main_v22)) (W13 m c (Proc.devRef .tc main_v17)) (W13 m c (Proc.devRef .tc main_v24)) (W13 m c (Proc.devRef .tc main_v1)) = _
  rw [W13_of m c main_v22 (by decide), at12_v22 m c hpre, keep_10_13 m c main_v17 (by decide) (by decide) (by decide), at10_v17 m c hpre, at13_v24, at13_v1]
  unfold val_main_v78 val_main_v77 val_main_v76 val_main_v73 val_main_v72
  rw [val_main_v71_eq, val_main_call4_v0_eq]
  rfl

/-- The output head's operands: the last aggregation, the node states of round 3, the initial node states. -/
theorem at15_v28 : (W15 m c (Proc.devRef .tc main_v28) : FVec Ideal S100000x256 .f32) = val_main_v81 (F := Ideal) (A0 m c) (A1 m c) (A2 m c) (A3 m c) (A4 m c) (A8 m c) (A9 m c) := by
  rw [W15_eq, after5_v28, at14_v25 m c hpre, W14_arg m c main_arg9 (by decide)]
  rfl
theorem at15_v21 : (W15 m c (Proc.devRef .tc main_v21) : FVec Ideal S100000x256 .f32) = val_main_v58 (F := Ideal) (A0 m c) (A1 m c) (A2 m c) (A3 m c) (A4 m c) (A8 m c) (A9 m c) :=
  (W15_of m c main_v21 (by decide)).trans ((W14_of_ne m c main_v21 (by decide)).trans ((W13_of m c main_v21 (by decide)).trans
    ((W12_of m c main_v21 (by decide)).trans (at11_v21 m c hpre))))
/-- THE RESULT: the output head leaves the reference's last stage of the arguments. -/
theorem kernel_value : (W16 m c (Proc.devRef .tc main_v35) : FVec Ideal S100000x256 .f32)
    = val_main_v89 (F := Ideal) (A0 m c) (A1 m c) (A2 m c) (A3 m c) (A4 m c) (A5 m c) (A6 m c) (A7 m c) (A8 m c) (A9 m c) := by
  rw [W16_out, val5 (atTc (W15 m)) q5 c (A7 m c) (A5 m c) (A6 m c)
    (by show W15 m c (Proc.devRef .tc main_v29) = _; rw [W15_eq, after5_v29, W14_arg m c main_arg7 (by decide)])
    (by show W15 m c (Proc.devRef .tc main_v30) = _; rw [W15_eq, after5_v30, W14_arg m c main_arg7 (by decide)])
    (by show W15 m c (Proc.devRef .tc main_v31) = _; rw [W15_eq, after5_v31, W14_arg m c main_arg7 (by decide)])
    (by show W15 m c (Proc.devRef .tc main_v32) = _; rw [W15_eq, after5_v32, W14_arg m c main_arg5 (by decide)])
    (by show W15 m c (Proc.devRef .tc main_v33) = _; rw [W15_eq, after5_v33, W14_arg m c main_arg5 (by decide)])
    (by show W15 m c (Proc.devRef .tc main_v34) = _; rw [W15_eq, after5_v34, W14_arg m c main_arg6 (by decide)])]
  show finalRef (W15 m c (Proc.devRef .tc main_v28)) (W15 m c (Proc.devRef .tc main_v21)) (W15 m c (Proc.devRef .tc main_v0)) _ _ _ = _
  rw [at15_v28 m c hpre, at15_v21 m c hpre, at15_v0]
  rfl

end Cert.Bridge

end
-- ==== Proof.lean ====
/-
  The kernel is a message-passing network on a molecular graph: two input projections `relu(x · w)` (nodes, edges),
  three rounds of { node states += the sum of the incoming edge states (a scatter-add at `dst`); each edge takes its
  source node's state (a gather at `src`) minus the state of its reverse edge `i xor 1`, times the round's weight,
  plus its initial state, through relu }, a last aggregation, and an output head
  `relu((agg · wlr0 + hn · wlr1 + h0 · wlr2) · wo0 + h0 · wo1 + bias)`. The projections, the edge update and the head
  are Pallas calls over row blocks of 2000; the sums, the gathers and the weight slices are host operations.

  The reference computes the same with whole-array operations: the reverse edge by a gather at `arange xor 1`, the
  head by two contractions of concatenations. At the ideal instance (floats are extended reals, a change of format
  is the identity) the two agree: a row block's reverse pairs lie inside the block because a block holds an even
  number of rows from an even row; a contraction of a concatenation is the sum of the blocks' contractions (sums of
  extended reals commute and associate; no finiteness is used); every other operation is the same on both sides.
  The one place the programs differ is the gather at `src`: the kernel's fills the rows of out-of-range indices
  where the reference's clamps them, so the statement's precondition asks what the reference's indexing presupposes,
  `0 ≤ src < 100000`; in range the fill is never read.

  The frames (every execution ends, the arguments unchanged) hold at any float instance with no precondition: the
  run of @main as sixteen segments, each Pallas call a pipeline whose body obligation is its one whole-block store.
-/
import proofs.«429236_j40699110097566_3_alg».proof.Defs
import proofs.«429236_j40699110097566_3_alg».proof.Proof.Gen.Kernel
import proofs.«429236_j40699110097566_3_alg».proof.Proof.Gen.KernelIdeal
import proofs.«429236_j40699110097566_3_alg».proof.Proof.Gen.ReferenceIdeal
import proofs.«429236_j40699110097566_3_alg».proof.Proof.Gen.Pre_finite_inputs
import proofs.«429236_j40699110097566_3_alg».proof.Proof.RefRun
import proofs.«429236_j40699110097566_3_alg».proof.Proof.KRun
import proofs.«429236_j40699110097566_3_alg».proof.Proof.IRun
import proofs.«429236_j40699110097566_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_k : Cert.frame_Kernel := fun m g _ => Cert.Kernel.Hand.frame m g

/-- So does its idealization. -/
theorem frame_ki : Cert.frame_KernelIdeal := fun m g _ => Cert.KernelIdeal.Hand.frame m g

/-- The reference is a host program: its run read back stage by stage, the result dropped. -/
theorem frame_ri : Cert.frame_ReferenceIdeal := fun m g _ =>
  (θ_run Cert.ReferenceIdeal.defs _ _).mono (fun _ h c => (h c).2) (Cert.ReferenceIdeal.ValueP.run (F := Ideal) m g)

section
open Cert.KernelIdeal Cert.KernelIdeal.Gen Cert.KernelIdeal.Hand

/-- From memories agreeing on the arguments, with every source index inside the node array, both programs end with
    the reference's last stage of the arguments in their result arrays. -/
theorem algebraic : Cert.algebraic_KernelIdeal_ReferenceIdeal := by
  intro m g m' g' hpre hagree
  refine ⟨fun c => W16 m c (Proc.devRef .tc main_v35), ?_, ?_⟩
  · exact (θ_run defs (onTc (τ := τ) (main (F := Ideal))) ⟨m, fun _ => 0, g⟩).mono
      (Q := fun r => ∀ c : Dev nD, ∀ b ∈ Pipeline.ucRefs τ sig, r.2.mem (((c : Thread nD τ)).1, b) = W16 m c b)
      (fun r h c => ⟨h c _ (mem_ucRefs main_v35 (by decide)),
        (h c _ (mem_ucRefs main_arg0 (by decide))).trans (W16_main_arg0 m c),
        (h c _ (mem_ucRefs main_arg1 (by decide))).trans (W16_main_arg1 m c),
        (h c _ (mem_ucRefs main_arg2 (by decide))).trans (W16_main_arg2 m c),
        (h c _ (mem_ucRefs main_arg3 (by decide))).trans (W16_main_arg3 m c),
        (h c _ (mem_ucRefs main_arg4 (by decide))).trans (W16_main_arg4 m c),
        (h c _ (mem_ucRefs main_arg5 (by decide))).trans (W16_main_arg5 m c),
        (h c _ (mem_ucRefs main_arg6 (by decide))).trans (W16_main_arg6 m c),
        (h c _ (mem_ucRefs main_arg7 (by decide))).trans (W16_main_arg7 m c),
        (h c _ (mem_ucRefs main_arg8 (by decide))).trans (W16_main_arg8 m c),
        (h c _ (mem_ucRefs main_arg9 (by decide))).trans (W16_main_arg9 m c)⟩)
      (run_all m g)
  · refine (θ_run Cert.ReferenceIdeal.defs _ _).mono (fun r h c => ⟨(h c).1.trans ?_, (h c).2⟩)
      (Cert.ReferenceIdeal.ValueP.run (F := Ideal) m' g')
    obtain ⟨e0, e1, e2, e3, e4, e5, e6, e7, e8, e9⟩ := hagree c
    rw [e0, e1, e2, e3, e4, e5, e6, e7, e8, e9]
    exact (Cert.Bridge.kernel_value m c hpre).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
